-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x6400000 : Shape := ⟨2, ![2, 6400000]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x6400000 : S_.BroadcastsInDim S2x6400000 (![] : Fin 0 → Fin S2x6400000.rank)
  reducesTo_S2x6400000_S_d0_1 : S2x6400000.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S100000x2 .f32) (main_arg1 : FVec F S100000x2 .f32) (main_arg2 : IVec S2x6400000 32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_c_2 : IVec S_ 32 := constantI S_ 32 0#32
  let main_v9 : IVec S2x6400000 32 := broadcastInDim S2x6400000 ![] bcast_S_S2x6400000 main_c_2
  let main_v10 : IVec S2x6400000 1 := cmpi .sge main_arg2 main_v9
  let main_c_3 : IVec S_ 1 := constantI S_ 1 1#1
  let main_v11 : IVec S_ 1 := (fun x v => Host.reduce IntOp.andi x v reducesTo_S2x6400000_S_d0_1 h_S_) main_v10 main_c_3
  let main_v12 : IVec S_ 1 := andi main_v8 main_v11
  let main_c_4 : IVec S_ 32 := constantI S_ 32 100000#32
  let main_v13 : IVec S2x6400000 32 := broadcastInDim S2x6400000 ![] bcast_S_S2x6400000 main_c_4
  let main_v14 : IVec S2x6400000 1 := cmpi .slt main_arg2 main_v13
  let main_c_5 : IVec S_ 1 := constantI S_ 1 1#1
  let main_v15 : IVec S_ 1 := (fun x v => Host.reduce IntOp.andi x v reducesTo_S2x6400000_S_d0_1 h_S_) main_v14 main_c_5
  fn_part1 (F := F) main_v12 main_v15
-- ==== Kernel.lean ====
abbrev S100000x2 : Shape := ⟨2, ![100000, 2]⟩
abbrev S2x6400000 : Shape := ⟨2, ![2, 6400000]⟩
abbrev S1x6400000 : Shape := ⟨2, ![1, 6400000]⟩
abbrev S6400000 : Shape := ⟨1, ![6400000]⟩
abbrev S100000x1 : Shape := ⟨2, ![100000, 1]⟩
abbrev S100000 : Shape := ⟨1, ![100000]⟩
abbrev S_ : Shape := ⟨0, ![]⟩
abbrev S6400000x1 : Shape := ⟨2, ![6400000, 1]⟩
abbrev S1 : Shape := ⟨1, ![1]⟩
abbrev S1x1 : Shape := ⟨2, ![1, 1]⟩
abbrev S128000 : Shape := ⟨1, ![128000]⟩

abbrev nBuf : Space → Nat
  | .hbm => 241
  | .vmem => 34
  | .smem => 0
  | _ => 0

abbrev hbmTy0_0 (i : Nat) : BufTy := match i % 128 with
  | 0 => ⟨S100000x2, .f32⟩
  | 1 => ⟨S100000x2, .f32⟩
  | 2 => ⟨S2x6400000, .i32⟩
  | 3 => ⟨S1x6400000, .i32⟩
  | 4 => ⟨S6400000, .i32⟩
  | 5 => ⟨S1x6400000, .i32⟩
  | 6 => ⟨S6400000, .i32⟩
  | 7 => ⟨S100000x1, .f32⟩
  | 8 => ⟨S100000, .f32⟩
  | 9 => ⟨S100000x1, .f32⟩
  | 10 => ⟨S100000, .f32⟩
  | 11 => ⟨S100000x1, .f32⟩
  | 12 => ⟨S100000, .f32⟩
  | 13 => ⟨S100000x1, .f32⟩
  | 14 => ⟨S100000, .f32⟩
  | 15 => ⟨S_, .i32⟩
  | 16 => ⟨S6400000, .i32⟩
  | 17 => ⟨S6400000, .i1⟩
  | 18 => ⟨S_, .i32⟩
  | 19 => ⟨S6400000, .i32⟩
  | 20 => ⟨S6400000, .i32⟩
  | 21 => ⟨S6400000, .i32⟩
  | 22 => ⟨S6400000x1, .i32⟩
  | 23 => ⟨S1, .i32⟩
  | 24 => ⟨S_, .i32⟩
  | 25 => ⟨S6400000x1, .i32⟩
  | 26 => ⟨S6400000x1, .i1⟩
  | 27 => ⟨S1x1, .i32⟩
  | 28 => ⟨S6400000x1, .i32⟩
  | 29 => ⟨S6400000x1, .i1⟩
  | 30 => ⟨S6400000x1, .i1⟩
  | 31 => ⟨S_, .i1⟩
  | 32 => ⟨S6400000, .i1⟩
  | 33 => ⟨S6400000, .f32⟩
  | 34 => ⟨S_, .f32⟩
  | 35 => ⟨S6400000, .f32⟩
  | 36 => ⟨S6400000, .f32⟩
  | 37 => ⟨S_, .i32⟩
  | 38 => ⟨S6400000, .i32⟩
  | 39 => ⟨S6400000, .i1⟩
  | 40 => ⟨S_, .i32⟩
  | 41 => ⟨S6400000, .i32⟩
  | 42 => ⟨S6400000, .i32⟩
  | 43 => ⟨S6400000, .i32⟩
  | 44 => ⟨S6400000x1, .i32⟩
  | 45 => ⟨S1, .i32⟩
  | 46 => ⟨S_, .i32⟩
  | 47 => ⟨S6400000x1, .i32⟩
  | 48 => ⟨S6400000x1, .i1⟩
  | 49 => ⟨S1x1, .i32⟩
  | 50 => ⟨S6400000x1, .i32⟩
  | 51 => ⟨S6400000x1, .i1⟩
  | 52 => ⟨S6400000x1, .i1⟩
  | 53 => ⟨S_, .i1⟩
  | 54 => ⟨S6400000, .i1⟩
  | 55 => ⟨S6400000, .f32⟩
  | 56 => ⟨S_, .f32⟩
  | 57 => ⟨S6400000, .f32⟩
  | 58 => ⟨S6400000, .f32⟩
  | 59 => ⟨S_, .i32⟩
  | 60 => ⟨S6400000, .i32⟩
  | 61 => ⟨S6400000, .i1⟩
  | 62 => ⟨S_, .i32⟩
  | 63 => ⟨S6400000, .i32⟩
  | 64 => ⟨S6400000, .i32⟩
  | 65 => ⟨S6400000, .i32⟩
  | 66 => ⟨S6400000x1, .i32⟩
  | 67 => ⟨S1, .i32⟩
  | 68 => ⟨S_, .i32⟩
  | 69 => ⟨S6400000x1, .i32⟩
  | 70 => ⟨S6400000x1, .i1⟩
  | 71 => ⟨S1x1, .i32⟩
  | 72 => ⟨S6400000x1, .i32⟩
  | 73 => ⟨S6400000x1, .i1⟩
  | 74 => ⟨S6400000x1, .i1⟩
  | 75 => ⟨S_, .i1⟩
  | 76 => ⟨S6400000, .i1⟩
  | 77 => ⟨S6400000, .f32⟩
  | 78 => ⟨S_, .f32⟩
  | 79 => ⟨S6400000, .f32⟩
  | 80 => ⟨S6400000, .f32⟩
  | 81 => ⟨S_, .i32⟩
  | 82 => ⟨S6400000, .i32⟩
  | 83 => ⟨S6400000, .i1⟩
  | 84 => ⟨S_, .i32⟩
  | 85 => ⟨S6400000, .i32⟩
  | 86 => ⟨S6400000, .i32⟩
  | 87 => ⟨S6400000, .i32⟩
  | 88 => ⟨S6400000x1, .i32⟩
  | 89 => ⟨S1, .i32⟩
  | 90 => ⟨S_, .i32⟩
  | 91 => ⟨S6400000x1, .i32⟩
  | 92 => ⟨S6400000x1, .i1⟩
  | 93 => ⟨S1x1, .i32⟩
  | 94 => ⟨S6400000x1, .i32⟩
  | 95 => ⟨S6400000x1, .i1⟩
  | 96 => ⟨S6400000x1, .i1⟩
  | 97 => ⟨S_, .i1⟩
  | 98 => ⟨S6400000, .i1⟩
  | 99 => ⟨S6400000, .f32⟩
  | 100 => ⟨S_, .f32⟩
  | 101 => ⟨S6400000, .f32⟩
  | 102 => ⟨S6400000, .f32⟩
  | 103 => ⟨S_, .i32⟩
  | 104 => ⟨S6400000, .i32⟩
  | 105 => ⟨S6400000, .i1⟩
  | 106 => ⟨S_, .i32⟩
  | 107 => ⟨S6400000, .i32⟩
  | 108 => ⟨S6400000, .i32⟩
  | 109 => ⟨S6400000, .i32⟩
  | 110 => ⟨S6400000x1, .i32⟩
  | 111 => ⟨S1, .i32⟩
  | 112 => ⟨S_, .i32⟩
  | 113 => ⟨S6400000x1, .i32⟩
  | 114 => ⟨S6400000x1, .i1⟩
  | 115 => ⟨S1x1, .i32⟩
  | 116 => ⟨S6400000x1, .i32⟩
  | 117 => ⟨S6400000x1, .i1⟩
  | 118 => ⟨S6400000x1, .i1⟩
  | 119 => ⟨S_, .i1⟩
  | 120 => ⟨S6400000, .i1⟩
  | 121 => ⟨S6400000, .f32⟩
  | 122 => ⟨S_, .f32⟩
  | 123 => ⟨S6400000, .f32⟩
  | 124 => ⟨S6400000, .f32⟩
  | 125 => ⟨S_, .i32⟩
  | 126 => ⟨S6400000, .i32⟩
  | 127 => ⟨S6400000, .i1⟩
  | _ => ⟨S100000x2, .f32⟩

abbrev hbmTy0_1 (i : Nat) : BufTy := match i % 128 with
  | 0 => ⟨S_, .i32⟩
  | 1 => ⟨S6400000, .i32⟩
  | 2 => ⟨S6400000, .i32⟩
  | 3 => ⟨S6400000, .i32⟩
  | 4 => ⟨S6400000x1, .i32⟩
  | 5 => ⟨S1, .i32⟩
  | 6 => ⟨S_, .i32⟩
  | 7 => ⟨S6400000x1, .i32⟩
  | 8 => ⟨S6400000x1, .i1⟩
  | 9 => ⟨S1x1, .i32⟩
  | 10 => ⟨S6400000x1, .i32⟩
  | 11 => ⟨S6400000x1, .i1⟩
  | 12 => ⟨S6400000x1, .i1⟩
  | 13 => ⟨S_, .i1⟩
  | 14 => ⟨S6400000, .i1⟩
  | 15 => ⟨S6400000, .f32⟩
  | 16 => ⟨S_, .f32⟩
  | 17 => ⟨S6400000, .f32⟩
  | 18 => ⟨S6400000, .f32⟩
  | 19 => ⟨S_, .i32⟩
  | 20 => ⟨S6400000, .i32⟩
  | 21 => ⟨S6400000, .i1⟩
  | 22 => ⟨S_, .i32⟩
  | 23 => ⟨S6400000, .i32⟩
  | 24 => ⟨S6400000, .i32⟩
  | 25 => ⟨S6400000, .i32⟩
  | 26 => ⟨S6400000x1, .i32⟩
  | 27 => ⟨S1, .i32⟩
  | 28 => ⟨S_, .i32⟩
  | 29 => ⟨S6400000x1, .i32⟩
  | 30 => ⟨S6400000x1, .i1⟩
  | 31 => ⟨S1x1, .i32⟩
  | 32 => ⟨S6400000x1, .i32⟩
  | 33 => ⟨S6400000x1, .i1⟩
  | 34 => ⟨S6400000x1, .i1⟩
  | 35 => ⟨S_, .i1⟩
  | 36 => ⟨S6400000, .i1⟩
  | 37 => ⟨S6400000, .f32⟩
  | 38 => ⟨S_, .f32⟩
  | 39 => ⟨S6400000, .f32⟩
  | 40 => ⟨S6400000, .f32⟩
  | 41 => ⟨S_, .i32⟩
  | 42 => ⟨S6400000, .i32⟩
  | 43 => ⟨S6400000, .i1⟩
  | 44 => ⟨S_, .i32⟩
  | 45 => ⟨S6400000, .i32⟩
  | 46 => ⟨S6400000, .i32⟩
  | 47 => ⟨S6400000, .i32⟩
  | 48 => ⟨S6400000x1, .i32⟩
  | 49 => ⟨S1, .i32⟩
  | 50 => ⟨S_, .i32⟩
  | 51 => ⟨S6400000x1, .i32⟩
  | 52 => ⟨S6400000x1, .i1⟩
  | 53 => ⟨S1x1, .i32⟩
  | 54 => ⟨S6400000x1, .i32⟩
  | 55 => ⟨S6400000x1, .i1⟩
  | 56 => ⟨S6400000x1, .i1⟩
  | 57 => ⟨S_, .i1⟩
  | 58 => ⟨S6400000, .i1⟩
  | 59 => ⟨S6400000, .f32⟩
  | 60 => ⟨S_, .f32⟩
  | 61 => ⟨S6400000, .f32⟩
  | 62 => ⟨S6400000, .f32⟩
  | 63 => ⟨S6400000, .f32⟩
  | 64 => ⟨S6400000, .f32⟩
  | 65 => ⟨S6400000, .f32⟩
  | 66 => ⟨S6400000, .f32⟩
  | 67 => ⟨S_, .f32⟩
  | 68 => ⟨S100000, .f32⟩
  | 69 => ⟨S6400000x1, .i32⟩
  | 70 => ⟨S100000, .f32⟩
  | 71 => ⟨S_, .f32⟩
  | 72 => ⟨S100000, .f32⟩
  | 73 => ⟨S6400000x1, .i32⟩
  | 74 => ⟨S100000, .f32⟩
  | 75 => ⟨S_, .f32⟩
  | 76 => ⟨S100000, .f32⟩
  | 77 => ⟨S6400000x1, .i32⟩
  | 78 => ⟨S100000, .f32⟩
  | 79 => ⟨S_, .f32⟩
  | 80 => ⟨S100000, .f32⟩
  | 81 => ⟨S6400000x1, .i32⟩
  | 82 => ⟨S100000, .f32⟩
  | 83 => ⟨S_, .f32⟩
  | 84 => ⟨S6400000, .f32⟩
  | 85 => ⟨S_, .f32⟩
  | 86 => ⟨S100000, .f32⟩
  | 87 => ⟨S6400000x1, .i32⟩
  | 88 => ⟨S100000, .f32⟩
  | 89 => ⟨S_, .f32⟩
  | 90 => ⟨S100000, .f32⟩
  | 91 => ⟨S100000, .f32⟩
  | 92 => ⟨S_, .f32⟩
  | 93 => ⟨S100000, .f32⟩
  | 94 => ⟨S100000, .i1⟩
  | 95 => ⟨S100000, .f32⟩
  | 96 => ⟨S_, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .i1⟩
  | 103 => ⟨S100000, .f32⟩
  | 104 => ⟨S_, .f32⟩
  | 105 => ⟨S_, .f32⟩
  | 106 => ⟨S100000, .f32⟩
  | 107 => ⟨S100000, .f32⟩
  | 108 => ⟨S100000, .f32⟩
  | 109 => ⟨S100000, .f32⟩
  | 110 => ⟨S100000x1, .f32⟩
  | 111 => ⟨S100000x1, .f32⟩
  | 112 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S128000, .f32⟩
  | .local _ .vmem, ⟨1, _⟩ => ⟨S128000, .f32⟩
  | .local _ .vmem, ⟨2, _⟩ => ⟨S128000, .f32⟩
  | .local _ .vmem, ⟨3, _⟩ => ⟨S128000, .f32⟩
  | .local _ .vmem, ⟨4, _⟩ => ⟨S128000, .f32⟩
  | .local _ .vmem, ⟨5, _⟩ => ⟨S128000, .f32⟩
  | .local _ .vmem, ⟨6, _⟩ => ⟨S128000, .f32⟩
  | .local _ .vmem, ⟨7, _⟩ => ⟨S128000, .f32⟩
  | .local _ .vmem, ⟨8, _⟩ => ⟨S128000, .f32⟩
  | .local _ .vmem, ⟨9, _⟩ => ⟨S128000, .f32⟩
  | .local _ .vmem, ⟨10, _⟩ => ⟨S128000, .f32⟩
  | .local _ .vmem, ⟨11, _⟩ => ⟨S128000, .f32⟩
  | .local _ .vmem, ⟨12, _⟩ => ⟨S128000, .f32⟩
  | .local _ .vmem, ⟨13, _⟩ => ⟨S128000, .f32⟩
  | .local _ .vmem, ⟨14, _⟩ => ⟨S128000, .f32⟩
  | .local _ .vmem, ⟨15, _⟩ => ⟨S128000, .f32⟩
  | .local _ .vmem, ⟨16, _⟩ => ⟨S128000, .f32⟩
  | .local _ .vmem, ⟨17, _⟩ => ⟨S128000, .f32⟩
  | .local _ .vmem, ⟨18, _⟩ => ⟨S128000, .f32⟩
  | .local _ .vmem, ⟨19, _⟩ => ⟨S128000, .f32⟩
  | .local _ .vmem, ⟨20, _⟩ => ⟨S128000, .f32⟩
  | .local _ .vmem, ⟨21, _⟩ => ⟨S128000, .f32⟩
  | .local _ .vmem, ⟨22, _⟩ => ⟨S128000, .f32⟩
  | .local _ .vmem, ⟨23, _⟩ => ⟨S128000, .f32⟩
  | .local _ .vmem, ⟨24, _⟩ => ⟨S100000, .f32⟩
  | .local _ .vmem, ⟨25, _⟩ => ⟨S100000, .f32⟩
  | .local _ .vmem, ⟨26, _⟩ => ⟨S100000, .f32⟩
  | .local _ .vmem, ⟨27, _⟩ => ⟨S100000, .f32⟩
  | .local _ .vmem, ⟨28, _⟩ => ⟨S100000, .f32⟩
  | .local _ .vmem, ⟨29, _⟩ => ⟨S100000, .f32⟩
  | .local _ .vmem, ⟨30, _⟩ => ⟨S100000, .f32⟩
  | .local _ .vmem, ⟨31, _⟩ => ⟨S100000, .f32⟩
  | .local _ .vmem, ⟨32, _⟩ => ⟨S100000, .f32⟩
  | .local _ .vmem, ⟨33, _⟩ => ⟨S100000, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_cst : Ref sig .tc := ⟨.hbm, 34, rfl⟩
abbrev main_call0_v14 : Ref sig .tc := ⟨.hbm, 35, rfl⟩
abbrev main_v12 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_cst : Ref sig .tc := ⟨.hbm, 56, rfl⟩
abbrev main_call1_v14 : Ref sig .tc := ⟨.hbm, 57, rfl⟩
abbrev main_v13 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_call2_c_1 : Ref sig .tc := ⟨.hbm, 67, rfl⟩
abbrev main_call2_c_2 : Ref sig .tc := ⟨.hbm, 68, rfl⟩
abbrev main_call2_v6 : Ref sig .tc := ⟨.hbm, 69, rfl⟩
abbrev main_call2_v7 : Ref sig .tc := ⟨.hbm, 70, rfl⟩
abbrev main_call2_v8 : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_3 : Ref sig .tc := ⟨.hbm, 75, rfl⟩
abbrev main_call2_v12 : Ref sig .tc := ⟨.hbm, 76, rfl⟩
abbrev main_call2_v13 : Ref sig .tc := ⟨.hbm, 77, rfl⟩
abbrev main_call2_cst : Ref sig .tc := ⟨.hbm, 78, rfl⟩
abbrev main_call2_v14 : Ref sig .tc := ⟨.hbm, 79, rfl⟩
abbrev main_v14 : Ref sig .tc := ⟨.hbm, 80, rfl⟩
abbrev main_call3_c : Ref sig .tc := ⟨.hbm, 81, rfl⟩
abbrev main_call3_v0 : Ref sig .tc := ⟨.hbm, 82, rfl⟩
abbrev main_call3_v1 : Ref sig .tc := ⟨.hbm, 83, rfl⟩
abbrev main_call3_c_0 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_c_1 : Ref sig .tc := ⟨.hbm, 89, rfl⟩
abbrev main_call3_c_2 : Ref sig .tc := ⟨.hbm, 90, rfl⟩
abbrev main_call3_v6 : Ref sig .tc := ⟨.hbm, 91, rfl⟩
abbrev main_call3_v7 : Ref sig .tc := ⟨.hbm, 92, rfl⟩
abbrev main_call3_v8 : Ref sig .tc := ⟨.hbm, 93, rfl⟩
abbrev main_call3_v9 : Ref sig .tc := ⟨.hbm, 94, rfl⟩
abbrev main_call3_v10 : Ref sig .tc := ⟨.hbm, 95, rfl⟩
abbrev main_call3_v11 : Ref sig .tc := ⟨.hbm, 96, rfl⟩
abbrev main_call3_c_3 : Ref sig .tc := ⟨.hbm, 97, rfl⟩
abbrev main_call3_v12 : Ref sig .tc := ⟨.hbm, 98, rfl⟩
abbrev main_call3_v13 : Ref sig .tc := ⟨.hbm, 99, rfl⟩
abbrev main_call3_cst : Ref sig .tc := ⟨.hbm, 100, rfl⟩
abbrev main_call3_v14 : Ref sig .tc := ⟨.hbm, 101, rfl⟩
abbrev main_v15 : Ref sig .tc := ⟨.hbm, 102, rfl⟩
abbrev main_call4_c : Ref sig .tc := ⟨.hbm, 103, rfl⟩
abbrev main_call4_v0 : Ref sig .tc := ⟨.hbm, 104, rfl⟩
abbrev main_call4_v1 : Ref sig .tc := ⟨.hbm, 105, rfl⟩
abbrev main_call4_c_0 : Ref sig .tc := ⟨.hbm, 106, rfl⟩
abbrev main_call4_v2 : Ref sig .tc := ⟨.hbm, 107, rfl⟩
abbrev main_call4_v3 : Ref sig .tc := ⟨.hbm, 108, rfl⟩
abbrev main_call4_v4 : Ref sig .tc := ⟨.hbm, 109, rfl⟩
abbrev main_call4_v5 : Ref sig .tc := ⟨.hbm, 110, rfl⟩
abbrev main_call4_c_1 : Ref sig .tc := ⟨.hbm, 111, rfl⟩
abbrev main_call4_c_2 : Ref sig .tc := ⟨.hbm, 112, rfl⟩
abbrev main_call4_v6 : Ref sig .tc := ⟨.hbm, 113, rfl⟩
abbrev main_call4_v7 : Ref sig .tc := ⟨.hbm, 114, rfl⟩
abbrev main_call4_v8 : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_3 : Ref sig .tc := ⟨.hbm, 119, rfl⟩
abbrev main_call4_v12 : Ref sig .tc := ⟨.hbm, 120, rfl⟩
abbrev main_call4_v13 : Ref sig .tc := ⟨.hbm, 121, rfl⟩
abbrev main_call4_cst : Ref sig .tc := ⟨.hbm, 122, rfl⟩
abbrev main_call4_v14 : Ref sig .tc := ⟨.hbm, 123, rfl⟩
abbrev main_v16 : Ref sig .tc := ⟨.hbm, 124, rfl⟩
abbrev main_call5_c : Ref sig .tc := ⟨.hbm, 125, rfl⟩
abbrev main_call5_v0 : Ref sig .tc := ⟨.hbm, 126, rfl⟩
abbrev main_call5_v1 : Ref sig .tc := ⟨.hbm, 127, rfl⟩
abbrev main_call5_c_0 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_v5 : Ref sig .tc := ⟨.hbm, 132, rfl⟩
abbrev main_call5_c_1 : Ref sig .tc := ⟨.hbm, 133, rfl⟩
abbrev main_call5_c_2 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_c_3 : Ref sig .tc := ⟨.hbm, 141, rfl⟩
abbrev main_call5_v12 : Ref sig .tc := ⟨.hbm, 142, rfl⟩
abbrev main_call5_v13 : Ref sig .tc := ⟨.hbm, 143, rfl⟩
abbrev main_call5_cst : Ref sig .tc := ⟨.hbm, 144, rfl⟩
abbrev main_call5_v14 : Ref sig .tc := ⟨.hbm, 145, rfl⟩
abbrev main_v17 : Ref sig .tc := ⟨.hbm, 146, rfl⟩
abbrev main_call6_c : Ref sig .tc := ⟨.hbm, 147, rfl⟩
abbrev main_call6_v0 : Ref sig .tc := ⟨.hbm, 148, rfl⟩
abbrev main_call6_v1 : Ref sig .tc := ⟨.hbm, 149, rfl⟩
abbrev main_call6_c_0 : Ref sig .tc := ⟨.hbm, 150, rfl⟩
abbrev main_call6_v2 : Ref sig .tc := ⟨.hbm, 151, rfl⟩
abbrev main_call6_v3 : Ref sig .tc := ⟨.hbm, 152, rfl⟩
abbrev main_call6_v4 : Ref sig .tc := ⟨.hbm, 153, rfl⟩
abbrev main_call6_v5 : Ref sig .tc := ⟨.hbm, 154, rfl⟩
abbrev main_call6_c_1 : Ref sig .tc := ⟨.hbm, 155, rfl⟩
abbrev main_call6_c_2 : Ref sig .tc := ⟨.hbm, 156, rfl⟩
abbrev main_call6_v6 : Ref sig .tc := ⟨.hbm, 157, rfl⟩
abbrev main_call6_v7 : Ref sig .tc := ⟨.hbm, 158, rfl⟩
abbrev main_call6_v8 : Ref sig .tc := ⟨.hbm, 159, rfl⟩
abbrev main_call6_v9 : Ref sig .tc := ⟨.hbm, 160, rfl⟩
abbrev main_call6_v10 : Ref sig .tc := ⟨.hbm, 161, rfl⟩
abbrev main_call6_v11 : Ref sig .tc := ⟨.hbm, 162, rfl⟩
abbrev main_call6_c_3 : Ref sig .tc := ⟨.hbm, 163, rfl⟩
abbrev main_call6_v12 : Ref sig .tc := ⟨.hbm, 164, rfl⟩
abbrev main_call6_v13 : Ref sig .tc := ⟨.hbm, 165, rfl⟩
abbrev main_call6_cst : Ref sig .tc := ⟨.hbm, 166, rfl⟩
abbrev main_call6_v14 : Ref sig .tc := ⟨.hbm, 167, rfl⟩
abbrev main_v18 : Ref sig .tc := ⟨.hbm, 168, rfl⟩
abbrev main_call7_c : Ref sig .tc := ⟨.hbm, 169, rfl⟩
abbrev main_call7_v0 : Ref sig .tc := ⟨.hbm, 170, rfl⟩
abbrev main_call7_v1 : Ref sig .tc := ⟨.hbm, 171, rfl⟩
abbrev main_call7_c_0 : Ref sig .tc := ⟨.hbm, 172, rfl⟩
abbrev main_call7_v2 : Ref sig .tc := ⟨.hbm, 173, rfl⟩
abbrev main_call7_v3 : Ref sig .tc := ⟨.hbm, 174, rfl⟩
abbrev main_call7_v4 : Ref sig .tc := ⟨.hbm, 175, rfl⟩
abbrev main_call7_v5 : Ref sig .tc := ⟨.hbm, 176, rfl⟩
abbrev main_call7_c_1 : Ref sig .tc := ⟨.hbm, 177, rfl⟩
abbrev main_call7_c_2 : Ref sig .tc := ⟨.hbm, 178, rfl⟩
abbrev main_call7_v6 : Ref sig .tc := ⟨.hbm, 179, rfl⟩
abbrev main_call7_v7 : Ref sig .tc := ⟨.hbm, 180, rfl⟩
abbrev main_call7_v8 : Ref sig .tc := ⟨.hbm, 181, rfl⟩
abbrev main_call7_v9 : Ref sig .tc := ⟨.hbm, 182, rfl⟩
abbrev main_call7_v10 : Ref sig .tc := ⟨.hbm, 183, rfl⟩
abbrev main_call7_v11 : Ref sig .tc := ⟨.hbm, 184, rfl⟩
abbrev main_call7_c_3 : Ref sig .tc := ⟨.hbm, 185, rfl⟩
abbrev main_call7_v12 : Ref sig .tc := ⟨.hbm, 186, rfl⟩
abbrev main_call7_v13 : Ref sig .tc := ⟨.hbm, 187, rfl⟩
abbrev main_call7_cst : Ref sig .tc := ⟨.hbm, 188, rfl⟩
abbrev main_call7_v14 : Ref sig .tc := ⟨.hbm, 189, rfl⟩
abbrev main_v19 : Ref sig .tc := ⟨.hbm, 190, rfl⟩
abbrev main_v20_0 : Ref sig .tc := ⟨.hbm, 191, rfl⟩
abbrev main_v20_1 : Ref sig .tc := ⟨.hbm, 192, rfl⟩
abbrev main_v20_2 : Ref sig .tc := ⟨.hbm, 193, rfl⟩
abbrev main_v20_3 : Ref sig .tc := ⟨.hbm, 194, rfl⟩
abbrev main_cst : Ref sig .tc := ⟨.hbm, 195, rfl⟩
abbrev main_v21 : Ref sig .tc := ⟨.hbm, 196, rfl⟩
abbrev main_v22 : Ref sig .tc := ⟨.hbm, 197, rfl⟩
abbrev main_v23 : Ref sig .tc := ⟨.hbm, 198, rfl⟩
abbrev main_cst_0 : Ref sig .tc := ⟨.hbm, 199, rfl⟩
abbrev main_v24 : Ref sig .tc := ⟨.hbm, 200, rfl⟩
abbrev main_v25 : Ref sig .tc := ⟨.hbm, 201, rfl⟩
abbrev main_v26 : Ref sig .tc := ⟨.hbm, 202, rfl⟩
abbrev main_cst_1 : Ref sig .tc := ⟨.hbm, 203, rfl⟩
abbrev main_v27 : Ref sig .tc := ⟨.hbm, 204, rfl⟩
abbrev main_v28 : Ref sig .tc := ⟨.hbm, 205, rfl⟩
abbrev main_v29 : Ref sig .tc := ⟨.hbm, 206, rfl⟩
abbrev main_cst_2 : Ref sig .tc := ⟨.hbm, 207, rfl⟩
abbrev main_v30 : Ref sig .tc := ⟨.hbm, 208, rfl⟩
abbrev main_v31 : Ref sig .tc := ⟨.hbm, 209, rfl⟩
abbrev main_v32 : Ref sig .tc := ⟨.hbm, 210, rfl⟩
abbrev main_cst_3 : Ref sig .tc := ⟨.hbm, 211, rfl⟩
abbrev main_v33 : Ref sig .tc := ⟨.hbm, 212, rfl⟩
abbrev main_cst_4 : Ref sig .tc := ⟨.hbm, 213, rfl⟩
abbrev main_v34 : Ref sig .tc := ⟨.hbm, 214, rfl⟩
abbrev main_v35 : Ref sig .tc := ⟨.hbm, 215, rfl⟩
abbrev main_v36 : Ref sig .tc := ⟨.hbm, 216, rfl⟩
abbrev main_cst_5 : Ref sig .tc := ⟨.hbm, 217, rfl⟩
abbrev main_v37 : Ref sig .tc := ⟨.hbm, 218, rfl⟩
abbrev main_v38 : Ref sig .tc := ⟨.hbm, 219, rfl⟩
abbrev main_cst_6 : Ref sig .tc := ⟨.hbm, 220, rfl⟩
abbrev main_v39 : Ref sig .tc := ⟨.hbm, 221, rfl⟩
abbrev main_v40 : Ref sig .tc := ⟨.hbm, 222, rfl⟩
abbrev main_v41 : Ref sig .tc := ⟨.hbm, 223, rfl⟩
abbrev main_cst_7 : Ref sig .tc := ⟨.hbm, 224, rfl⟩
abbrev main_call8_v0 : Ref sig .tc := ⟨.hbm, 225, rfl⟩
abbrev main_call8_v1 : Ref sig .tc := ⟨.hbm, 226, rfl⟩
abbrev main_v42 : Ref sig .tc := ⟨.hbm, 227, rfl⟩
abbrev main_cst_8 : Ref sig .tc := ⟨.hbm, 228, rfl⟩
abbrev main_v43 : Ref sig .tc := ⟨.hbm, 229, rfl⟩
abbrev main_v44 : Ref sig .tc := ⟨.hbm, 230, rfl⟩
abbrev main_v45 : Ref sig .tc := ⟨.hbm, 231, rfl⟩
abbrev main_cst_9 : Ref sig .tc := ⟨.hbm, 232, rfl⟩
abbrev main_call9_v0 : Ref sig .tc := ⟨.hbm, 233, rfl⟩
abbrev main_call9_v1 : Ref sig .tc := ⟨.hbm, 234, rfl⟩
abbrev main_v46 : Ref sig .tc := ⟨.hbm, 235, rfl⟩
abbrev main_v47_0 : Ref sig .tc := ⟨.hbm, 236, rfl⟩
abbrev main_v47_1 : Ref sig .tc := ⟨.hbm, 237, rfl⟩
abbrev main_v48 : Ref sig .tc := ⟨.hbm, 238, rfl⟩
abbrev main_v49 : Ref sig .tc := ⟨.hbm, 239, rfl⟩
abbrev main_v50 : Ref sig .tc := ⟨.hbm, 240, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc1_stg0_0 : Ref sig .tc := ⟨.vmem, 24, rfl⟩
abbrev cc1_stg1_0 : Ref sig .tc := ⟨.vmem, 25, rfl⟩
abbrev cc1_stg2_0 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem1_0 : DmaSem sig := 25
abbrev cc1_sem2_0 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

def cc0_transform_10 (i : grid0.Coords) : Fin 1 → Nat :=
  let arg0 : BitVec 32 := BitVec.ofNat 32 (i 0).val
  let c0_i32 : BitVec 32 := 0#32
  ![arg0.toNat]

def cc0_transform_11 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S128000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128000 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128000 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128000 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![1], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 1 → Memref sig .tc .vmem S100000 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S100000 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S100000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S100000 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S100000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S100000 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S100000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S100000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S100000 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S100000 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S6400000 : S_.BroadcastsInDim S6400000 (![] : Fin 0 → Fin S6400000.rank)
  bcast_S6400000_S6400000x1_0 : S6400000.BroadcastsInDim S6400000x1 (![0] : Fin 1 → Fin S6400000x1.rank)
  bcast_S_S6400000x1 : S_.BroadcastsInDim S6400000x1 (![] : Fin 0 → Fin S6400000x1.rank)
  bcast_S1_S1x1_1 : S1.BroadcastsInDim S1x1 (![1] : Fin 1 → Fin S1x1.rank)
  bcast_S1x1_S6400000x1_0_1 : S1x1.BroadcastsInDim S6400000x1 (![0, 1] : Fin 2 → Fin S6400000x1.rank)
  reducesTo_S6400000x1_S6400000_d1 : S6400000x1.ReducesTo [1] S6400000
  h_S_ : 0 < S_.numel
  inb_S128000_S128000_0 : ∀ a, (![0] : Fin 1 → Nat) a + S128000.size a ≤ S128000.size a
  h_S128000 : 0 < S128000.numel
  shapeCasts_S128000_S128000 : S128000.ShapeCasts S128000
  bcast_S_S100000 : S_.BroadcastsInDim S100000 (![] : Fin 0 → Fin S100000.rank)
  inb_S100000_S100000_0 : ∀ a, (![0] : Fin 1 → Nat) a + S100000.size a ≤ S100000.size a
  h_S100000 : 0 < S100000.numel
  shapeCasts_S100000_S100000 : S100000.ShapeCasts S100000
  bcast_S100000_S100000x1_0 : S100000.BroadcastsInDim S100000x1 (![0] : Fin 1 → Fin S100000x1.rank)
  concatenates_S100000x1_S100000x1_S100000x2_d1 : Shape.Concatenates [S100000x1, S100000x1] S100000x2 1
  gather_S100000_S6400000x1_S6400000_n_0_n_n_0_1_1_wf : GatherDims.WF S100000 S6400000x1 S6400000 [] [0] [] [0] [] 1 ![1]
  scatter_S100000_S6400000x1_S6400000_n_0_0_1_wf : ScatterDims.WF S100000 S6400000x1 S6400000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128000.size a ≤ S6400000.size a
  hwx0_0 : ∀ i : grid0.Coords, EltTy.bits .f32 = 32 ∨ (Rect.block (s := S6400000) S128000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128000.size a ≤ S6400000.size a
  hwx0_1 : ∀ i : grid0.Coords, EltTy.bits .f32 = 32 ∨ (Rect.block (s := S6400000) S128000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128000.size a ≤ S6400000.size a
  hwx0_2 : ∀ i : grid0.Coords, EltTy.bits .f32 = 32 ∨ (Rect.block (s := S6400000) S128000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128000.size a ≤ S6400000.size a
  hwx0_3 : ∀ i : grid0.Coords, EltTy.bits .f32 = 32 ∨ (Rect.block (s := S6400000) S128000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128000.size a ≤ S6400000.size a
  hwx0_4 : ∀ i : grid0.Coords, EltTy.bits .f32 = 32 ∨ (Rect.block (s := S6400000) S128000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128000.size a ≤ S6400000.size a
  hwx0_5 : ∀ i : grid0.Coords, EltTy.bits .f32 = 32 ∨ (Rect.block (s := S6400000) S128000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128000.size a ≤ S6400000.size a
  hwx0_6 : ∀ i : grid0.Coords, EltTy.bits .f32 = 32 ∨ (Rect.block (s := S6400000) S128000.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128000.size a ≤ S6400000.size a
  hwx0_7 : ∀ i : grid0.Coords, EltTy.bits .f32 = 32 ∨ (Rect.block (s := S6400000) S128000.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128000.size a ≤ S6400000.size a
  hwx0_8 : ∀ i : grid0.Coords, EltTy.bits .f32 = 32 ∨ (Rect.block (s := S6400000) S128000.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128000.size a ≤ S6400000.size a
  hwx0_9 : ∀ i : grid0.Coords, EltTy.bits .f32 = 32 ∨ (Rect.block (s := S6400000) S128000.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128000.size a ≤ S6400000.size a
  hwx0_10 : ∀ i : grid0.Coords, EltTy.bits .f32 = 32 ∨ (Rect.block (s := S6400000) S128000.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128000.size a ≤ S6400000.size a
  hwx0_11 : ∀ i : grid0.Coords, EltTy.bits .f32 = 32 ∨ (Rect.block (s := S6400000) S128000.size (cc0_transform_11 i) (hinb0_11 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S100000.size a ≤ S100000.size a
  hwx1_0 : ∀ i : grid1.Coords, EltTy.bits .f32 = 32 ∨ (Rect.block (s := S100000) S100000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S100000.size a ≤ S100000.size a
  hwx1_1 : ∀ i : grid1.Coords, EltTy.bits .f32 = 32 ∨ (Rect.block (s := S100000) S100000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S100000.size a ≤ S100000.size a
  hwx1_2 : ∀ i : grid1.Coords, EltTy.bits .f32 = 32 ∨ (Rect.block (s := S100000) S100000.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S100000.size a ≤ S100000.size a
  hwx1_3 : ∀ i : grid1.Coords, EltTy.bits .f32 = 32 ∨ (Rect.block (s := S100000) S100000.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S100000.size a ≤ S100000.size a
  hwx1_4 : ∀ i : grid1.Coords, EltTy.bits .f32 = 32 ∨ (Rect.block (s := S100000) S100000.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S100000.size a ≤ S100000.size a
  hwx1_5 : ∀ i : grid1.Coords, EltTy.bits .f32 = 32 ∨ (Rect.block (s := S100000) S100000.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S100000.size a ≤ S100000.size a
  hwx1_6 : ∀ i : grid1.Coords, EltTy.bits .f32 = 32 ∨ (Rect.block (s := S100000) S100000.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S100000.size a ≤ S100000.size a
  hwx1_7 : ∀ i : grid1.Coords, EltTy.bits .f32 = 32 ∨ (Rect.block (s := S100000) S100000.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S100000.size a ≤ S100000.size a
  hwx1_8 : ∀ i : grid1.Coords, EltTy.bits .f32 = 32 ∨ (Rect.block (s := S100000) S100000.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S100000.size a ≤ S100000.size a
  hwx1_9 : ∀ i : grid1.Coords, EltTy.bits .f32 = 32 ∨ (Rect.block (s := S100000) S100000.size (cc1_transform_9 i) (hinb1_9 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

abbrev win0_0 : Pipeline.Window sig grid0 :=
  Pipeline.Window.ofSpec (Memref.whole main_v12) S128000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S128000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v18) S128000.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19) S128000.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v20_0) S128000.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v20_1) S128000.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v20_2) S128000.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v20_3) S128000.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v5) S100000.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v7) S100000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S100000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v11) S100000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S100000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S100000.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S100000.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S100000.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47_0) S100000.size cc1_transform_8 reads1_8 true true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47_1) S100000.size cc1_transform_9 reads1_9 true true 1 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x2 : Shape := ⟨2, ![100000, 2]⟩
abbrev S2x6400000 : Shape := ⟨2, ![2, 6400000]⟩
abbrev S100000x4 : Shape := ⟨2, ![100000, 4]⟩
abbrev S1x6400000 : Shape := ⟨2, ![1, 6400000]⟩
abbrev S6400000 : Shape := ⟨1, ![6400000]⟩
abbrev S_ : Shape := ⟨0, ![]⟩
abbrev S6400000x1 : Shape := ⟨2, ![6400000, 1]⟩
abbrev S6400000x4 : Shape := ⟨2, ![6400000, 4]⟩
abbrev S6400000x2 : Shape := ⟨2, ![6400000, 2]⟩
abbrev S100000 : Shape := ⟨1, ![100000]⟩
abbrev S100000x1 : Shape := ⟨2, ![100000, 1]⟩

abbrev nBuf : Space → Nat
  | .hbm => 193
  | .vmem => 0
  | .smem => 0
  | _ => 0

abbrev hbmTy0_0 (i : Nat) : BufTy := match i % 128 with
  | 0 => ⟨S100000x2, .f32⟩
  | 1 => ⟨S100000x2, .f32⟩
  | 2 => ⟨S2x6400000, .i32⟩
  | 3 => ⟨S100000x4, .f32⟩
  | 4 => ⟨S1x6400000, .i32⟩
  | 5 => ⟨S6400000, .i32⟩
  | 6 => ⟨S1x6400000, .i32⟩
  | 7 => ⟨S6400000, .i32⟩
  | 8 => ⟨S_, .i32⟩
  | 9 => ⟨S6400000, .i32⟩
  | 10 => ⟨S6400000, .i1⟩
  | 11 => ⟨S_, .i32⟩
  | 12 => ⟨S6400000, .i32⟩
  | 13 => ⟨S6400000, .i32⟩
  | 14 => ⟨S6400000, .i32⟩
  | 15 => ⟨S6400000x1, .i32⟩
  | 16 => ⟨S6400000x4, .f32⟩
  | 17 => ⟨S_, .i32⟩
  | 18 => ⟨S6400000, .i32⟩
  | 19 => ⟨S6400000, .i1⟩
  | 20 => ⟨S_, .i32⟩
  | 21 => ⟨S6400000, .i32⟩
  | 22 => ⟨S6400000, .i32⟩
  | 23 => ⟨S6400000, .i32⟩
  | 24 => ⟨S6400000x1, .i32⟩
  | 25 => ⟨S6400000x4, .f32⟩
  | 26 => ⟨S6400000x1, .f32⟩
  | 27 => ⟨S6400000, .f32⟩
  | 28 => ⟨S6400000x1, .f32⟩
  | 29 => ⟨S6400000, .f32⟩
  | 30 => ⟨S6400000x1, .f32⟩
  | 31 => ⟨S6400000, .f32⟩
  | 32 => ⟨S6400000x1, .f32⟩
  | 33 => ⟨S6400000, .f32⟩
  | 34 => ⟨S6400000, .f32⟩
  | 35 => ⟨S6400000, .f32⟩
  | 36 => ⟨S_, .f32⟩
  | 37 => ⟨S6400000, .f32⟩
  | 38 => ⟨S6400000, .f32⟩
  | 39 => ⟨S6400000, .f32⟩
  | 40 => ⟨S_, .f32⟩
  | 41 => ⟨S6400000, .f32⟩
  | 42 => ⟨S6400000, .f32⟩
  | 43 => ⟨S6400000, .f32⟩
  | 44 => ⟨S_, .f32⟩
  | 45 => ⟨S6400000, .f32⟩
  | 46 => ⟨S6400000, .f32⟩
  | 47 => ⟨S6400000, .f32⟩
  | 48 => ⟨S_, .f32⟩
  | 49 => ⟨S6400000, .f32⟩
  | 50 => ⟨S6400000, .f32⟩
  | 51 => ⟨S_, .f32⟩
  | 52 => ⟨S6400000, .f32⟩
  | 53 => ⟨S6400000, .f32⟩
  | 54 => ⟨S6400000, .f32⟩
  | 55 => ⟨S_, .f32⟩
  | 56 => ⟨S6400000, .f32⟩
  | 57 => ⟨S6400000, .f32⟩
  | 58 => ⟨S_, .f32⟩
  | 59 => ⟨S6400000, .f32⟩
  | 60 => ⟨S6400000, .f32⟩
  | 61 => ⟨S6400000, .f32⟩
  | 62 => ⟨S_, .f32⟩
  | 63 => ⟨S6400000, .f32⟩
  | 64 => ⟨S6400000, .f32⟩
  | 65 => ⟨S6400000, .f32⟩
  | 66 => ⟨S_, .f32⟩
  | 67 => ⟨S6400000, .f32⟩
  | 68 => ⟨S6400000, .f32⟩
  | 69 => ⟨S6400000, .f32⟩
  | 70 => ⟨S_, .f32⟩
  | 71 => ⟨S6400000, .f32⟩
  | 72 => ⟨S6400000, .f32⟩
  | 73 => ⟨S6400000x1, .f32⟩
  | 74 => ⟨S6400000x1, .f32⟩
  | 75 => ⟨S6400000x1, .f32⟩
  | 76 => ⟨S6400000x1, .f32⟩
  | 77 => ⟨S6400000x4, .f32⟩
  | 78 => ⟨S6400000x4, .f32⟩
  | 79 => ⟨S_, .f32⟩
  | 80 => ⟨S6400000x4, .f32⟩
  | 81 => ⟨S6400000x4, .i1⟩
  | 82 => ⟨S_, .i1⟩
  | 83 => ⟨S6400000, .i1⟩
  | 84 => ⟨S6400000x1, .i1⟩
  | 85 => ⟨S_, .f32⟩
  | 86 => ⟨S_, .f32⟩
  | 87 => ⟨S6400000x4, .i1⟩
  | 88 => ⟨S6400000x4, .f32⟩
  | 89 => ⟨S6400000x4, .f32⟩
  | 90 => ⟨S6400000x2, .f32⟩
  | 91 => ⟨S6400000x2, .f32⟩
  | 92 => ⟨S_, .f32⟩
  | 93 => ⟨S100000x2, .f32⟩
  | 94 => ⟨S6400000x1, .i32⟩
  | 95 => ⟨S100000x2, .f32⟩
  | 96 => ⟨S_, .f32⟩
  | 97 => ⟨S100000x2, .f32⟩
  | 98 => ⟨S6400000x1, .i32⟩
  | 99 => ⟨S100000x2, .f32⟩
  | 100 => ⟨S_, .f32⟩
  | 101 => ⟨S6400000, .f32⟩
  | 102 => ⟨S_, .f32⟩
  | 103 => ⟨S100000, .f32⟩
  | 104 => ⟨S6400000x1, .i32⟩
  | 105 => ⟨S100000, .f32⟩
  | 106 => ⟨S100000x1, .f32⟩
  | 107 => ⟨S_, .f32⟩
  | 108 => ⟨S100000x1, .f32⟩
  | 109 => ⟨S100000x1, .i1⟩
  | 110 => ⟨S_, .f32⟩
  | 111 => ⟨S100000, .f32⟩
  | 112 => ⟨S100000, .f32⟩
  | 113 => ⟨S100000x1, .f32⟩
  | 114 => ⟨S100000x2, .f32⟩
  | 115 => ⟨S100000x2, .f32⟩
  | 116 => ⟨S_, .f32⟩
  | 117 => ⟨S_, .f32⟩
  | 118 => ⟨S100000x2, .i1⟩
  | 119 => ⟨S100000x2, .f32⟩
  | 120 => ⟨S100000x2, .f32⟩
  | 121 => ⟨S100000x4, .f32⟩
  | 122 => ⟨S100000x1, .f32⟩
  | 123 => ⟨S100000, .f32⟩
  | 124 => ⟨S100000x1, .f32⟩
  | 125 => ⟨S100000, .f32⟩
  | 126 => ⟨S100000x1, .f32⟩
  | 127 => ⟨S100000, .f32⟩
  | _ => ⟨S100000x2, .f32⟩

abbrev hbmTy0_1 (i : Nat) : BufTy := match i % 128 with
  | 0 => ⟨S100000x1, .f32⟩
  | 1 => ⟨S100000, .f32⟩
  | 2 => ⟨S100000x1, .f32⟩
  | 3 => ⟨S100000, .f32⟩
  | 4 => ⟨S100000x1, .f32⟩
  | 5 => ⟨S100000, .f32⟩
  | 6 => ⟨S100000x1, .f32⟩
  | 7 => ⟨S100000, .f32⟩
  | 8 => ⟨S100000x1, .f32⟩
  | 9 => ⟨S100000, .f32⟩
  | 10 => ⟨S_, .f32⟩
  | 11 => ⟨S100000, .f32⟩
  | 12 => ⟨S100000, .f32⟩
  | 13 => ⟨S100000, .f32⟩
  | 14 => ⟨S_, .f32⟩
  | 15 => ⟨S100000, .f32⟩
  | 16 => ⟨S100000, .f32⟩
  | 17 => ⟨S100000, .f32⟩
  | 18 => ⟨S100000, .f32⟩
  | 19 => ⟨S100000, .f32⟩
  | 20 => ⟨S_, .f32⟩
  | 21 => ⟨S100000, .f32⟩
  | 22 => ⟨S100000, .f32⟩
  | 23 => ⟨S100000, .f32⟩
  | 24 => ⟨S_, .f32⟩
  | 25 => ⟨S100000, .f32⟩
  | 26 => ⟨S100000, .f32⟩
  | 27 => ⟨S_, .f32⟩
  | 28 => ⟨S100000, .f32⟩
  | 29 => ⟨S100000, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000, .f32⟩
  | 36 => ⟨S100000, .f32⟩
  | 37 => ⟨S100000, .f32⟩
  | 38 => ⟨S100000, .f32⟩
  | 39 => ⟨S_, .f32⟩
  | 40 => ⟨S100000, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000, .f32⟩
  | 47 => ⟨S100000, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S100000, .f32⟩
  | 55 => ⟨S_, .f32⟩
  | 56 => ⟨S100000, .f32⟩
  | 57 => ⟨S100000, .f32⟩
  | 58 => ⟨S100000, .f32⟩
  | 59 => ⟨S100000, .f32⟩
  | 60 => ⟨S100000, .f32⟩
  | 61 => ⟨S100000, .f32⟩
  | 62 => ⟨S100000x1, .f32⟩
  | 63 => ⟨S100000x1, .f32⟩
  | 64 => ⟨S100000x2, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_cst_6 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_7 : Ref sig .tc := ⟨.hbm, 55, rfl⟩
abbrev main_v43 : Ref sig .tc := ⟨.hbm, 56, rfl⟩
abbrev main_v44 : Ref sig .tc := ⟨.hbm, 57, rfl⟩
abbrev main_cst_8 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_12 : Ref sig .tc := ⟨.hbm, 79, rfl⟩
abbrev main_v62 : Ref sig .tc := ⟨.hbm, 80, rfl⟩
abbrev main_v63 : Ref sig .tc := ⟨.hbm, 81, rfl⟩
abbrev main_c_13 : Ref sig .tc := ⟨.hbm, 82, rfl⟩
abbrev main_v64 : Ref sig .tc := ⟨.hbm, 83, rfl⟩
abbrev main_v65 : Ref sig .tc := ⟨.hbm, 84, rfl⟩
abbrev main_cst_14 : Ref sig .tc := ⟨.hbm, 85, rfl⟩
abbrev main_call0_v0 : Ref sig .tc := ⟨.hbm, 86, rfl⟩
abbrev main_call0_v1 : Ref sig .tc := ⟨.hbm, 87, rfl⟩
abbrev main_call0_v2 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_15 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_17 : Ref sig .tc := ⟨.hbm, 100, rfl⟩
abbrev main_v75 : Ref sig .tc := ⟨.hbm, 101, rfl⟩
abbrev main_cst_18 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_21 : Ref sig .tc := ⟨.hbm, 116, rfl⟩
abbrev main_call1_v0 : Ref sig .tc := ⟨.hbm, 117, rfl⟩
abbrev main_call1_v1 : Ref sig .tc := ⟨.hbm, 118, rfl⟩
abbrev main_call1_v2 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_22 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_cst_23 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_24 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_cst_25 : Ref sig .tc := ⟨.hbm, 152, rfl⟩
abbrev main_v116 : Ref sig .tc := ⟨.hbm, 153, rfl⟩
abbrev main_v117 : Ref sig .tc := ⟨.hbm, 154, rfl⟩
abbrev main_cst_26 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_27 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_cst_28 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_29 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_30 : Ref sig .tc := ⟨.hbm, 176, rfl⟩
abbrev main_v135 : Ref sig .tc := ⟨.hbm, 177, rfl⟩
abbrev main_v136 : Ref sig .tc := ⟨.hbm, 178, rfl⟩
abbrev main_cst_31 : Ref sig .tc := ⟨.hbm, 179, rfl⟩
abbrev main_v137 : Ref sig .tc := ⟨.hbm, 180, rfl⟩
abbrev main_v138 : Ref sig .tc := ⟨.hbm, 181, rfl⟩
abbrev main_v139 : Ref sig .tc := ⟨.hbm, 182, rfl⟩
abbrev main_cst_32 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩

abbrev nD : Nat := 1
abbrev τ : Topo := Topo.v7x

variable {F : FTy → Type} [FloatOps F]

class Facts₀ : Prop where
  concatenates_S100000x2_S100000x2_S100000x4_d1 : Shape.Concatenates [S100000x2, S100000x2] S100000x4 1
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  bcast_S6400000_S6400000x1_0 : S6400000.BroadcastsInDim S6400000x1 (![0] : Fin 1 → Fin S6400000x1.rank)
  slices_S6400000x4_S6400000x1_0_0 : S6400000x4.Slices ![0, 0] S6400000x1
  shapeCasts_S6400000x1_S6400000 : S6400000x1.ShapeCasts S6400000
  slices_S6400000x4_S6400000x1_0_1 : S6400000x4.Slices ![0, 1] S6400000x1
  concatenates_S6400000x1_S6400000x1_S6400000x1_S6400000x1_S6400000x4_d1 : Shape.Concatenates [S6400000x1, S6400000x1, S6400000x1, S6400000x1] S6400000x4 1
  bcast_S_S6400000x4 : S_.BroadcastsInDim S6400000x4 (![] : Fin 0 → Fin S6400000x4.rank)
  reducesTo_S6400000x4_S6400000_d1 : S6400000x4.ReducesTo [1] S6400000
  h_S_ : 0 < S_.numel
  bcast_S6400000x1_S6400000x4_0_1 : S6400000x1.BroadcastsInDim S6400000x4 (![0, 1] : Fin 2 → Fin S6400000x4.rank)
  slices_S6400000x4_S6400000x2_0_0 : S6400000x4.Slices ![0, 0] S6400000x2
  slices_S6400000x4_S6400000x2_0_2 : S6400000x4.Slices ![0, 2] S6400000x2
  bcast_S_S100000x2 : S_.BroadcastsInDim S100000x2 (![] : Fin 0 → Fin S100000x2.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x2_0_1 : S100000x1.BroadcastsInDim S100000x2 (![0, 1] : Fin 2 → Fin S100000x2.rank)
  slices_S100000x4_S100000x1_0_0 : S100000x4.Slices ![0, 0] S100000x1
  shapeCasts_S100000x1_S100000 : S100000x1.ShapeCasts S100000
  slices_S100000x4_S100000x1_0_1 : S100000x4.Slices ![0, 1] S100000x1
  slices_S100000x4_S100000x1_0_2 : S100000x4.Slices ![0, 2] S100000x1
  slices_S100000x4_S100000x1_0_3 : S100000x4.Slices ![0, 3] S100000x1
  concatenates_S100000x1_S100000x1_S100000x2_d1 : Shape.Concatenates [S100000x1, S100000x1] S100000x2 1
  gather_S100000x4_S6400000x1_S6400000x4_1_0_n_n_0_1_14_wf : GatherDims.WF S100000x4 S6400000x1 S6400000x4 [1] [0] [] [0] [] 1 ![1, 4]
  scatter_S100000x2_S6400000x1_S6400000x2_1_0_0_1_wf : ScatterDims.WF S100000x2 S6400000x1 S6400000x2 [1] [0] [0] 1
  scatter_S100000_S6400000x1_S6400000_n_0_0_1_wf : ScatterDims.WF S100000 S6400000x1 S6400000 [] [0] [0] 1

variable [Facts₀]

def gather_S100000x4_S6400000x1_S6400000x4_1_0_n_n_0_1_14 : GatherDims S100000x4 S6400000x1 S6400000x4 where
  offsetDims := [1]
  collapsedSliceDims := [0]
  operandBatchingDims := []
  startIndicesBatchingDims := []
  startIndexMap := [0]
  indexVectorDim := 1
  sliceSizes := ![1, 4]
  wf := gather_S100000x4_S6400000x1_S6400000x4_1_0_n_n_0_1_14_wf
def scatter_S100000x2_S6400000x1_S6400000x2_1_0_0_1 : ScatterDims S100000x2 S6400000x1 S6400000x2 where
  updateWindowDims := [1]
  insertedWindowDims := [0]
  scatterDimsToOperandDims := [0]
  indexVectorDim := 1
  wf := scatter_S100000x2_S6400000x1_S6400000x2_1_0_0_1_wf
def scatter_S100000_S6400000x1_S6400000_n_0_0_1 : ScatterDims S100000 S6400000x1 S6400000 where
  updateWindowDims := []
  insertedWindowDims := [0]
  scatterDimsToOperandDims := [0]
  indexVectorDim := 1
  wf := scatter_S100000_S6400000x1_S6400000_n_0_0_1_wf

class Facts : Prop extends Facts₀ where

variable [Facts]
-- ==== Proof.Spec.lean ====
/-
  The flocking message-passing step as plain mathematics on the extended reals.

  Nodes carry four features (position x, y; velocity x, y). Every edge e = (src e, dst e) sends its target a
  message of four channels, an affine-bilinear expression of the two endpoints' positions, replaced by zero when the two
  endpoints carry exactly the same four features. Channels 2 and 3 are summed per target node; channels 0 and 1 are
  averaged per target node (sum divided by max(count, 1), zero where the count is zero). The update is a polynomial
  (with two divisions by constants) in the node's own features and its four aggregates, giving two outputs per node.

  Everything is stated index by index over literal shapes, so that each program's arrays can be compared with it.
-/
import Idealize.ShloMosaic.PureOps.Ideal
import Idealize.ShloMosaic.PureOps.Ideal.Laws
import Idealize.ShloMosaic.Lib.ValueIdx

noncomputable section

namespace Cert.Flock

open Idealize.ShloMosaic Idealize.ShloMosaic.ValueIdx

/-- node-by-2 arrays: positions, velocities, the result -/
abbrev SN2 : Shape := ⟨2, ![100000, 2]⟩
abbrev SN4 : Shape := ⟨2, ![100000, 4]⟩
/-- the edge list: row 0 sources, row 1 targets -/
abbrev SEI : Shape := ⟨2, ![2, 6400000]⟩
abbrev SE : Shape := ⟨1, ![6400000]⟩
abbrev SE1 : Shape := ⟨2, ![6400000, 1]⟩
abbrev SE2 : Shape := ⟨2, ![6400000, 2]⟩
abbrev SE4 : Shape := ⟨2, ![6400000, 4]⟩
abbrev SN : Shape := ⟨1, ![100000]⟩

/-- An f32 literal read as the exact extended real its pattern denotes. -/
abbrev lit (b : BitVec 32) : EReal := Ideal.ofBits .f32 b

/-- The node a signed 32-bit index word names, clamped into the node range. -/
def nodeOf (w : BitVec 32) : Fin 100000 := ⟨min w.toInt.toNat 99999, by omega⟩

theorem nodeOf_val_of_inRange {w : BitVec 32} (h0 : 0 ≤ w.toInt) (h1 : w.toInt < 100000) :
    (nodeOf w).val = w.toInt.toNat := by
  unfold nodeOf; simp only; omega

section
variable (P V : SN2.Idx → EReal) (ei : IVec SEI 32)

/-- Every index word of the edge list names a node. -/
def InRange : Prop := ∀ i : SEI.Idx, 0 ≤ (ei i).toInt ∧ (ei i).toInt < 100000

/-- Every entry of a node array is a real number. -/
def Finite (X : SN2.Idx → EReal) : Prop := ∀ i : SN2.Idx, X i ≠ ⊤ ∧ X i ≠ ⊥

/-- source node of edge e -/
def srcOf (e : Fin 6400000) : Fin 100000 := nodeOf (ei (ix2 (0 : Fin 2) e))
/-- target node of edge e -/
def dstOf (e : Fin 6400000) : Fin 100000 := nodeOf (ei (ix2 (1 : Fin 2) e))

/-- feature k of node n: position x, position y, velocity x, velocity y -/
def feat (n : Fin 100000) (k : Fin 4) : EReal :=
  match k with
  | ⟨0, _⟩ => P (ix2 n (0 : Fin 2))
  | ⟨1, _⟩ => P (ix2 n (1 : Fin 2))
  | ⟨2, _⟩ => V (ix2 n (0 : Fin 2))
  | ⟨3, _⟩ => V (ix2 n (1 : Fin 2))
end

/-- Channel k of the unmasked message, from the target's position (x0, x1) and the source's position (x4, x5). -/
def mraw (x0 x1 x4 x5 : EReal) (k : Fin 4) : EReal :=
  match k with
  | ⟨0, _⟩ => ((x4 - x0) + (x1 - x5) * lit 0x3ED17BFC#32) * lit 0x3CED8F1D#32
  | ⟨1, _⟩ => ((x4 - x0) + (x1 - x5) * lit 0x3F14F9A7#32) * lit 0xBCD8166C#32
  | ⟨2, _⟩ => (x1 * lit 0xBDA1F257#32 - (x4 - x0)) * lit 0xBCDAE815#32
  | ⟨3, _⟩ => (x1 * lit 0x3F74B8A0#32 - x5 - x0 * lit 0x3E4F4D35#32 - x4 * lit 0xBE365DEE#32) * lit 0x3CDCA3CF#32

open Classical in
/-- Channel k of the message from a source with features fj to a target with features fi: zero when the two
    feature vectors coincide. -/
def msg (fi fj : Fin 4 → EReal) (k : Fin 4) : EReal :=
  if fi 0 = fj 0 ∧ fi 1 = fj 1 ∧ fi 2 = fj 2 ∧ fi 3 = fj 3 then 0 else mraw (fi 0) (fi 1) (fj 0) (fj 1) k

section
variable (P V : SN2.Idx → EReal) (ei : IVec SEI 32)

/-- Channel k of edge e's message. -/
def edgeMsg (k : Fin 4) (e : Fin 6400000) : EReal :=
  msg (feat P V (dstOf ei e)) (feat P V (srcOf ei e)) k

/-- The edge list's target row as the column of scatter positions (read signed, as the accumulation reads it). -/
def dstCol : IVec SE1 32 := fun j => ei (ix2 (1 : Fin 2) (j 0))

/-- Per-node accumulation of a per-edge quantity over the edges whose target word lands on the node, through the
    one-axis accumulating scatter with dimension numbers d. -/
def agg (d : ScatterDims SN SE1 SE) (u : Fin 6400000 → EReal) : Fin 100000 → EReal :=
  fun n => Ideal.hostScatterAdd d (fun _ => (0 : EReal)) (dstCol ei) (fun j => u (j 0)) (ix1 n)

variable (d : ScatterDims SN SE1 SE)

/-- summed channel k per target node -/
def sumK (k : Fin 4) : Fin 100000 → EReal := agg ei d (edgeMsg P V ei k)
/-- number of incoming edges per target node -/
def cnt : Fin 100000 → EReal := agg ei d (fun _ => lit 0x3F800000#32)

/-- averaged channel k per target node: the sum over max(count, 1) where the count is positive, else zero -/
def meanK (k : Fin 4) (n : Fin 100000) : EReal :=
  if Ideal.cmp .ogt (cnt ei d n) (lit 0x00000000#32) = 1#1
  then Ideal.div (sumK P V ei d k n) (max (cnt ei d n) (lit 0x3F800000#32)) else lit 0x00000000#32
end

/-! ### The node update, over the eight scalars y0..y7 (own features; summed channels 2, 3; averaged channels 0, 1) -/

def u0 (y1 y7 : EReal) : EReal := (y1 + Ideal.div y7 (lit 0x3D1881A8#32)) * lit 0xBB06EB2F#32
def u1 (y0 y5 y6 y7 : EReal) : EReal := ((y0 - y7 * y7 * y5) * lit 0x3C788362#32 - y6) * lit 0xBDD606C2#32
def u2 (y1 y6 y7 : EReal) : EReal := (y7 - y1 * lit 0x3CE4D0E4#32 + y6) * lit 0x3D9A24AD#32
def u3 (y2 y3 y6 y7 : EReal) : EReal := (y3 * y3 - y6 + y2 - y3 + y7 * lit 0xBEADB62B#32) * lit 0xBDAF3456#32

def pred0 (y0 y1 y2 y3 y5 y6 y7 : EReal) : EReal :=
  (u0 y1 y7 + u3 y2 y3 y6 y7 + u0 y1 y7) * lit 0xBE791B26#32 - Ideal.div (u1 y0 y5 y6 y7) (lit 0x3F3AE9B4#32)
    - u2 y1 y6 y7 * lit 0x3F8FCD96#32
def pred1 (y0 y1 y2 y3 y5 y6 y7 : EReal) : EReal :=
  u2 y1 y6 y7 - (u1 y0 y5 y6 y7 + u0 y1 y7) + u3 y2 y3 y6 y7

section
variable (P V : SN2.Idx → EReal) (ei : IVec SEI 32) (d : ScatterDims SN SE1 SE)

/-- output column c of node n -/
def outAt (n : Fin 100000) (c : Fin 2) : EReal :=
  match c with
  | ⟨0, _⟩ => pred0 (feat P V n 0) (feat P V n 1) (feat P V n 2) (feat P V n 3) (sumK P V ei d 3 n)
      (meanK P V ei d 0 n) (meanK P V ei d 1 n)
  | ⟨1, _⟩ => pred1 (feat P V n 0) (feat P V n 1) (feat P V n 2) (feat P V n 3) (sumK P V ei d 3 n)
      (meanK P V ei d 0 n) (meanK P V ei d 1 n)

/-- THE RESULT: the node-by-2 array both programs end with. -/
def G : SN2.Idx → EReal := fun i => outAt P V ei d (i 0) (i 1)
end

/-- The one-axis accumulating scatter's dimension numbers: no window axis, the one operand axis inserted and named by
    the index column. -/
def d1 (wf : ScatterDims.WF SN SE1 SE [] [0] [0] 1) : ScatterDims SN SE1 SE where
  updateWindowDims := []
  insertedWindowDims := [0]
  scatterDimsToOperandDims := [0]
  indexVectorDim := 1
  wf := wf

end Cert.Flock

end
-- ==== Proof.PreFacts.lean ====
/-
  The printed precondition read back as mathematics.

  The precondition is the conjunction of four "for all entries" tests: every position entry and every velocity entry
  has absolute value below +∞, and every index word of the edge list is at least 0 and below 100000 as a signed
  integer. When the conjunction is the one-bit word 1, each test is 1 at every entry. On the extended reals
  |x| = max x (-x) < ⊤ excludes both infinities, so x is a real number; the signed word comparisons are the integer
  comparisons of the words' signed values.
-/
import proofs.«423533_j53644141527383_1_alg».proof.Pre_finite_inputs
import proofs.«423533_j53644141527383_1_alg».proof.Proof.Spec
import Idealize.ShloMosaic.Lib.ReduceAll
import Idealize.ShloMosaic.Lib.StableHlo.Predicate
import Idealize.ShloMosaic.PureOps.Ideal

noncomputable section

namespace Cert.Flock

open Idealize.ShloMosaic Idealize.ShloMosaic.ValueIdx

/-- The rank-0 shape has exactly one index. -/
instance subsingleton_scalar_idx : Subsingleton Cert.Pre_finite_inputs.S_.Idx :=
  ⟨fun _ _ => funext fun d => d.elim0⟩

/-- The pattern 0x7F800000 denotes +∞. -/
theorem inf_word_eq_top : Ideal.ofBits .f32 0x7F800000#32 = (⊤ : EReal) := by
  simp [Ideal.ofBits, Ideal.ieee]

/-- On the extended reals, |x| < +∞ says that x is neither infinity. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    x ≠ ⊤ ∧ x ≠ ⊥ := by
  change Ideal.cmp .olt (max x (-x)) (Ideal.ofBits .f32 0x7F800000#32) = 1#1 at h
  rw [inf_word_eq_top] at h
  unfold Ideal.cmp at h
  constructor
  · rintro rfl
    simp at h
  · rintro rfl
    simp at h

/-- A signed "at least zero" test that is 1 says the word's signed value is nonnegative. -/
theorem nonneg_of_sge_zero (w : BitVec 32) (h : IntOp.cmpi .sge w 0#32 = 1#1) : 0 ≤ w.toInt := by
  have := IntOp.cmpi_sge.1 h
  simpa using this

/-- A signed "below 100000" test that is 1 says the word's signed value is below 100000. -/
theorem lt_of_slt (w : BitVec 32) (h : IntOp.cmpi .slt w 100000#32 = 1#1) : w.toInt < 100000 := by
  have := IntOp.cmpi_slt.1 h
  have h1 : (100000#32 : BitVec 32).toInt = 100000 := by decide
  omega

theorem pre_facts [Cert.Pre_finite_inputs.Facts] (P V : SN2.Idx → EReal) (ei : IVec SEI 32)
    (h : Cert.Pre_finite_inputs.fn (F := Ideal) P V ei = fun _ => 1#1) : Finite P ∧ Finite V ∧ InRange ei := by
  have h0 := congrFun h ValueIdx.ix0
  dsimp only [Cert.Pre_finite_inputs.fn, Cert.Pre_finite_inputs.fn_part1] at h0
  change IntOp.andi (IntOp.andi (IntOp.andi _ _) _) _ = 1#1 at h0
  obtain ⟨h12, hlt⟩ := IntOp.andi_eq_one.1 h0
  obtain ⟨h1, hge⟩ := IntOp.andi_eq_one.1 h12
  obtain ⟨hP, hV⟩ := IntOp.andi_eq_one.1 h1
  refine ⟨fun i => ?_, fun i => ?_, fun i => ⟨?_, ?_⟩⟩
  · exact real_of_abs_lt_inf (P i) (Host.reduce_andi_all _ _ _ _ _ hP i)
  · exact real_of_abs_lt_inf (V i) (Host.reduce_andi_all _ _ _ _ _ hV i)
  · exact nonneg_of_sge_zero (ei i) (Host.reduce_andi_all _ _ _ _ _ hge i)
  · exact lt_of_slt (ei i) (Host.reduce_andi_all _ _ _ _ _ hlt i)

end Cert.Flock

end
-- ==== Proof.KArgs.lean ====
/-
  The three argument arrays of the message-passing program, as the extended-real (and index-word) arrays the
  mathematics of Spec.lean is stated over: positions, velocities, and the edge list.
-/
import proofs.«423533_j53644141527383_1_alg».proof.Proof.Gen.KernelIdeal.Frame
import proofs.«423533_j53644141527383_1_alg».proof.Proof.Spec

noncomputable section

namespace Cert.KernelIdeal.KVal

open Idealize.ShloMosaic Idealize.ShloMosaic.TcCoe Idealize.SL.Sem Cert.KernelIdeal Cert.KernelIdeal.Gen Cert.Flock

variable (m : (ℓ : Loc nD τ sig) → Buf (Elt Ideal) ℓ)

/-- positions, as launched on core c -/
abbrev argP (c : Dev nD) : SN2.Idx → EReal := m ((c.tc : Thread nD τ).loc main_arg0)
/-- velocities, as launched on core c -/
abbrev argV (c : Dev nD) : SN2.Idx → EReal := m ((c.tc : Thread nD τ).loc main_arg1)
/-- the edge list, as launched on core c -/
abbrev argEI (c : Dev nD) : IVec SEI 32 := m ((c.tc : Thread nD τ).loc main_arg2)

/-- the accumulating scatter's dimension numbers as the program carries them ARE the specification's -/
theorem scatter_eq : scatter_S100000_S6400000x1_S6400000_n_0_0_1 = Cert.Flock.d1 scatter_S100000_S6400000x1_S6400000_n_0_0_1.wf := rfl

end Cert.KernelIdeal.KVal

end
-- ==== Proof.KEntry.lean ====
/-
  The eight one-dimensional takes that feed the per-edge message kernel.

  Each take reads a column of the node positions or velocities at one row of the edge list. The printed take
  wraps a negative index by the table length, masks indices outside the table with a fill value, and gathers at
  the clamped index. When every index word already names a node, the wrap is the identity, the mask is all ones,
  and the take is the table read at the node the word names: feature k of the edge's source or target node.
-/
import proofs.«423533_j53644141527383_1_alg».proof.Proof.KArgs
import Idealize.ShloMosaic.Lib.StableHlo.Run
import Idealize.ShloMosaic.Lib.StableHlo.Predicate
import Idealize.ShloMosaic.Lib.Pipeline.Value

noncomputable section

namespace Cert.KernelIdeal.KVal

open Idealize.ShloMosaic Idealize.ShloMosaic.TcCoe Idealize.SL.Sem Cert.KernelIdeal Cert.KernelIdeal.Gen Cert.Flock
open Idealize.ShloMosaic.ValueIdx Idealize.ShloMosaic.StableHlo

/-! ## Words in the node range -/

/-- A nonnegative word is not below zero. -/
theorem slt_zero_of_nonneg {w : BitVec 32} (h0 : 0 ≤ w.toInt) : IntOp.cmpi .slt w 0#32 = 0#1 := by
  have hz : (0#32 : BitVec 32).toInt = 0 := by decide
  have : w.slt 0#32 = false := by
    simp only [BitVec.slt, hz]; exact decide_eq_false (by omega)
  unfold IntOp.cmpi; simp only [this]; rfl

/-- A nonnegative word is at least zero. -/
theorem sge_zero_of_nonneg {w : BitVec 32} (h0 : 0 ≤ w.toInt) : IntOp.cmpi .sge w 0#32 = 1#1 := by
  have hz : (0#32 : BitVec 32).toInt = 0 := by decide
  have : (0#32 : BitVec 32).sle w = true := by
    simp only [BitVec.sle, hz]; exact decide_eq_true h0
  unfold IntOp.cmpi; simp only [this]; rfl

/-- A word below the node count is at most the last node. -/
theorem sle_last_of_lt {w : BitVec 32} (h1 : w.toInt < 100000) : IntOp.cmpi .sle w 99999#32 = 1#1 := by
  have hz : (99999#32 : BitVec 32).toInt = 99999 := by decide
  have : w.sle 99999#32 = true := by
    simp only [BitVec.sle, hz]; exact decide_eq_true (by omega)
  unfold IntOp.cmpi; simp only [this]; rfl

/-- A left fold of the bitwise and, from the bit 1, over bits that are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_ones f l fun n hn => h n (List.mem_cons_of_mem _ hn)

/-- The rank-1 index at a coordinate, in its two spellings. -/
theorem ofFin_eq_ix1 {n : Nat} (p : Fin n) : Shape.Idx.ofFin p = ix1 p := by
  funext a; match a with | ⟨0, _⟩ => rfl

/-! ## The take as a function of the table and the index vector -/

section Take
variable (x : FVec Ideal S100000 .f32) (idx : IVec S6400000 32)

/-- The index vector with negative words wrapped by the table length. -/
def takeWrap : IVec S6400000 32 :=
  select (cmpi .slt idx (broadcastInDim S6400000 ![] bcast_S_S6400000 (constantI S_ 32 0#32)))
    (addi idx (broadcastInDim S6400000 ![] bcast_S_S6400000 (constantI S_ 32 100000#32))) idx

/-- The wrapped indices as a column of start positions. -/
def takeCol : IVec S6400000x1 32 := broadcastInDim S6400000x1 ![0] bcast_S6400000_S6400000x1_0 (takeWrap idx)

/-- The bounds mask: per position, whether its start position lies in the table. -/
def takeMask : IVec S6400000 1 :=
  Host.reduce IntOp.andi
    (andi (cmpi .sge (takeCol idx) (broadcastInDim S6400000x1 ![] bcast_S_S6400000x1 (constantI S_ 32 0#32)))
      (cmpi .sle (takeCol idx) (broadcastInDim S6400000x1 ![0, 1] bcast_S1x1_S6400000x1_0_1
        (broadcastInDim S1x1 ![1] bcast_S1_S1x1_1 (constantI S1 32 99999#32)))))
    (constantI S_ 1 1#1) reducesTo_S6400000x1_S6400000_d1 h_S_

/-- The take: the gathered entries where the mask holds, the fill value elsewhere. -/
def takeOf : FVec Ideal S6400000 .f32 :=
  select (takeMask idx) (Host.gather gather_S100000_S6400000x1_S6400000_n_0_n_n_0_1_1 x (takeCol idx))
    (broadcastInDim S6400000 ![] bcast_S_S6400000 (constant (F := Ideal) S_ .f32 0x7FC00000#32))

variable (h : ∀ e : S6400000.Idx, 0 ≤ (idx e).toInt ∧ (idx e).toInt < 100000)
include h

/-- With every word nonnegative the wrap changes nothing. -/
theorem takeWrap_eq : takeWrap idx = idx := by
  funext i
  show Scalar.select (IntOp.cmpi .slt (idx i) 0#32) _ (idx i) = idx i
  rw [slt_zero_of_nonneg (h i).1]; exact select_zero _ _

/-- The column of start positions holds the index words. -/
theorem takeCol_apply (i : S6400000x1.Idx) : takeCol idx i = idx (ix1 (i 0)) := by
  unfold takeCol
  rw [takeWrap_eq idx h]
  exact broadcastInDim_apply _ _ idx i (ix1 (i 0)) fun a => by
    obtain rfl : a = 0 := Subsingleton.elim _ _
    show (i 0).val = if (6400000 : Nat) = 1 then 0 else (i 0).val
    rw [if_neg (by decide)]

/-- With every word in the table the mask is all ones. -/
theorem takeMask_apply (e : S6400000.Idx) : takeMask idx e = 1#1 := by
  unfold takeMask
  rw [Host.reduce_eq_foldl]
  show List.foldl _ (1#1) _ = 1#1
  refine foldl_andi_ones _ _ fun i _ => ?_
  show IntOp.andi (IntOp.cmpi .sge (takeCol idx i) 0#32) (IntOp.cmpi .sle (takeCol idx i) 99999#32) = 1#1
  rw [takeCol_apply idx h, sge_zero_of_nonneg (h _).1, sle_last_of_lt (h _).2]
  decide

/-- THE TAKE READ AT A POSITION: the table at the node the position's word names. -/
theorem takeOf_apply (p : Fin 6400000) : takeOf x idx (ix1 p) = x (ix1 (nodeOf (idx (ix1 p)))) := by
  have hg := Predicate.gather_take gather_S100000_S6400000x1_S6400000_n_0_n_n_0_1_1 rfl rfl rfl rfl x (takeCol idx) p
    (by decide)
  rw [ofFin_eq_ix1 p] at hg
  unfold takeOf
  rw [select_apply, takeMask_apply idx h, select_one, hg]
  refine congrArg x (funext fun a => ?_)
  match a with
  | ⟨0, _⟩ =>
    apply Fin.ext
    show min (takeCol idx (Predicate.ixP p)).toInt.toNat (100000 - 1) = min (idx (ix1 p)).toInt.toNat 99999
    rw [takeCol_apply idx h]

end Take

/-! ## The tables and the index rows as the host slices make them -/

/-- Column 0 of a node-by-2 array as a vector over the nodes. -/
def col0 (A : FVec Ideal S100000x2 .f32) : FVec Ideal S100000 .f32 :=
  shapeCast S100000 (extractStridedSlice S100000x1 ![0, 0] A slices_S100000x2_S100000x1_0_0) shapeCasts_S100000x1_S100000
/-- Column 1 of a node-by-2 array as a vector over the nodes. -/
def col1 (A : FVec Ideal S100000x2 .f32) : FVec Ideal S100000 .f32 :=
  shapeCast S100000 (extractStridedSlice S100000x1 ![0, 1] A slices_S100000x2_S100000x1_0_1) shapeCasts_S100000x1_S100000
/-- Row 0 of the edge list (the sources) as a vector over the edges. -/
def row0 (E : IVec S2x6400000 32) : IVec S6400000 32 :=
  shapeCast S6400000 (extractStridedSlice S1x6400000 ![0, 0] E slices_S2x6400000_S1x6400000_0_0) shapeCasts_S1x6400000_S6400000
/-- Row 1 of the edge list (the targets) as a vector over the edges. -/
def row1 (E : IVec S2x6400000 32) : IVec S6400000 32 :=
  shapeCast S6400000 (extractStridedSlice S1x6400000 ![1, 0] E slices_S2x6400000_S1x6400000_1_0) shapeCasts_S1x6400000_S6400000

theorem col0_apply (A : FVec Ideal S100000x2 .f32) (n : Fin 100000) : col0 A (ix1 n) = A (ix2 n (0 : Fin 2)) := by
  unfold col0
  refine (shapeCast_apply _ _ (ix1 n) (ix2 n (0 : Fin 1)) ?_).trans ?_
  · rw [Shape.rowMajor_val_two, Shape.rowMajor_val_one]; show n.val * 1 + 0 = n.val; omega
  · exact extractStridedSlice_apply _ _ _ _ (ix2 n (0 : Fin 2)) fun a => by
      match a with
      | ⟨0, _⟩ => show n.val = 0 + n.val; omega
      | ⟨1, _⟩ => rfl

theorem col1_apply (A : FVec Ideal S100000x2 .f32) (n : Fin 100000) : col1 A (ix1 n) = A (ix2 n (1 : Fin 2)) := by
  unfold col1
  refine (shapeCast_apply _ _ (ix1 n) (ix2 n (0 : Fin 1)) ?_).trans ?_
  · rw [Shape.rowMajor_val_two, Shape.rowMajor_val_one]; show n.val * 1 + 0 = n.val; omega
  · exact extractStridedSlice_apply _ _ _ _ (ix2 n (1 : Fin 2)) fun a => by
      match a with
      | ⟨0, _⟩ => show n.val = 0 + n.val; omega
      | ⟨1, _⟩ => rfl

theorem row0_apply (E : IVec S2x6400000 32) (e : Fin 6400000) : row0 E (ix1 e) = E (ix2 (0 : Fin 2) e) := by
  unfold row0
  refine (shapeCast_apply _ _ (ix1 e) (ix2 (0 : Fin 1) e) ?_).trans ?_
  · rw [Shape.rowMajor_val_two, Shape.rowMajor_val_one]; show 0 * 6400000 + e.val = e.val; omega
  · exact extractStridedSlice_apply _ _ _ _ (ix2 (0 : Fin 2) e) fun a => by
      match a with
      | ⟨0, _⟩ => rfl
      | ⟨1, _⟩ => show e.val = 0 + e.val; omega

theorem row1_apply (E : IVec S2x6400000 32) (e : Fin 6400000) : row1 E (ix1 e) = E (ix2 (1 : Fin 2) e) := by
  unfold row1
  refine (shapeCast_apply _ _ (ix1 e) (ix2 (0 : Fin 1) e) ?_).trans ?_
  · rw [Shape.rowMajor_val_two, Shape.rowMajor_val_one]; show 0 * 6400000 + e.val = e.val; omega
  · exact extractStridedSlice_apply _ _ _ _ (ix2 (1 : Fin 2) e) fun a => by
      match a with
      | ⟨0, _⟩ => rfl
      | ⟨1, _⟩ => show e.val = 0 + e.val; omega

/-! ## A take along a row of the edge list reads the table at the edge's endpoint -/

section Rows
variable (x : FVec Ideal S100000 .f32) (EI : IVec SEI 32) (hin : InRange EI)
include hin

theorem row0_inRange (e : S6400000.Idx) : 0 ≤ (row0 EI e).toInt ∧ (row0 EI e).toInt < 100000 := by
  obtain ⟨p, rfl⟩ : ∃ p : Fin 6400000, e = ix1 p := ⟨e 0, eq_ix1 e⟩
  rw [row0_apply]; exact hin _

theorem row1_inRange (e : S6400000.Idx) : 0 ≤ (row1 EI e).toInt ∧ (row1 EI e).toInt < 100000 := by
  obtain ⟨p, rfl⟩ : ∃ p : Fin 6400000, e = ix1 p := ⟨e 0, eq_ix1 e⟩
  rw [row1_apply]; exact hin _

/-- The take along the source row reads the table at the edge's source node. -/
theorem takeOf_row0 (e : S6400000.Idx) : takeOf x (row0 EI) e = x (ix1 (srcOf EI (e 0))) := by
  obtain ⟨p, rfl⟩ : ∃ p : Fin 6400000, e = ix1 p := ⟨e 0, eq_ix1 e⟩
  rw [takeOf_apply x _ (row0_inRange EI hin), row0_apply]; rfl

/-- The take along the target row reads the table at the edge's target node. -/
theorem takeOf_row1 (e : S6400000.Idx) : takeOf x (row1 EI) e = x (ix1 (dstOf EI (e 0))) := by
  obtain ⟨p, rfl⟩ : ∃ p : Fin 6400000, e = ix1 p := ⟨e 0, eq_ix1 e⟩
  rw [takeOf_apply x _ (row1_inRange EI hin), row1_apply]; rfl

end Rows

/-! ## Reading a typed buffer through a stretch of host operations

An operation of a called function names its buffers with the type of the tensor value they hold; the contents of such
a buffer, read at that type, follow the operations one by one: the result buffer of an operation holds the operation's
function of its operands' contents, and every other buffer keeps what it held. -/

section Typed
variable {T Tx Ta Tb Tc Ty : BufTy} (F : Valuation τ sig (Elt Ideal))

/-- The contents of a typed buffer, at its type. -/
def tget (x : TRef sig T) (F : Valuation τ sig (Elt Ideal)) : T.Contents (Elt Ideal) := x.ofBuf (F (Proc.devRef .tc x.ref))

theorem ofBuf_toBuf (x : TRef sig T) (v : T.Contents (Elt Ideal)) : x.ofBuf (x.toBuf v) = v := by
  obtain ⟨r, rfl, _, _⟩ := x; rfl

theorem tget_nullary_self (y : TRef sig Ty) (v : Ty.Contents (Elt Ideal)) :
    tget y ((TRef.nullary (τ := τ) y v).result F) = v := by
  unfold tget TRef.nullary; rw [nullary_result]; exact ofBuf_toBuf y v
theorem tget_nullary_ne (x : TRef sig T) (y : TRef sig Ty) (v : Ty.Contents (Elt Ideal)) (h : x.ref ≠ y.ref) :
    tget x ((TRef.nullary (τ := τ) y v).result F) = tget x F := by
  unfold tget TRef.nullary; rw [nullary_result_ne _ _ _ _ h]

theorem tget_unary_self (x : TRef sig Tx) (y : TRef sig Ty) (f : Tx.Contents (Elt Ideal) → Ty.Contents (Elt Ideal)) :
    tget y ((TRef.unary (τ := τ) x y f).result F) = f (tget x F) := by
  unfold tget TRef.unary; rw [unary_result]; exact ofBuf_toBuf y _
theorem tget_unary_ne (z : TRef sig T) (x : TRef sig Tx) (y : TRef sig Ty)
    (f : Tx.Contents (Elt Ideal) → Ty.Contents (Elt Ideal)) (h : z.ref ≠ y.ref) :
    tget z ((TRef.unary (τ := τ) x y f).result F) = tget z F := by
  unfold tget TRef.unary; rw [unary_result_ne _ _ _ _ _ _ h]

theorem tget_binary_self (a : TRef sig Ta) (b : TRef sig Tb) (y : TRef sig Ty)
    (f : Ta.Contents (Elt Ideal) → Tb.Contents (Elt Ideal) → Ty.Contents (Elt Ideal)) :
    tget y ((TRef.binary (τ := τ) a b y f).result F) = f (tget a F) (tget b F) := by
  unfold tget TRef.binary; rw [binary_result]; exact ofBuf_toBuf y _
theorem tget_binary_ne (z : TRef sig T) (a : TRef sig Ta) (b : TRef sig Tb) (y : TRef sig Ty)
    (f : Ta.Contents (Elt Ideal) → Tb.Contents (Elt Ideal) → Ty.Contents (Elt Ideal)) (h : z.ref ≠ y.ref) :
    tget z ((TRef.binary (τ := τ) a b y f).result F) = tget z F := by
  unfold tget TRef.binary; rw [binary_result_ne _ _ _ _ _ _ _ _ h]

theorem tget_ternary_self (c : TRef sig Tc) (a : TRef sig Ta) (b : TRef sig Tb) (y : TRef sig Ty)
    (f : Tc.Contents (Elt Ideal) → Ta.Contents (Elt Ideal) → Tb.Contents (Elt Ideal) → Ty.Contents (Elt Ideal)) :
    tget y ((TRef.ternary (τ := τ) c a b y f).result F) = f (tget c F) (tget a F) (tget b F) := by
  unfold tget TRef.ternary; rw [ternary_result]; exact ofBuf_toBuf y _
theorem tget_ternary_ne (z : TRef sig T) (c : TRef sig Tc) (a : TRef sig Ta) (b : TRef sig Tb) (y : TRef sig Ty)
    (f : Tc.Contents (Elt Ideal) → Ta.Contents (Elt Ideal) → Tb.Contents (Elt Ideal) → Ty.Contents (Elt Ideal))
    (h : z.ref ≠ y.ref) :
    tget z ((TRef.ternary (τ := τ) c a b y f).result F) = tget z F := by
  unfold tget TRef.ternary; rw [ternary_result_ne _ _ _ _ _ _ _ _ _ _ h]

end Typed
/-! ## The eight takes in the run: each buffer the message kernel reads holds one feature of one endpoint

The host operations before the message kernel run in nine stretches: the slices of the arguments, then the eight takes.
Each stretch is read against ANY contents before it: a take's result is the take of its table and index buffers, a
stretch leaves alone every buffer it does not write, and the slices make the columns and rows of the arguments. -/

section Stretches
variable (V : Valuation τ sig (Elt Ideal))

/-- The first stretch makes the edge list's rows and the node arrays' columns. -/
theorem slices_v1 : StableHlo.after (Gen.hostOps0 (F := Ideal)) V (Proc.devRef .tc main_v1) = row0 (V (Proc.devRef .tc main_arg2)) := by
  simp only [Gen.hostOps0]; after_results_simp; rfl
theorem slices_v3 : StableHlo.after (Gen.hostOps0 (F := Ideal)) V (Proc.devRef .tc main_v3) = row1 (V (Proc.devRef .tc main_arg2)) := by
  simp only [Gen.hostOps0]; after_results_simp; rfl
theorem slices_v5 : StableHlo.after (Gen.hostOps0 (F := Ideal)) V (Proc.devRef .tc main_v5) = col0 (V (Proc.devRef .tc main_arg0)) := by
  simp only [Gen.hostOps0]; after_results_simp; rfl
theorem slices_v7 : StableHlo.after (Gen.hostOps0 (F := Ideal)) V (Proc.devRef .tc main_v7) = col1 (V (Proc.devRef .tc main_arg0)) := by
  simp only [Gen.hostOps0]; after_results_simp; rfl
theorem slices_v9 : StableHlo.after (Gen.hostOps0 (F := Ideal)) V (Proc.devRef .tc main_v9) = col0 (V (Proc.devRef .tc main_arg1)) := by
  simp only [Gen.hostOps0]; after_results_simp; rfl
theorem slices_v11 : StableHlo.after (Gen.hostOps0 (F := Ideal)) V (Proc.devRef .tc main_v11) = col1 (V (Proc.devRef .tc main_arg1)) := by
  simp only [Gen.hostOps0]; after_results_simp; rfl

/-! ### Take 1 -/

/-- What take 1 writes. -/
abbrev written1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v12]

/-- Take 1 leaves alone every buffer it does not write. -/
theorem keep1 {r : Ref sig .tc} (hr : r ∉ written1) :
    StableHlo.after (Gen.hostOps0_1 (F := Ideal)) V (Proc.devRef .tc r) = V (Proc.devRef .tc r) :=
  StableHlo.after_of_writes_sub _ V (W := written1) (by
    simp only [Gen.hostOps0_1, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

set_option maxHeartbeats 1000000 in
/-- Take 1's result, read at its type, is the take of its table along its index vector. -/
theorem take1_typed : tget (.of main_v12 : TRef sig ⟨S6400000, .f32⟩) (StableHlo.after (Gen.hostOps0_1 (F := Ideal)) V)
    = takeOf (tget (.of main_v5 : TRef sig ⟨S100000, .f32⟩) V) (tget (.of main_v3 : TRef sig ⟨S6400000, .i32⟩) V) := by
  simp (disch := decide) only [Gen.hostOps0_1, after_cons, after_nil, tget_nullary_self, tget_unary_self, tget_binary_self,
    tget_ternary_self, tget_nullary_ne, tget_unary_ne, tget_binary_ne, tget_ternary_ne]
  rfl

/-- Take 1's result is the take of its table along its index vector. -/
theorem take1 : StableHlo.after (Gen.hostOps0_1 (F := Ideal)) V (Proc.devRef .tc main_v12)
    = takeOf (V (Proc.devRef .tc main_v5)) (V (Proc.devRef .tc main_v3)) := take1_typed V

/-! ### Take 2 -/

/-- What take 2 writes. -/
abbrev written2 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v13]

/-- Take 2 leaves alone every buffer it does not write. -/
theorem keep2 {r : Ref sig .tc} (hr : r ∉ written2) :
    StableHlo.after (Gen.hostOps0_2 (F := Ideal)) V (Proc.devRef .tc r) = V (Proc.devRef .tc r) :=
  StableHlo.after_of_writes_sub _ V (W := written2) (by
    simp only [Gen.hostOps0_2, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

set_option maxHeartbeats 1000000 in
/-- Take 2's result, read at its type, is the take of its table along its index vector. -/
theorem take2_typed : tget (.of main_v13 : TRef sig ⟨S6400000, .f32⟩) (StableHlo.after (Gen.hostOps0_2 (F := Ideal)) V)
    = takeOf (tget (.of main_v7 : TRef sig ⟨S100000, .f32⟩) V) (tget (.of main_v3 : TRef sig ⟨S6400000, .i32⟩) V) := by
  simp (disch := decide) only [Gen.hostOps0_2, after_cons, after_nil, tget_nullary_self, tget_unary_self, tget_binary_self,
    tget_ternary_self, tget_nullary_ne, tget_unary_ne, tget_binary_ne, tget_ternary_ne]
  rfl

/-- Take 2's result is the take of its table along its index vector. -/
theorem take2 : StableHlo.after (Gen.hostOps0_2 (F := Ideal)) V (Proc.devRef .tc main_v13)
    = takeOf (V (Proc.devRef .tc main_v7)) (V (Proc.devRef .tc main_v3)) := take2_typed V

/-! ### Take 3 -/

/-- What take 3 writes. -/
abbrev written3 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v14]

/-- Take 3 leaves alone every buffer it does not write. -/
theorem keep3 {r : Ref sig .tc} (hr : r ∉ written3) :
    StableHlo.after (Gen.hostOps0_3 (F := Ideal)) V (Proc.devRef .tc r) = V (Proc.devRef .tc r) :=
  StableHlo.after_of_writes_sub _ V (W := written3) (by
    simp only [Gen.hostOps0_3, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

set_option maxHeartbeats 1000000 in
/-- Take 3's result, read at its type, is the take of its table along its index vector. -/
theorem take3_typed : tget (.of main_v14 : TRef sig ⟨S6400000, .f32⟩) (StableHlo.after (Gen.hostOps0_3 (F := Ideal)) V)
    = takeOf (tget (.of main_v9 : TRef sig ⟨S100000, .f32⟩) V) (tget (.of main_v3 : TRef sig ⟨S6400000, .i32⟩) V) := by
  simp (disch := decide) only [Gen.hostOps0_3, after_cons, after_nil, tget_nullary_self, tget_unary_self, tget_binary_self,
    tget_ternary_self, tget_nullary_ne, tget_unary_ne, tget_binary_ne, tget_ternary_ne]
  rfl

/-- Take 3's result is the take of its table along its index vector. -/
theorem take3 : StableHlo.after (Gen.hostOps0_3 (F := Ideal)) V (Proc.devRef .tc main_v14)
    = takeOf (V (Proc.devRef .tc main_v9)) (V (Proc.devRef .tc main_v3)) := take3_typed V

/-! ### Take 4 -/

/-- What take 4 writes. -/
abbrev written4 : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v15]

/-- Take 4 leaves alone every buffer it does not write. -/
theorem keep4 {r : Ref sig .tc} (hr : r ∉ written4) :
    StableHlo.after (Gen.hostOps0_4 (F := Ideal)) V (Proc.devRef .tc r) = V (Proc.devRef .tc r) :=
  StableHlo.after_of_writes_sub _ V (W := written4) (by
    simp only [Gen.hostOps0_4, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

set_option maxHeartbeats 1000000 in
/-- Take 4's result, read at its type, is the take of its table along its index vector. -/
theorem take4_typed : tget (.of main_v15 : TRef sig ⟨S6400000, .f32⟩) (StableHlo.after (Gen.hostOps0_4 (F := Ideal)) V)
    = takeOf (tget (.of main_v11 : TRef sig ⟨S100000, .f32⟩) V) (tget (.of main_v3 : TRef sig ⟨S6400000, .i32⟩) V) := by
  simp (disch := decide) only [Gen.hostOps0_4, after_cons, after_nil, tget_nullary_self, tget_unary_self, tget_binary_self,
    tget_ternary_self, tget_nullary_ne, tget_unary_ne, tget_binary_ne, tget_ternary_ne]
  rfl

/-- Take 4's result is the take of its table along its index vector. -/
theorem take4 : StableHlo.after (Gen.hostOps0_4 (F := Ideal)) V (Proc.devRef .tc main_v15)
    = takeOf (V (Proc.devRef .tc main_v11)) (V (Proc.devRef .tc main_v3)) := take4_typed V

/-! ### Take 5 -/

/-- What take 5 writes. -/
abbrev written5 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_cst, main_call4_v14, main_v16]

/-- Take 5 leaves alone every buffer it does not write. -/
theorem keep5 {r : Ref sig .tc} (hr : r ∉ written5) :
    StableHlo.after (Gen.hostOps0_5 (F := Ideal)) V (Proc.devRef .tc r) = V (Proc.devRef .tc r) :=
  StableHlo.after_of_writes_sub _ V (W := written5) (by
    simp only [Gen.hostOps0_5, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

set_option maxHeartbeats 1000000 in
/-- Take 5's result, read at its type, is the take of its table along its index vector. -/
theorem take5_typed : tget (.of main_v16 : TRef sig ⟨S6400000, .f32⟩) (StableHlo.after (Gen.hostOps0_5 (F := Ideal)) V)
    = takeOf (tget (.of main_v5 : TRef sig ⟨S100000, .f32⟩) V) (tget (.of main_v1 : TRef sig ⟨S6400000, .i32⟩) V) := by
  simp (disch := decide) only [Gen.hostOps0_5, after_cons, after_nil, tget_nullary_self, tget_unary_self, tget_binary_self,
    tget_ternary_self, tget_nullary_ne, tget_unary_ne, tget_binary_ne, tget_ternary_ne]
  rfl

/-- Take 5's result is the take of its table along its index vector. -/
theorem take5 : StableHlo.after (Gen.hostOps0_5 (F := Ideal)) V (Proc.devRef .tc main_v16)
    = takeOf (V (Proc.devRef .tc main_v5)) (V (Proc.devRef .tc main_v1)) := take5_typed V

/-! ### Take 6 -/

/-- What take 6 writes. -/
abbrev written6 : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_cst, main_call5_v14, main_v17]

/-- Take 6 leaves alone every buffer it does not write. -/
theorem keep6 {r : Ref sig .tc} (hr : r ∉ written6) :
    StableHlo.after (Gen.hostOps0_6 (F := Ideal)) V (Proc.devRef .tc r) = V (Proc.devRef .tc r) :=
  StableHlo.after_of_writes_sub _ V (W := written6) (by
    simp only [Gen.hostOps0_6, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

set_option maxHeartbeats 1000000 in
/-- Take 6's result, read at its type, is the take of its table along its index vector. -/
theorem take6_typed : tget (.of main_v17 : TRef sig ⟨S6400000, .f32⟩) (StableHlo.after (Gen.hostOps0_6 (F := Ideal)) V)
    = takeOf (tget (.of main_v7 : TRef sig ⟨S100000, .f32⟩) V) (tget (.of main_v1 : TRef sig ⟨S6400000, .i32⟩) V) := by
  simp (disch := decide) only [Gen.hostOps0_6, after_cons, after_nil, tget_nullary_self, tget_unary_self, tget_binary_self,
    tget_ternary_self, tget_nullary_ne, tget_unary_ne, tget_binary_ne, tget_ternary_ne]
  rfl

/-- Take 6's result is the take of its table along its index vector. -/
theorem take6 : StableHlo.after (Gen.hostOps0_6 (F := Ideal)) V (Proc.devRef .tc main_v17)
    = takeOf (V (Proc.devRef .tc main_v7)) (V (Proc.devRef .tc main_v1)) := take6_typed V

/-! ### Take 7 -/

/-- What take 7 writes. -/
abbrev written7 : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v18]

/-- Take 7 leaves alone every buffer it does not write. -/
theorem keep7 {r : Ref sig .tc} (hr : r ∉ written7) :
    StableHlo.after (Gen.hostOps0_7 (F := Ideal)) V (Proc.devRef .tc r) = V (Proc.devRef .tc r) :=
  StableHlo.after_of_writes_sub _ V (W := written7) (by
    simp only [Gen.hostOps0_7, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

set_option maxHeartbeats 1000000 in
/-- Take 7's result, read at its type, is the take of its table along its index vector. -/
theorem take7_typed : tget (.of main_v18 : TRef sig ⟨S6400000, .f32⟩) (StableHlo.after (Gen.hostOps0_7 (F := Ideal)) V)
    = takeOf (tget (.of main_v9 : TRef sig ⟨S100000, .f32⟩) V) (tget (.of main_v1 : TRef sig ⟨S6400000, .i32⟩) V) := by
  simp (disch := decide) only [Gen.hostOps0_7, after_cons, after_nil, tget_nullary_self, tget_unary_self, tget_binary_self,
    tget_ternary_self, tget_nullary_ne, tget_unary_ne, tget_binary_ne, tget_ternary_ne]
  rfl

/-- Take 7's result is the take of its table along its index vector. -/
theorem take7 : StableHlo.after (Gen.hostOps0_7 (F := Ideal)) V (Proc.devRef .tc main_v18)
    = takeOf (V (Proc.devRef .tc main_v9)) (V (Proc.devRef .tc main_v1)) := take7_typed V

/-! ### Take 8 -/

/-- What take 8 writes. -/
abbrev written8 : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_cst, main_call7_v14, main_v19]

/-- Take 8 leaves alone every buffer it does not write. -/
theorem keep8 {r : Ref sig .tc} (hr : r ∉ written8) :
    StableHlo.after (Gen.hostOps0_8 (F := Ideal)) V (Proc.devRef .tc r) = V (Proc.devRef .tc r) :=
  StableHlo.after_of_writes_sub _ V (W := written8) (by
    simp only [Gen.hostOps0_8, List.Forall, StableHlo.nullary_writes, StableHlo.unary_writes, StableHlo.binary_writes,
      StableHlo.ternary_writes]
    repeat' apply And.intro
    all_goals exact Finset.singleton_subset_iff.mpr (List.mem_toFinset.mpr (List.mem_map_of_mem (by decide)))) hr

set_option maxHeartbeats 1000000 in
/-- Take 8's result, read at its type, is the take of its table along its index vector. -/
theorem take8_typed : tget (.of main_v19 : TRef sig ⟨S6400000, .f32⟩) (StableHlo.after (Gen.hostOps0_8 (F := Ideal)) V)
    = takeOf (tget (.of main_v11 : TRef sig ⟨S100000, .f32⟩) V) (tget (.of main_v1 : TRef sig ⟨S6400000, .i32⟩) V) := by
  simp (disch := decide) only [Gen.hostOps0_8, after_cons, after_nil, tget_nullary_self, tget_unary_self, tget_binary_self,
    tget_ternary_self, tget_nullary_ne, tget_unary_ne, tget_binary_ne, tget_ternary_ne]
  rfl

/-- Take 8's result is the take of its table along its index vector. -/
theorem take8 : StableHlo.after (Gen.hostOps0_8 (F := Ideal)) V (Proc.devRef .tc main_v19)
    = takeOf (V (Proc.devRef .tc main_v11)) (V (Proc.devRef .tc main_v1)) := take8_typed V

end Stretches

/-! ## The message kernel's eight input arrays -/

section Entry
variable (m : (ℓ : Loc nD τ sig) → Buf (Elt Ideal) ℓ) (ρ : Dev nD → PrngReg) (c : Dev nD)

/-- The run's contents of this buffer at the message kernel's entry: the take of the column along the row. -/
theorem run_main_v12 : Gen.V9 m ρ c main_v12 = takeOf (col0 (argP m c)) (row1 (argEI m c)) := by
  show Gen.W9 m ρ c (Proc.devRef .tc main_v12) = _
  dsimp only [Gen.V9, Gen.W9, Gen.W8, Gen.W7, Gen.W6, Gen.W5, Gen.W4, Gen.W3, Gen.W2, Gen.W1]
  rw [keep8 _ (r := main_v12) (by decide),
    keep7 _ (r := main_v12) (by decide),
    keep6 _ (r := main_v12) (by decide),
    keep5 _ (r := main_v12) (by decide),
    keep4 _ (r := main_v12) (by decide),
    keep3 _ (r := main_v12) (by decide),
    keep2 _ (r := main_v12) (by decide),
    take1,
    slices_v5,
    slices_v3]

/-- The run's contents of this buffer at the message kernel's entry: the take of the column along the row. -/
theorem run_main_v13 : Gen.V9 m ρ c main_v13 = takeOf (col1 (argP m c)) (row1 (argEI m c)) := by
  show Gen.W9 m ρ c (Proc.devRef .tc main_v13) = _
  dsimp only [Gen.V9, Gen.W9, Gen.W8, Gen.W7, Gen.W6, Gen.W5, Gen.W4, Gen.W3, Gen.W2, Gen.W1]
  rw [keep8 _ (r := main_v13) (by decide),
    keep7 _ (r := main_v13) (by decide),
    keep6 _ (r := main_v13) (by decide),
    keep5 _ (r := main_v13) (by decide),
    keep4 _ (r := main_v13) (by decide),
    keep3 _ (r := main_v13) (by decide),
    take2,
    keep1 _ (r := main_v7) (by decide),
    keep1 _ (r := main_v3) (by decide),
    slices_v7,
    slices_v3]

/-- The run's contents of this buffer at the message kernel's entry: the take of the column along the row. -/
theorem run_main_v14 : Gen.V9 m ρ c main_v14 = takeOf (col0 (argV m c)) (row1 (argEI m c)) := by
  show Gen.W9 m ρ c (Proc.devRef .tc main_v14) = _
  dsimp only [Gen.V9, Gen.W9, Gen.W8, Gen.W7, Gen.W6, Gen.W5, Gen.W4, Gen.W3, Gen.W2, Gen.W1]
  rw [keep8 _ (r := main_v14) (by decide),
    keep7 _ (r := main_v14) (by decide),
    keep6 _ (r := main_v14) (by decide),
    keep5 _ (r := main_v14) (by decide),
    keep4 _ (r := main_v14) (by decide),
    take3,
    keep2 _ (r := main_v9) (by decide),
    keep2 _ (r := main_v3) (by decide),
    keep1 _ (r := main_v9) (by decide),
    keep1 _ (r := main_v3) (by decide),
    slices_v9,
    slices_v3]

/-- The run's contents of this buffer at the message kernel's entry: the take of the column along the row. -/
theorem run_main_v15 : Gen.V9 m ρ c main_v15 = takeOf (col1 (argV m c)) (row1 (argEI m c)) := by
  show Gen.W9 m ρ c (Proc.devRef .tc main_v15) = _
  dsimp only [Gen.V9, Gen.W9, Gen.W8, Gen.W7, Gen.W6, Gen.W5, Gen.W4, Gen.W3, Gen.W2, Gen.W1]
  rw [keep8 _ (r := main_v15) (by decide),
    keep7 _ (r := main_v15) (by decide),
    keep6 _ (r := main_v15) (by decide),
    keep5 _ (r := main_v15) (by decide),
    take4,
    keep3 _ (r := main_v11) (by decide),
    keep3 _ (r := main_v3) (by decide),
    keep2 _ (r := main_v11) (by decide),
    keep2 _ (r := main_v3) (by decide),
    keep1 _ (r := main_v11) (by decide),
    keep1 _ (r := main_v3) (by decide),
    slices_v11,
    slices_v3]

/-- The run's contents of this buffer at the message kernel's entry: the take of the column along the row. -/
theorem run_main_v16 : Gen.V9 m ρ c main_v16 = takeOf (col0 (argP m c)) (row0 (argEI m c)) := by
  show Gen.W9 m ρ c (Proc.devRef .tc main_v16) = _
  dsimp only [Gen.V9, Gen.W9, Gen.W8, Gen.W7, Gen.W6, Gen.W5, Gen.W4, Gen.W3, Gen.W2, Gen.W1]
  rw [keep8 _ (r := main_v16) (by decide),
    keep7 _ (r := main_v16) (by decide),
    keep6 _ (r := main_v16) (by decide),
    take5,
    keep4 _ (r := main_v5) (by decide),
    keep4 _ (r := main_v1) (by decide),
    keep3 _ (r := main_v5) (by decide),
    keep3 _ (r := main_v1) (by decide),
    keep2 _ (r := main_v5) (by decide),
    keep2 _ (r := main_v1) (by decide),
    keep1 _ (r := main_v5) (by decide),
    keep1 _ (r := main_v1) (by decide),
    slices_v5,
    slices_v1]

/-- The run's contents of this buffer at the message kernel's entry: the take of the column along the row. -/
theorem run_main_v17 : Gen.V9 m ρ c main_v17 = takeOf (col1 (argP m c)) (row0 (argEI m c)) := by
  show Gen.W9 m ρ c (Proc.devRef .tc main_v17) = _
  dsimp only [Gen.V9, Gen.W9, Gen.W8, Gen.W7, Gen.W6, Gen.W5, Gen.W4, Gen.W3, Gen.W2, Gen.W1]
  rw [keep8 _ (r := main_v17) (by decide),
    keep7 _ (r := main_v17) (by decide),
    take6,
    keep5 _ (r := main_v7) (by decide),
    keep5 _ (r := main_v1) (by decide),
    keep4 _ (r := main_v7) (by decide),
    keep4 _ (r := main_v1) (by decide),
    keep3 _ (r := main_v7) (by decide),
    keep3 _ (r := main_v1) (by decide),
    keep2 _ (r := main_v7) (by decide),
    keep2 _ (r := main_v1) (by decide),
    keep1 _ (r := main_v7) (by decide),
    keep1 _ (r := main_v1) (by decide),
    slices_v7,
    slices_v1]

/-- The run's contents of this buffer at the message kernel's entry: the take of the column along the row. -/
theorem run_main_v18 : Gen.V9 m ρ c main_v18 = takeOf (col0 (argV m c)) (row0 (argEI m c)) := by
  show Gen.W9 m ρ c (Proc.devRef .tc main_v18) = _
  dsimp only [Gen.V9, Gen.W9, Gen.W8, Gen.W7, Gen.W6, Gen.W5, Gen.W4, Gen.W3, Gen.W2, Gen.W1]
  rw [keep8 _ (r := main_v18) (by decide),
    take7,
    keep6 _ (r := main_v9) (by decide),
    keep6 _ (r := main_v1) (by decide),
    keep5 _ (r := main_v9) (by decide),
    keep5 _ (r := main_v1) (by decide),
    keep4 _ (r := main_v9) (by decide),
    keep4 _ (r := main_v1) (by decide),
    keep3 _ (r := main_v9) (by decide),
    keep3 _ (r := main_v1) (by decide),
    keep2 _ (r := main_v9) (by decide),
    keep2 _ (r := main_v1) (by decide),
    keep1 _ (r := main_v9) (by decide),
    keep1 _ (r := main_v1) (by decide),
    slices_v9,
    slices_v1]

/-- The run's contents of this buffer at the message kernel's entry: the take of the column along the row. -/
theorem run_main_v19 : Gen.V9 m ρ c main_v19 = takeOf (col1 (argV m c)) (row0 (argEI m c)) := by
  show Gen.W9 m ρ c (Proc.devRef .tc main_v19) = _
  dsimp only [Gen.V9, Gen.W9, Gen.W8, Gen.W7, Gen.W6, Gen.W5, Gen.W4, Gen.W3, Gen.W2, Gen.W1]
  rw [take8,
    keep7 _ (r := main_v11) (by decide),
    keep7 _ (r := main_v1) (by decide),
    keep6 _ (r := main_v11) (by decide),
    keep6 _ (r := main_v1) (by decide),
    keep5 _ (r := main_v11) (by decide),
    keep5 _ (r := main_v1) (by decide),
    keep4 _ (r := main_v11) (by decide),
    keep4 _ (r := main_v1) (by decide),
    keep3 _ (r := main_v11) (by decide),
    keep3 _ (r := main_v1) (by decide),
    keep2 _ (r := main_v11) (by decide),
    keep2 _ (r := main_v1) (by decide),
    keep1 _ (r := main_v11) (by decide),
    keep1 _ (r := main_v1) (by decide),
    slices_v11,
    slices_v1]

/-- Feature 0 of the edge's target node. -/
theorem entry_v12 (hin : InRange (argEI m c)) :
    Gen.V9 m ρ c main_v12 = fun e => feat (argP m c) (argV m c) (dstOf (argEI m c) (e 0)) 0 := by
  rw [run_main_v12]
  funext e
  rw [takeOf_row1 _ _ hin, col0_apply]
  rfl

/-- Feature 1 of the edge's target node. -/
theorem entry_v13 (hin : InRange (argEI m c)) :
    Gen.V9 m ρ c main_v13 = fun e => feat (argP m c) (argV m c) (dstOf (argEI m c) (e 0)) 1 := by
  rw [run_main_v13]
  funext e
  rw [takeOf_row1 _ _ hin, col1_apply]
  rfl

/-- Feature 2 of the edge's target node. -/
theorem entry_v14 (hin : InRange (argEI m c)) :
    Gen.V9 m ρ c main_v14 = fun e => feat (argP m c) (argV m c) (dstOf (argEI m c) (e 0)) 2 := by
  rw [run_main_v14]
  funext e
  rw [takeOf_row1 _ _ hin, col0_apply]
  rfl

/-- Feature 3 of the edge's target node. -/
theorem entry_v15 (hin : InRange (argEI m c)) :
    Gen.V9 m ρ c main_v15 = fun e => feat (argP m c) (argV m c) (dstOf (argEI m c) (e 0)) 3 := by
  rw [run_main_v15]
  funext e
  rw [takeOf_row1 _ _ hin, col1_apply]
  rfl

/-- Feature 0 of the edge's source node. -/
theorem entry_v16 (hin : InRange (argEI m c)) :
    Gen.V9 m ρ c main_v16 = fun e => feat (argP m c) (argV m c) (srcOf (argEI m c) (e 0)) 0 := by
  rw [run_main_v16]
  funext e
  rw [takeOf_row0 _ _ hin, col0_apply]
  rfl

/-- Feature 1 of the edge's source node. -/
theorem entry_v17 (hin : InRange (argEI m c)) :
    Gen.V9 m ρ c main_v17 = fun e => feat (argP m c) (argV m c) (srcOf (argEI m c) (e 0)) 1 := by
  rw [run_main_v17]
  funext e
  rw [takeOf_row0 _ _ hin, col1_apply]
  rfl

/-- Feature 2 of the edge's source node. -/
theorem entry_v18 (hin : InRange (argEI m c)) :
    Gen.V9 m ρ c main_v18 = fun e => feat (argP m c) (argV m c) (srcOf (argEI m c) (e 0)) 2 := by
  rw [run_main_v18]
  funext e
  rw [takeOf_row0 _ _ hin, col0_apply]
  rfl

/-- Feature 3 of the edge's source node. -/
theorem entry_v19 (hin : InRange (argEI m c)) :
    Gen.V9 m ρ c main_v19 = fun e => feat (argP m c) (argV m c) (srcOf (argEI m c) (e 0)) 3 := by
  rw [run_main_v19]
  funext e
  rw [takeOf_row0 _ _ hin, col1_apply]
  rfl

end Entry

end Cert.KernelIdeal.KVal

end
-- ==== Proof.KRegion0.lean ====
/-
  The per-edge message kernel: its four output arrays, index by index.

  The kernel runs over 50 blocks of 128000 edges. In each block it reads the eight per-edge feature arrays (the
  target's and the source's position and velocity), forms the four message channels, and replaces them by zero
  where the two endpoints carry exactly the same features. Every array is cut the same way, so position j of
  block t is edge 128000 t + j in all twelve arrays, and the four outputs are the four channels of every edge's
  message.
-/
import proofs.«423533_j53644141527383_1_alg».proof.Proof.KEntry
import Idealize.ShloMosaic.Lib.Affine
import Idealize.ShloMosaic.PureOps.Ideal.Laws

set_option maxRecDepth 16384

noncomputable section

namespace Cert.KernelIdeal.KVal

open Idealize.ShloMosaic Idealize.ShloMosaic.TcCoe Idealize.SL.Sem Cert.KernelIdeal Cert.KernelIdeal.Gen Cert.Flock
open Idealize.ShloMosaic.ValueIdx Idealize.ShloMosaic.StableHlo
open Idealize.ShloMosaic.Pipeline (Dat)

/-! ## The mask: all four features agree -/

/-- An ordered-equal comparison of two extended reals is the bit of their equality. -/
theorem cmp_oeq_eq_one (a b : EReal) : Ideal.cmp .oeq a b = 1#1 ↔ a = b := by
  unfold Ideal.cmp
  simp only [Predicate.ofBool_eq_one_iff, decide_eq_true_eq]

/-- The conjunction of the four comparisons, as the kernel associates it, is the bit of "the two feature vectors coincide". -/
theorem same_bit (a0 a1 a2 a3 b0 b1 b2 b3 : EReal) :
    IntOp.andi (IntOp.andi (IntOp.andi (Ideal.cmp .oeq a0 b0) (Ideal.cmp .oeq a1 b1)) (Ideal.cmp .oeq a2 b2))
        (Ideal.cmp .oeq a3 b3) = 1#1 ↔ a0 = b0 ∧ a1 = b1 ∧ a2 = b2 ∧ a3 = b3 := by
  rw [IntOp.andi_eq_one, IntOp.andi_eq_one, IntOp.andi_eq_one, cmp_oeq_eq_one, cmp_oeq_eq_one, cmp_oeq_eq_one,
    cmp_oeq_eq_one, and_assoc, and_assoc]

/-- A select on that bit between zero and a value is the masked message. -/
theorem select_same (fi fj : Fin 4 → EReal) (k : Fin 4) (v : EReal) (hv : v = mraw (fi 0) (fi 1) (fj 0) (fj 1) k) :
    Scalar.select (IntOp.andi (IntOp.andi (IntOp.andi (Ideal.cmp .oeq (fi 0) (fj 0)) (Ideal.cmp .oeq (fi 1) (fj 1)))
        (Ideal.cmp .oeq (fi 2) (fj 2))) (Ideal.cmp .oeq (fi 3) (fj 3))) (Ideal.ofBits .f32 0x00000000#32) v = msg fi fj k := by
  unfold Scalar.select msg
  rw [Ideal.ofBits_zero_f32, hv]
  exact if_congr (same_bit _ _ _ _ _ _ _ _) rfl rfl

/-! ## The body's four stored payloads at a position -/

section Payload
variable (x0 x1 x2 x3 x4 x5 x6 x7 : Vec Ideal S128000 .f32) (j : S128000.Idx) (fi fj : Fin 4 → EReal)
  (h0 : x0 j = fi 0) (h1 : x1 j = fi 1) (h2 : x2 j = fi 2) (h3 : x3 j = fi 3)
  (h4 : x4 j = fj 0) (h5 : x5 j = fj 1) (h6 : x6 j = fj 2) (h7 : x7 j = fj 3)
include h0 h1 h2 h3 h4 h5 h6 h7

theorem pay_ch0 :
    k0_pay3 (k0_pay7 x0) (k0_pay8 x1) (k0_pay9 x2) (k0_pay10 x3) (k0_pay11 x4) (k0_pay12 x5) (k0_pay13 x6) (k0_pay14 x7)
      (k0_pay16 x0 x1 x4 x5) j = msg fi fj 0 := by
  unfold k0_pay3 k0_pay1 k0_pay2 k0_pay16 k0_pay15 k0_pay7 k0_pay8 k0_pay9 k0_pay10 k0_pay11 k0_pay12 k0_pay13 k0_pay14
  simp only [shapeCast_self]
  show Scalar.select (IntOp.andi (IntOp.andi (IntOp.andi (Ideal.cmp .oeq (x0 j) (x4 j)) (Ideal.cmp .oeq (x1 j) (x5 j)))
      (Ideal.cmp .oeq (x2 j) (x6 j))) (Ideal.cmp .oeq (x3 j) (x7 j))) (Ideal.ofBits .f32 0x00000000#32)
      (((x4 j - x0 j) + (x1 j - x5 j) * Ideal.ofBits .f32 0x3ED17BFC#32) * Ideal.ofBits .f32 0x3CED8F1D#32) = _
  rw [h0, h1, h2, h3, h4, h5, h6, h7]
  exact select_same fi fj 0 _ rfl

theorem pay_ch1 :
    k0_pay4 (k0_pay7 x0) (k0_pay8 x1) (k0_pay9 x2) (k0_pay10 x3) (k0_pay11 x4) (k0_pay12 x5) (k0_pay13 x6) (k0_pay14 x7)
      (k0_pay17 x0 x1 x4 x5) j = msg fi fj 1 := by
  unfold k0_pay4 k0_pay1 k0_pay2 k0_pay17 k0_pay15 k0_pay7 k0_pay8 k0_pay9 k0_pay10 k0_pay11 k0_pay12 k0_pay13 k0_pay14
  simp only [shapeCast_self]
  show Scalar.select (IntOp.andi (IntOp.andi (IntOp.andi (Ideal.cmp .oeq (x0 j) (x4 j)) (Ideal.cmp .oeq (x1 j) (x5 j)))
      (Ideal.cmp .oeq (x2 j) (x6 j))) (Ideal.cmp .oeq (x3 j) (x7 j))) (Ideal.ofBits .f32 0x00000000#32)
      (((x4 j - x0 j) + (x1 j - x5 j) * Ideal.ofBits .f32 0x3F14F9A7#32) * Ideal.ofBits .f32 0xBCD8166C#32) = _
  rw [h0, h1, h2, h3, h4, h5, h6, h7]
  exact select_same fi fj 1 _ rfl

theorem pay_ch2 :
    k0_pay5 (k0_pay7 x0) (k0_pay8 x1) (k0_pay9 x2) (k0_pay10 x3) (k0_pay11 x4) (k0_pay12 x5) (k0_pay13 x6) (k0_pay14 x7)
      (k0_pay18 x0 x1 x4) j = msg fi fj 2 := by
  unfold k0_pay5 k0_pay1 k0_pay2 k0_pay18 k0_pay15 k0_pay7 k0_pay8 k0_pay9 k0_pay10 k0_pay11 k0_pay12 k0_pay13 k0_pay14
  simp only [shapeCast_self]
  show Scalar.select (IntOp.andi (IntOp.andi (IntOp.andi (Ideal.cmp .oeq (x0 j) (x4 j)) (Ideal.cmp .oeq (x1 j) (x5 j)))
      (Ideal.cmp .oeq (x2 j) (x6 j))) (Ideal.cmp .oeq (x3 j) (x7 j))) (Ideal.ofBits .f32 0x00000000#32)
      ((x1 j * Ideal.ofBits .f32 0xBDA1F257#32 - (x4 j - x0 j)) * Ideal.ofBits .f32 0xBCDAE815#32) = _
  rw [h0, h1, h2, h3, h4, h5, h6, h7]
  exact select_same fi fj 2 _ rfl

theorem pay_ch3 :
    k0_pay6 (k0_pay7 x0) (k0_pay8 x1) (k0_pay9 x2) (k0_pay10 x3) (k0_pay11 x4) (k0_pay12 x5) (k0_pay13 x6) (k0_pay14 x7)
      (k0_pay19 x0 x1 x5) (k0_pay20 x4) j = msg fi fj 3 := by
  unfold k0_pay6 k0_pay1 k0_pay2 k0_pay19 k0_pay20 k0_pay7 k0_pay8 k0_pay9 k0_pay10 k0_pay11 k0_pay12 k0_pay13 k0_pay14
  simp only [shapeCast_self]
  show Scalar.select (IntOp.andi (IntOp.andi (IntOp.andi (Ideal.cmp .oeq (x0 j) (x4 j)) (Ideal.cmp .oeq (x1 j) (x5 j)))
      (Ideal.cmp .oeq (x2 j) (x6 j))) (Ideal.cmp .oeq (x3 j) (x7 j))) (Ideal.ofBits .f32 0x00000000#32)
      ((x1 j * Ideal.ofBits .f32 0x3F74B8A0#32 - x5 j - x0 j * Ideal.ofBits .f32 0x3E4F4D35#32
        - x4 j * Ideal.ofBits .f32 0xBE365DEE#32) * Ideal.ofBits .f32 0x3CDCA3CF#32) = _
  rw [h0, h1, h2, h3, h4, h5, h6, h7]
  exact select_same fi fj 3 _ rfl

end Payload

/-! ## From blocks to arrays -/

theorem hz1 : (![0] : Fin 1 → Nat) = fun _ => 0 := funext fun a => by fin_cases a; rfl

/-- In every one of the twelve windows the block index at a point is the point. -/
theorem idx_facts : ∀ t : Fin cfg0.N, win0_0.index t (0 : Fin 1) = t.val ∧ win0_1.index t (0 : Fin 1) = t.val
    ∧ win0_2.index t (0 : Fin 1) = t.val ∧ win0_3.index t (0 : Fin 1) = t.val ∧ win0_4.index t (0 : Fin 1) = t.val
    ∧ win0_5.index t (0 : Fin 1) = t.val ∧ win0_6.index t (0 : Fin 1) = t.val ∧ win0_7.index t (0 : Fin 1) = t.val
    ∧ win0_8.index t (0 : Fin 1) = t.val ∧ win0_9.index t (0 : Fin 1) = t.val ∧ win0_10.index t (0 : Fin 1) = t.val
    ∧ win0_11.index t (0 : Fin 1) = t.val :=
  (by decide +kernel : ∀ t : Fin grid0.N, _)

/-! ### The blocks, over ANY contents at the kernel's entry whose eight input arrays hold the endpoints' features -/

section Blocks
variable (P V : SN2.Idx → EReal) (EI : IVec SEI 32) (c : Dev nD)
  (Vv : (c : Dev nD) → (b : Ref sig .tc) → Buf (Elt Ideal) ((c : Thread nD τ).loc b))

/-- Input window 0's block at a point, read at a position, is feature 0 of the target of the edge at the
    point's offset plus the position. -/
theorem in0_apply (hV : Vv c main_v12 = fun e : S6400000.Idx => feat P V (dstOf EI (e 0)) 0)
    (t : Fin cfg0.N) (j : S128000.Idx) (E : Fin 6400000)
    (hE : win0_0.index t (0 : Fin 1) * 128000 + (j 0).val = E.val) :
    Gen.iblk0 Vv c 0 t j = feat P V (dstOf EI E) 0 := by
  show Vv c main_v12 (((cfg0.win 0).blk t).view.emb j) = _
  rw [hV]
  exact congrArg (fun e => feat P V (dstOf EI e) 0) (Fin.ext (by
    show win0_0.index t (0 : Fin 1) * 128000 + 1 * (j 0).val = E.val
    omega))

/-- Input window 1's block at a point, read at a position, is feature 1 of the target of the edge at the
    point's offset plus the position. -/
theorem in1_apply (hV : Vv c main_v13 = fun e : S6400000.Idx => feat P V (dstOf EI (e 0)) 1)
    (t : Fin cfg0.N) (j : S128000.Idx) (E : Fin 6400000)
    (hE : win0_1.index t (0 : Fin 1) * 128000 + (j 0).val = E.val) :
    Gen.iblk0 Vv c 1 t j = feat P V (dstOf EI E) 1 := by
  show Vv c main_v13 (((cfg0.win 1).blk t).view.emb j) = _
  rw [hV]
  exact congrArg (fun e => feat P V (dstOf EI e) 1) (Fin.ext (by
    show win0_1.index t (0 : Fin 1) * 128000 + 1 * (j 0).val = E.val
    omega))

/-- Input window 2's block at a point, read at a position, is feature 2 of the target of the edge at the
    point's offset plus the position. -/
theorem in2_apply (hV : Vv c main_v14 = fun e : S6400000.Idx => feat P V (dstOf EI (e 0)) 2)
    (t : Fin cfg0.N) (j : S128000.Idx) (E : Fin 6400000)
    (hE : win0_2.index t (0 : Fin 1) * 128000 + (j 0).val = E.val) :
    Gen.iblk0 Vv c 2 t j = feat P V (dstOf EI E) 2 := by
  show Vv c main_v14 (((cfg0.win 2).blk t).view.emb j) = _
  rw [hV]
  exact congrArg (fun e => feat P V (dstOf EI e) 2) (Fin.ext (by
    show win0_2.index t (0 : Fin 1) * 128000 + 1 * (j 0).val = E.val
    omega))

/-- Input window 3's block at a point, read at a position, is feature 3 of the target of the edge at the
    point's offset plus the position. -/
theorem in3_apply (hV : Vv c main_v15 = fun e : S6400000.Idx => feat P V (dstOf EI (e 0)) 3)
    (t : Fin cfg0.N) (j : S128000.Idx) (E : Fin 6400000)
    (hE : win0_3.index t (0 : Fin 1) * 128000 + (j 0).val = E.val) :
    Gen.iblk0 Vv c 3 t j = feat P V (dstOf EI E) 3 := by
  show Vv c main_v15 (((cfg0.win 3).blk t).view.emb j) = _
  rw [hV]
  exact congrArg (fun e => feat P V (dstOf EI e) 3) (Fin.ext (by
    show win0_3.index t (0 : Fin 1) * 128000 + 1 * (j 0).val = E.val
    omega))

/-- Input window 4's block at a point, read at a position, is feature 0 of the source of the edge at the
    point's offset plus the position. -/
theorem in4_apply (hV : Vv c main_v16 = fun e : S6400000.Idx => feat P V (srcOf EI (e 0)) 0)
    (t : Fin cfg0.N) (j : S128000.Idx) (E : Fin 6400000)
    (hE : win0_4.index t (0 : Fin 1) * 128000 + (j 0).val = E.val) :
    Gen.iblk0 Vv c 4 t j = feat P V (srcOf EI E) 0 := by
  show Vv c main_v16 (((cfg0.win 4).blk t).view.emb j) = _
  rw [hV]
  exact congrArg (fun e => feat P V (srcOf EI e) 0) (Fin.ext (by
    show win0_4.index t (0 : Fin 1) * 128000 + 1 * (j 0).val = E.val
    omega))

/-- Input window 5's block at a point, read at a position, is feature 1 of the source of the edge at the
    point's offset plus the position. -/
theorem in5_apply (hV : Vv c main_v17 = fun e : S6400000.Idx => feat P V (srcOf EI (e 0)) 1)
    (t : Fin cfg0.N) (j : S128000.Idx) (E : Fin 6400000)
    (hE : win0_5.index t (0 : Fin 1) * 128000 + (j 0).val = E.val) :
    Gen.iblk0 Vv c 5 t j = feat P V (srcOf EI E) 1 := by
  show Vv c main_v17 (((cfg0.win 5).blk t).view.emb j) = _
  rw [hV]
  exact congrArg (fun e => feat P V (srcOf EI e) 1) (Fin.ext (by
    show win0_5.index t (0 : Fin 1) * 128000 + 1 * (j 0).val = E.val
    omega))

/-- Input window 6's block at a point, read at a position, is feature 2 of the source of the edge at the
    point's offset plus the position. -/
theorem in6_apply (hV : Vv c main_v18 = fun e : S6400000.Idx => feat P V (srcOf EI (e 0)) 2)
    (t : Fin cfg0.N) (j : S128000.Idx) (E : Fin 6400000)
    (hE : win0_6.index t (0 : Fin 1) * 128000 + (j 0).val = E.val) :
    Gen.iblk0 Vv c 6 t j = feat P V (srcOf EI E) 2 := by
  show Vv c main_v18 (((cfg0.win 6).blk t).view.emb j) = _
  rw [hV]
  exact congrArg (fun e => feat P V (srcOf EI e) 2) (Fin.ext (by
    show win0_6.index t (0 : Fin 1) * 128000 + 1 * (j 0).val = E.val
    omega))

/-- Input window 7's block at a point, read at a position, is feature 3 of the source of the edge at the
    point's offset plus the position. -/
theorem in7_apply (hV : Vv c main_v19 = fun e : S6400000.Idx => feat P V (srcOf EI (e 0)) 3)
    (t : Fin cfg0.N) (j : S128000.Idx) (E : Fin 6400000)
    (hE : win0_7.index t (0 : Fin 1) * 128000 + (j 0).val = E.val) :
    Gen.iblk0 Vv c 7 t j = feat P V (srcOf EI E) 3 := by
  show Vv c main_v19 (((cfg0.win 7).blk t).view.emb j) = _
  rw [hV]
  exact congrArg (fun e => feat P V (srcOf EI e) 3) (Fin.ext (by
    show win0_7.index t (0 : Fin 1) * 128000 + 1 * (j 0).val = E.val
    omega))

variable (h12 : Vv c main_v12 = fun e : S6400000.Idx => feat P V (dstOf EI (e 0)) 0)
  (h13 : Vv c main_v13 = fun e : S6400000.Idx => feat P V (dstOf EI (e 0)) 1)
  (h14 : Vv c main_v14 = fun e : S6400000.Idx => feat P V (dstOf EI (e 0)) 2)
  (h15 : Vv c main_v15 = fun e : S6400000.Idx => feat P V (dstOf EI (e 0)) 3)
  (h16 : Vv c main_v16 = fun e : S6400000.Idx => feat P V (srcOf EI (e 0)) 0)
  (h17 : Vv c main_v17 = fun e : S6400000.Idx => feat P V (srcOf EI (e 0)) 1)
  (h18 : Vv c main_v18 = fun e : S6400000.Idx => feat P V (srcOf EI (e 0)) 2)
  (h19 : Vv c main_v19 = fun e : S6400000.Idx => feat P V (srcOf EI (e 0)) 3)
include h12 h13 h14 h15 h16 h17 h18 h19

set_option maxHeartbeats 1000000 in
/-- Channel 0: what a point writes back is its block of the channel's array. -/
theorem flushed8 (t : Fin cfg0.N) :
    (Gen.dat0 Vv c).flushed 8 t
      = ((cfg0.win 8).blk t).view.read (Elt Ideal) (fun e : S6400000.Idx => edgeMsg P V EI 0 (e 0)) := by
  show (cfg0.win 8).cut (grid0.coords t) ((Gen.dat0 Vv c).after 8 t) = _
  rw [Gen.after0_8]
  unfold Gen.out0_8
  rw [View.canon_unit_zero hz1]
  simp only [View.ld_unit_zero (S := S128000) hz1]
  obtain ⟨f0, f1, f2, f3, f4, f5, f6, f7, f8, f9, f10, f11⟩ := idx_facts t
  funext j
  refine (pay_ch0 (Gen.iblk0 Vv c 0 t) (Gen.iblk0 Vv c 1 t) (Gen.iblk0 Vv c 2 t) (Gen.iblk0 Vv c 3 t) (Gen.iblk0 Vv c 4 t)
    (Gen.iblk0 Vv c 5 t) (Gen.iblk0 Vv c 6 t) (Gen.iblk0 Vv c 7 t) j
    (feat P V (dstOf EI ((((cfg0.win 8).blk t).view.emb j) 0)))
    (feat P V (srcOf EI ((((cfg0.win 8).blk t).view.emb j) 0))) ?_ ?_ ?_ ?_ ?_ ?_ ?_ ?_).trans ?_
  · exact in0_apply P V EI c Vv h12 t j _ (by
      show win0_0.index t (0 : Fin 1) * 128000 + (j 0).val = win0_8.index t (0 : Fin 1) * 128000 + 1 * (j 0).val
      rw [f0, f8]; omega)
  · exact in1_apply P V EI c Vv h13 t j _ (by
      show win0_1.index t (0 : Fin 1) * 128000 + (j 0).val = win0_8.index t (0 : Fin 1) * 128000 + 1 * (j 0).val
      rw [f1, f8]; omega)
  · exact in2_apply P V EI c Vv h14 t j _ (by
      show win0_2.index t (0 : Fin 1) * 128000 + (j 0).val = win0_8.index t (0 : Fin 1) * 128000 + 1 * (j 0).val
      rw [f2, f8]; omega)
  · exact in3_apply P V EI c Vv h15 t j _ (by
      show win0_3.index t (0 : Fin 1) * 128000 + (j 0).val = win0_8.index t (0 : Fin 1) * 128000 + 1 * (j 0).val
      rw [f3, f8]; omega)
  · exact in4_apply P V EI c Vv h16 t j _ (by
      show win0_4.index t (0 : Fin 1) * 128000 + (j 0).val = win0_8.index t (0 : Fin 1) * 128000 + 1 * (j 0).val
      rw [f4, f8]; omega)
  · exact in5_apply P V EI c Vv h17 t j _ (by
      show win0_5.index t (0 : Fin 1) * 128000 + (j 0).val = win0_8.index t (0 : Fin 1) * 128000 + 1 * (j 0).val
      rw [f5, f8]; omega)
  · exact in6_apply P V EI c Vv h18 t j _ (by
      show win0_6.index t (0 : Fin 1) * 128000 + (j 0).val = win0_8.index t (0 : Fin 1) * 128000 + 1 * (j 0).val
      rw [f6, f8]; omega)
  · exact in7_apply P V EI c Vv h19 t j _ (by
      show win0_7.index t (0 : Fin 1) * 128000 + (j 0).val = win0_8.index t (0 : Fin 1) * 128000 + 1 * (j 0).val
      rw [f7, f8]; omega)
  · rfl

set_option maxHeartbeats 1000000 in
/-- Channel 1: what a point writes back is its block of the channel's array. -/
theorem flushed9 (t : Fin cfg0.N) :
    (Gen.dat0 Vv c).flushed 9 t
      = ((cfg0.win 9).blk t).view.read (Elt Ideal) (fun e : S6400000.Idx => edgeMsg P V EI 1 (e 0)) := by
  show (cfg0.win 9).cut (grid0.coords t) ((Gen.dat0 Vv c).after 9 t) = _
  rw [Gen.after0_9]
  unfold Gen.out0_9
  rw [View.canon_unit_zero hz1]
  simp only [View.ld_unit_zero (S := S128000) hz1]
  obtain ⟨f0, f1, f2, f3, f4, f5, f6, f7, f8, f9, f10, f11⟩ := idx_facts t
  funext j
  refine (pay_ch1 (Gen.iblk0 Vv c 0 t) (Gen.iblk0 Vv c 1 t) (Gen.iblk0 Vv c 2 t) (Gen.iblk0 Vv c 3 t) (Gen.iblk0 Vv c 4 t)
    (Gen.iblk0 Vv c 5 t) (Gen.iblk0 Vv c 6 t) (Gen.iblk0 Vv c 7 t) j
    (feat P V (dstOf EI ((((cfg0.win 9).blk t).view.emb j) 0)))
    (feat P V (srcOf EI ((((cfg0.win 9).blk t).view.emb j) 0))) ?_ ?_ ?_ ?_ ?_ ?_ ?_ ?_).trans ?_
  · exact in0_apply P V EI c Vv h12 t j _ (by
      show win0_0.index t (0 : Fin 1) * 128000 + (j 0).val = win0_9.index t (0 : Fin 1) * 128000 + 1 * (j 0).val
      rw [f0, f9]; omega)
  · exact in1_apply P V EI c Vv h13 t j _ (by
      show win0_1.index t (0 : Fin 1) * 128000 + (j 0).val = win0_9.index t (0 : Fin 1) * 128000 + 1 * (j 0).val
      rw [f1, f9]; omega)
  · exact in2_apply P V EI c Vv h14 t j _ (by
      show win0_2.index t (0 : Fin 1) * 128000 + (j 0).val = win0_9.index t (0 : Fin 1) * 128000 + 1 * (j 0).val
      rw [f2, f9]; omega)
  · exact in3_apply P V EI c Vv h15 t j _ (by
      show win0_3.index t (0 : Fin 1) * 128000 + (j 0).val = win0_9.index t (0 : Fin 1) * 128000 + 1 * (j 0).val
      rw [f3, f9]; omega)
  · exact in4_apply P V EI c Vv h16 t j _ (by
      show win0_4.index t (0 : Fin 1) * 128000 + (j 0).val = win0_9.index t (0 : Fin 1) * 128000 + 1 * (j 0).val
      rw [f4, f9]; omega)
  · exact in5_apply P V EI c Vv h17 t j _ (by
      show win0_5.index t (0 : Fin 1) * 128000 + (j 0).val = win0_9.index t (0 : Fin 1) * 128000 + 1 * (j 0).val
      rw [f5, f9]; omega)
  · exact in6_apply P V EI c Vv h18 t j _ (by
      show win0_6.index t (0 : Fin 1) * 128000 + (j 0).val = win0_9.index t (0 : Fin 1) * 128000 + 1 * (j 0).val
      rw [f6, f9]; omega)
  · exact in7_apply P V EI c Vv h19 t j _ (by
      show win0_7.index t (0 : Fin 1) * 128000 + (j 0).val = win0_9.index t (0 : Fin 1) * 128000 + 1 * (j 0).val
      rw [f7, f9]; omega)
  · rfl

set_option maxHeartbeats 1000000 in
/-- Channel 2: what a point writes back is its block of the channel's array. -/
theorem flushed10 (t : Fin cfg0.N) :
    (Gen.dat0 Vv c).flushed 10 t
      = ((cfg0.win 10).blk t).view.read (Elt Ideal) (fun e : S6400000.Idx => edgeMsg P V EI 2 (e 0)) := by
  show (cfg0.win 10).cut (grid0.coords t) ((Gen.dat0 Vv c).after 10 t) = _
  rw [Gen.after0_10]
  unfold Gen.out0_10
  rw [View.canon_unit_zero hz1]
  simp only [View.ld_unit_zero (S := S128000) hz1]
  obtain ⟨f0, f1, f2, f3, f4, f5, f6, f7, f8, f9, f10, f11⟩ := idx_facts t
  funext j
  refine (pay_ch2 (Gen.iblk0 Vv c 0 t) (Gen.iblk0 Vv c 1 t) (Gen.iblk0 Vv c 2 t) (Gen.iblk0 Vv c 3 t) (Gen.iblk0 Vv c 4 t)
    (Gen.iblk0 Vv c 5 t) (Gen.iblk0 Vv c 6 t) (Gen.iblk0 Vv c 7 t) j
    (feat P V (dstOf EI ((((cfg0.win 10).blk t).view.emb j) 0)))
    (feat P V (srcOf EI ((((cfg0.win 10).blk t).view.emb j) 0))) ?_ ?_ ?_ ?_ ?_ ?_ ?_ ?_).trans ?_
  · exact in0_apply P V EI c Vv h12 t j _ (by
      show win0_0.index t (0 : Fin 1) * 128000 + (j 0).val = win0_10.index t (0 : Fin 1) * 128000 + 1 * (j 0).val
      rw [f0, f10]; omega)
  · exact in1_apply P V EI c Vv h13 t j _ (by
      show win0_1.index t (0 : Fin 1) * 128000 + (j 0).val = win0_10.index t (0 : Fin 1) * 128000 + 1 * (j 0).val
      rw [f1, f10]; omega)
  · exact in2_apply P V EI c Vv h14 t j _ (by
      show win0_2.index t (0 : Fin 1) * 128000 + (j 0).val = win0_10.index t (0 : Fin 1) * 128000 + 1 * (j 0).val
      rw [f2, f10]; omega)
  · exact in3_apply P V EI c Vv h15 t j _ (by
      show win0_3.index t (0 : Fin 1) * 128000 + (j 0).val = win0_10.index t (0 : Fin 1) * 128000 + 1 * (j 0).val
      rw [f3, f10]; omega)
  · exact in4_apply P V EI c Vv h16 t j _ (by
      show win0_4.index t (0 : Fin 1) * 128000 + (j 0).val = win0_10.index t (0 : Fin 1) * 128000 + 1 * (j 0).val
      rw [f4, f10]; omega)
  · exact in5_apply P V EI c Vv h17 t j _ (by
      show win0_5.index t (0 : Fin 1) * 128000 + (j 0).val = win0_10.index t (0 : Fin 1) * 128000 + 1 * (j 0).val
      rw [f5, f10]; omega)
  · exact in6_apply P V EI c Vv h18 t j _ (by
      show win0_6.index t (0 : Fin 1) * 128000 + (j 0).val = win0_10.index t (0 : Fin 1) * 128000 + 1 * (j 0).val
      rw [f6, f10]; omega)
  · exact in7_apply P V EI c Vv h19 t j _ (by
      show win0_7.index t (0 : Fin 1) * 128000 + (j 0).val = win0_10.index t (0 : Fin 1) * 128000 + 1 * (j 0).val
      rw [f7, f10]; omega)
  · rfl

set_option maxHeartbeats 1000000 in
/-- Channel 3: what a point writes back is its block of the channel's array. -/
theorem flushed11 (t : Fin cfg0.N) :
    (Gen.dat0 Vv c).flushed 11 t
      = ((cfg0.win 11).blk t).view.read (Elt Ideal) (fun e : S6400000.Idx => edgeMsg P V EI 3 (e 0)) := by
  show (cfg0.win 11).cut (grid0.coords t) ((Gen.dat0 Vv c).after 11 t) = _
  rw [Gen.after0_11]
  unfold Gen.out0_11
  rw [View.canon_unit_zero hz1]
  simp only [View.ld_unit_zero (S := S128000) hz1]
  obtain ⟨f0, f1, f2, f3, f4, f5, f6, f7, f8, f9, f10, f11⟩ := idx_facts t
  funext j
  refine (pay_ch3 (Gen.iblk0 Vv c 0 t) (Gen.iblk0 Vv c 1 t) (Gen.iblk0 Vv c 2 t) (Gen.iblk0 Vv c 3 t) (Gen.iblk0 Vv c 4 t)
    (Gen.iblk0 Vv c 5 t) (Gen.iblk0 Vv c 6 t) (Gen.iblk0 Vv c 7 t) j
    (feat P V (dstOf EI ((((cfg0.win 11).blk t).view.emb j) 0)))
    (feat P V (srcOf EI ((((cfg0.win 11).blk t).view.emb j) 0))) ?_ ?_ ?_ ?_ ?_ ?_ ?_ ?_).trans ?_
  · exact in0_apply P V EI c Vv h12 t j _ (by
      show win0_0.index t (0 : Fin 1) * 128000 + (j 0).val = win0_11.index t (0 : Fin 1) * 128000 + 1 * (j 0).val
      rw [f0, f11]; omega)
  · exact in1_apply P V EI c Vv h13 t j _ (by
      show win0_1.index t (0 : Fin 1) * 128000 + (j 0).val = win0_11.index t (0 : Fin 1) * 128000 + 1 * (j 0).val
      rw [f1, f11]; omega)
  · exact in2_apply P V EI c Vv h14 t j _ (by
      show win0_2.index t (0 : Fin 1) * 128000 + (j 0).val = win0_11.index t (0 : Fin 1) * 128000 + 1 * (j 0).val
      rw [f2, f11]; omega)
  · exact in3_apply P V EI c Vv h15 t j _ (by
      show win0_3.index t (0 : Fin 1) * 128000 + (j 0).val = win0_11.index t (0 : Fin 1) * 128000 + 1 * (j 0).val
      rw [f3, f11]; omega)
  · exact in4_apply P V EI c Vv h16 t j _ (by
      show win0_4.index t (0 : Fin 1) * 128000 + (j 0).val = win0_11.index t (0 : Fin 1) * 128000 + 1 * (j 0).val
      rw [f4, f11]; omega)
  · exact in5_apply P V EI c Vv h17 t j _ (by
      show win0_5.index t (0 : Fin 1) * 128000 + (j 0).val = win0_11.index t (0 : Fin 1) * 128000 + 1 * (j 0).val
      rw [f5, f11]; omega)
  · exact in6_apply P V EI c Vv h18 t j _ (by
      show win0_6.index t (0 : Fin 1) * 128000 + (j 0).val = win0_11.index t (0 : Fin 1) * 128000 + 1 * (j 0).val
      rw [f6, f11]; omega)
  · exact in7_apply P V EI c Vv h19 t j _ (by
      show win0_7.index t (0 : Fin 1) * 128000 + (j 0).val = win0_11.index t (0 : Fin 1) * 128000 + 1 * (j 0).val
      rw [f7, f11]; omega)
  · rfl

end Blocks

/-! ### The cover: every edge is in one block -/

/-- An index of array 8 lies in a point's block iff it lies in the block's range. -/
theorem mem_blk8 (t : Fin cfg0.N) (i : S6400000.Idx) :
    i ∈ ((cfg0.win 8).blk t).view.set ↔ ∀ a : Fin 1, win0_8.index t a * S128000.size a ≤ (i a).val
      ∧ (i a).val < win0_8.index t a * S128000.size a + S128000.size a := by
  show i ∈ ((View.whole main_v20_0).slice (win0_8.rect t)).set ↔ _
  rw [View.set_slice_whole, Rect.mem_set_unit]
  exact Iff.rfl

/-- Every edge lies in the block of the point its number divided by the block length names. -/
theorem cover8 (i : S6400000.Idx) :
    ∃ t : Fin cfg0.N, (cfg0.win 8).flush t = true ∧ i ∈ ((cfg0.win 8).blk t).view.set := by
  have hi : (i 0).val < 6400000 := (i 0).isLt
  have ht : (i 0).val / 128000 < cfg0.N := by
    show (i 0).val / 128000 < grid0.N
    rw [N_0]; omega
  refine ⟨⟨(i 0).val / 128000, ht⟩, flush0_8 _, ?_⟩
  rw [mem_blk8]
  intro a
  obtain ⟨f0, f1, f2, f3, f4, f5, f6, f7, f8, f9, f10, f11⟩ := idx_facts ⟨(i 0).val / 128000, ht⟩
  match a with
  | ⟨0, _⟩ =>
    show win0_8.index ⟨(i 0).val / 128000, ht⟩ (0 : Fin 1) * 128000 ≤ (i 0).val
      ∧ (i 0).val < win0_8.index ⟨(i 0).val / 128000, ht⟩ (0 : Fin 1) * 128000 + 128000
    rw [f8]
    show (i 0).val / 128000 * 128000 ≤ (i 0).val ∧ (i 0).val < (i 0).val / 128000 * 128000 + 128000
    omega

/-- An index of array 9 lies in a point's block iff it lies in the block's range. -/
theorem mem_blk9 (t : Fin cfg0.N) (i : S6400000.Idx) :
    i ∈ ((cfg0.win 9).blk t).view.set ↔ ∀ a : Fin 1, win0_9.index t a * S128000.size a ≤ (i a).val
      ∧ (i a).val < win0_9.index t a * S128000.size a + S128000.size a := by
  show i ∈ ((View.whole main_v20_1).slice (win0_9.rect t)).set ↔ _
  rw [View.set_slice_whole, Rect.mem_set_unit]
  exact Iff.rfl

/-- Every edge lies in the block of the point its number divided by the block length names. -/
theorem cover9 (i : S6400000.Idx) :
    ∃ t : Fin cfg0.N, (cfg0.win 9).flush t = true ∧ i ∈ ((cfg0.win 9).blk t).view.set := by
  have hi : (i 0).val < 6400000 := (i 0).isLt
  have ht : (i 0).val / 128000 < cfg0.N := by
    show (i 0).val / 128000 < grid0.N
    rw [N_0]; omega
  refine ⟨⟨(i 0).val / 128000, ht⟩, flush0_9 _, ?_⟩
  rw [mem_blk9]
  intro a
  obtain ⟨f0, f1, f2, f3, f4, f5, f6, f7, f8, f9, f10, f11⟩ := idx_facts ⟨(i 0).val / 128000, ht⟩
  match a with
  | ⟨0, _⟩ =>
    show win0_9.index ⟨(i 0).val / 128000, ht⟩ (0 : Fin 1) * 128000 ≤ (i 0).val
      ∧ (i 0).val < win0_9.index ⟨(i 0).val / 128000, ht⟩ (0 : Fin 1) * 128000 + 128000
    rw [f9]
    show (i 0).val / 128000 * 128000 ≤ (i 0).val ∧ (i 0).val < (i 0).val / 128000 * 128000 + 128000
    omega

/-- An index of array 10 lies in a point's block iff it lies in the block's range. -/
theorem mem_blk10 (t : Fin cfg0.N) (i : S6400000.Idx) :
    i ∈ ((cfg0.win 10).blk t).view.set ↔ ∀ a : Fin 1, win0_10.index t a * S128000.size a ≤ (i a).val
      ∧ (i a).val < win0_10.index t a * S128000.size a + S128000.size a := by
  show i ∈ ((View.whole main_v20_2).slice (win0_10.rect t)).set ↔ _
  rw [View.set_slice_whole, Rect.mem_set_unit]
  exact Iff.rfl

/-- Every edge lies in the block of the point its number divided by the block length names. -/
theorem cover10 (i : S6400000.Idx) :
    ∃ t : Fin cfg0.N, (cfg0.win 10).flush t = true ∧ i ∈ ((cfg0.win 10).blk t).view.set := by
  have hi : (i 0).val < 6400000 := (i 0).isLt
  have ht : (i 0).val / 128000 < cfg0.N := by
    show (i 0).val / 128000 < grid0.N
    rw [N_0]; omega
  refine ⟨⟨(i 0).val / 128000, ht⟩, flush0_10 _, ?_⟩
  rw [mem_blk10]
  intro a
  obtain ⟨f0, f1, f2, f3, f4, f5, f6, f7, f8, f9, f10, f11⟩ := idx_facts ⟨(i 0).val / 128000, ht⟩
  match a with
  | ⟨0, _⟩ =>
    show win0_10.index ⟨(i 0).val / 128000, ht⟩ (0 : Fin 1) * 128000 ≤ (i 0).val
      ∧ (i 0).val < win0_10.index ⟨(i 0).val / 128000, ht⟩ (0 : Fin 1) * 128000 + 128000
    rw [f10]
    show (i 0).val / 128000 * 128000 ≤ (i 0).val ∧ (i 0).val < (i 0).val / 128000 * 128000 + 128000
    omega

/-- An index of array 11 lies in a point's block iff it lies in the block's range. -/
theorem mem_blk11 (t : Fin cfg0.N) (i : S6400000.Idx) :
    i ∈ ((cfg0.win 11).blk t).view.set ↔ ∀ a : Fin 1, win0_11.index t a * S128000.size a ≤ (i a).val
      ∧ (i a).val < win0_11.index t a * S128000.size a + S128000.size a := by
  show i ∈ ((View.whole main_v20_3).slice (win0_11.rect t)).set ↔ _
  rw [View.set_slice_whole, Rect.mem_set_unit]
  exact Iff.rfl

/-- Every edge lies in the block of the point its number divided by the block length names. -/
theorem cover11 (i : S6400000.Idx) :
    ∃ t : Fin cfg0.N, (cfg0.win 11).flush t = true ∧ i ∈ ((cfg0.win 11).blk t).view.set := by
  have hi : (i 0).val < 6400000 := (i 0).isLt
  have ht : (i 0).val / 128000 < cfg0.N := by
    show (i 0).val / 128000 < grid0.N
    rw [N_0]; omega
  refine ⟨⟨(i 0).val / 128000, ht⟩, flush0_11 _, ?_⟩
  rw [mem_blk11]
  intro a
  obtain ⟨f0, f1, f2, f3, f4, f5, f6, f7, f8, f9, f10, f11⟩ := idx_facts ⟨(i 0).val / 128000, ht⟩
  match a with
  | ⟨0, _⟩ =>
    show win0_11.index ⟨(i 0).val / 128000, ht⟩ (0 : Fin 1) * 128000 ≤ (i 0).val
      ∧ (i 0).val < win0_11.index ⟨(i 0).val / 128000, ht⟩ (0 : Fin 1) * 128000 + 128000
    rw [f11]
    show (i 0).val / 128000 * 128000 ≤ (i 0).val ∧ (i 0).val < (i 0).val / 128000 * 128000 + 128000
    omega

/-! ### The four arrays after the kernel -/

section Region
variable (m : (ℓ : Loc nD τ sig) → Buf (Elt Ideal) ℓ) (ρ : Dev nD → PrngReg) (c : Dev nD)

/-- Channel 0 of every edge's message. -/
theorem region0_out0 (hin : InRange (argEI m c)) :
    Gen.V10 m ρ c main_v20_0 = fun e => edgeMsg (argP m c) (argV m c) (argEI m c) 0 (e 0) :=
  (Gen.hF0 m ρ c 8).symm.trans
    ((Gen.dat0 (Gen.V9 m ρ) c).arrAt_eq_of_cover 8 _
      (fun t _ => flushed8 (argP m c) (argV m c) (argEI m c) c (Gen.V9 m ρ) (entry_v12 m ρ c hin) (entry_v13 m ρ c hin)
        (entry_v14 m ρ c hin) (entry_v15 m ρ c hin) (entry_v16 m ρ c hin) (entry_v17 m ρ c hin) (entry_v18 m ρ c hin)
        (entry_v19 m ρ c hin) t) cover8)

/-- Channel 1 of every edge's message. -/
theorem region0_out1 (hin : InRange (argEI m c)) :
    Gen.V10 m ρ c main_v20_1 = fun e => edgeMsg (argP m c) (argV m c) (argEI m c) 1 (e 0) :=
  (Gen.hF0 m ρ c 9).symm.trans
    ((Gen.dat0 (Gen.V9 m ρ) c).arrAt_eq_of_cover 9 _
      (fun t _ => flushed9 (argP m c) (argV m c) (argEI m c) c (Gen.V9 m ρ) (entry_v12 m ρ c hin) (entry_v13 m ρ c hin)
        (entry_v14 m ρ c hin) (entry_v15 m ρ c hin) (entry_v16 m ρ c hin) (entry_v17 m ρ c hin) (entry_v18 m ρ c hin)
        (entry_v19 m ρ c hin) t) cover9)

/-- Channel 2 of every edge's message. -/
theorem region0_out2 (hin : InRange (argEI m c)) :
    Gen.V10 m ρ c main_v20_2 = fun e => edgeMsg (argP m c) (argV m c) (argEI m c) 2 (e 0) :=
  (Gen.hF0 m ρ c 10).symm.trans
    ((Gen.dat0 (Gen.V9 m ρ) c).arrAt_eq_of_cover 10 _
      (fun t _ => flushed10 (argP m c) (argV m c) (argEI m c) c (Gen.V9 m ρ) (entry_v12 m ρ c hin) (entry_v13 m ρ c hin)
        (entry_v14 m ρ c hin) (entry_v15 m ρ c hin) (entry_v16 m ρ c hin) (entry_v17 m ρ c hin) (entry_v18 m ρ c hin)
        (entry_v19 m ρ c hin) t) cover10)

/-- Channel 3 of every edge's message. -/
theorem region0_out3 (hin : InRange (argEI m c)) :
    Gen.V10 m ρ c main_v20_3 = fun e => edgeMsg (argP m c) (argV m c) (argEI m c) 3 (e 0) :=
  (Gen.hF0 m ρ c 11).symm.trans
    ((Gen.dat0 (Gen.V9 m ρ) c).arrAt_eq_of_cover 11 _
      (fun t _ => flushed11 (argP m c) (argV m c) (argEI m c) c (Gen.V9 m ρ) (entry_v12 m ρ c hin) (entry_v13 m ρ c hin)
        (entry_v14 m ρ c hin) (entry_v15 m ρ c hin) (entry_v16 m ρ c hin) (entry_v17 m ρ c hin) (entry_v18 m ρ c hin)
        (entry_v19 m ρ c hin) t) cover11)

end Region

end Cert.KernelIdeal.KVal

end
-- ==== Proof.KMid.lean ====
/-
  The host operations between the two kernel regions, read as mathematics: the five per-node accumulations of the
  per-edge messages (and of ones, the count) along the target words, the maximum of the count with one, the two
  "count positive" comparisons, the two quotients and the two selections. The eight arrays the second kernel
  region takes are the node features, the two summed channels and the two averaged channels of the specification.
-/
import proofs.«423533_j53644141527383_1_alg».proof.Proof.KArgs
import Idealize.ShloMosaic.Lib.StableHlo.Run
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.KVal

open Idealize.ShloMosaic Idealize.ShloMosaic.TcCoe Idealize.SL.Sem Cert.KernelIdeal Cert.KernelIdeal.Gen Cert.Flock
open Idealize.ShloMosaic.ValueIdx

local notation "dK" => scatter_S100000_S6400000x1_S6400000_n_0_0_1

-- the accumulation over the edges is never opened: every fact about it here is a congruence in its arguments
attribute [local irreducible] Ideal.hostScatterAdd

/-! ## Layout operations read at an index -/

/-- Column k of a node-by-2 array, sliced out as a node-by-1 array and flattened, read at node n. -/
theorem col_read {α : Type} (X : SN2.Idx → α) (k : Fin 2) (off : Fin 2 → Nat) (h0 : off 0 = 0) (h1 : off 1 = k.val)
    (hs : SN2.Slices off S100000x1) (hc : S100000x1.ShapeCasts SN) (n : SN.Idx) :
    shapeCast SN (extractStridedSlice S100000x1 off X hs) hc n = X (ix2 (n 0) k) := by
  rw [shapeCast_apply _ hc n (ix2 (n 0) (0 : Fin 1)) (by
    rw [Shape.rowMajor_val_two, Shape.rowMajor_val_one]
    show (n 0).val * 1 + 0 = (n 0).val
    omega)]
  refine extractStridedSlice_apply off X hs _ (ix2 (n 0) k) ?_
  intro a
  match a with
  | ⟨0, _⟩ => show (n 0).val = off 0 + (n 0).val; omega
  | ⟨1, _⟩ => show k.val = off 1 + 0; omega

/-- Row r of the 2-by-edges index array, sliced out and flattened, read at edge e. -/
theorem row_read {α : Type} (X : SEI.Idx → α) (r : Fin 2) (off : Fin 2 → Nat) (h0 : off 0 = r.val) (h1 : off 1 = 0)
    (hs : SEI.Slices off S1x6400000) (hc : S1x6400000.ShapeCasts SE) (e : SE.Idx) :
    shapeCast SE (extractStridedSlice S1x6400000 off X hs) hc e = X (ix2 r (e 0)) := by
  rw [shapeCast_apply _ hc e (ix2 (0 : Fin 1) (e 0)) (by
    rw [Shape.rowMajor_val_two, Shape.rowMajor_val_one]
    show 0 * 6400000 + (e 0).val = (e 0).val
    omega)]
  refine extractStridedSlice_apply off X hs _ (ix2 r (e 0)) ?_
  intro a
  match a with
  | ⟨0, _⟩ => show r.val = off 0 + 0; omega
  | ⟨1, _⟩ => show (e 0).val = off 1 + (e 0).val; omega

/-! ## The accumulating scatter is the specification's per-node accumulation -/

/-- At the extended reals the host's accumulating scatter is the sum-per-landing-index of the model. -/
theorem hostScatterAdd_ideal {s si su : Shape} (d : ScatterDims s si su) {w : Nat} (x : s.Idx → EReal) (idx : IVec si w)
    (upd : su.Idx → EReal) :
    (Host.scatterAdd (F := Ideal) (φ := .f32) d x idx upd : s.Idx → EReal) = Ideal.hostScatterAdd d x idx upd := rfl

/-- The accumulating scatter of a per-edge array into zeros along the target words is the per-node accumulation:
    the zero word denotes zero, the broadcast index column is the target column, and a rank-one index is its
    one coordinate. -/
theorem scatter_agg (ei : IVec SEI 32) (d : ScatterDims SN SE1 SE) (hb0 : S_.BroadcastsInDim SN ![])
    (hb1 : SE.BroadcastsInDim SE1 ![0]) (upd : SE.Idx → EReal) :
    (Host.scatterAdd (F := Ideal) (φ := .f32) d (broadcastInDim SN ![] hb0 (constant (F := Ideal) S_ .f32 0x00000000#32))
        (broadcastInDim SE1 ![0] hb1 (fun e : SE.Idx => ei (ix2 (1 : Fin 2) (e 0)))) upd : SN.Idx → EReal)
      = fun n => agg ei d (fun e => upd (ix1 e)) (n 0) := by
  have hx : (broadcastInDim SN ![] hb0 (constant (F := Ideal) S_ .f32 0x00000000#32) : SN.Idx → EReal) = fun _ => 0 := by
    funext i; exact Ideal.ofBits_zero_f32
  have hi : (broadcastInDim SE1 ![0] hb1 (fun e : SE.Idx => ei (ix2 (1 : Fin 2) (e 0))) : IVec SE1 32) = dstCol ei := by
    funext j
    exact broadcastInDim_apply ![0] hb1 _ j (ix1 (j 0)) (fun a => by
      match a with
      | ⟨0, _⟩ => rfl)
  have hu : (fun j : SE.Idx => upd (ix1 (j 0))) = upd := funext fun j => congrArg upd (eq_ix1 j).symm
  rw [hostScatterAdd_ideal, hx, hi]
  funext n
  obtain ⟨k, rfl⟩ : ∃ k, n = ix1 k := ⟨n 0, eq_ix1 n⟩
  show _ = Ideal.hostScatterAdd d (fun _ => 0) (dstCol ei) (fun j => upd (ix1 (j 0))) (ix1 k)
  rw [hu]

/-- A broadcast constant read at an index is the literal. -/
theorem bconstE_read (hb : S_.BroadcastsInDim SE ![]) (b : BitVec 32) (j : SE.Idx) :
    (broadcastInDim SE ![] hb (constant (F := Ideal) S_ .f32 b) : SE.Idx → EReal) j = lit b := rfl

theorem bconstN_read (hb : S_.BroadcastsInDim SN ![]) (b : BitVec 32) (j : SN.Idx) :
    (broadcastInDim SN ![] hb (constant (F := Ideal) S_ .f32 b) : SN.Idx → EReal) j = lit b := rfl

/-- The accumulating scatter of ones is the count. -/
theorem scatter_cnt (ei : IVec SEI 32) (d : ScatterDims SN SE1 SE) (hb0 : S_.BroadcastsInDim SN ![])
    (hb1 : SE.BroadcastsInDim SE1 ![0]) (hb2 : S_.BroadcastsInDim SE ![]) :
    (Host.scatterAdd (F := Ideal) (φ := .f32) d (broadcastInDim SN ![] hb0 (constant (F := Ideal) S_ .f32 0x00000000#32))
        (broadcastInDim SE1 ![0] hb1 (fun e : SE.Idx => ei (ix2 (1 : Fin 2) (e 0))))
        (broadcastInDim SE ![] hb2 (constant (F := Ideal) S_ .f32 0x3F800000#32)) : SN.Idx → EReal)
      = fun n => cnt ei d (n 0) := by
  rw [scatter_agg ei d hb0 hb1]
  have e1 : (fun e : Fin 6400000 => (broadcastInDim SE ![] hb2 (constant (F := Ideal) S_ .f32 0x3F800000#32) : SE.Idx → EReal) (ix1 e))
      = fun _ => lit 0x3F800000#32 := funext fun e => bconstE_read hb2 _ (ix1 e)
  rw [e1]
  rfl

/-! ## Elementwise operations against a broadcast constant, as functions of the index -/

theorem max_bconst (a : SN.Idx → EReal) (hb : S_.BroadcastsInDim SN ![]) (b : BitVec 32) :
    (maximumf (F := Ideal) (φ := .f32) a (broadcastInDim SN ![] hb (constant (F := Ideal) S_ .f32 b)) : SN.Idx → EReal)
      = fun n => max (a n) (lit b) := rfl

theorem ogt_bconst (a : SN.Idx → EReal) (hb : S_.BroadcastsInDim SN ![]) (b : BitVec 32) :
    (cmpf (F := Ideal) (φ := .f32) .ogt a (broadcastInDim SN ![] hb (constant (F := Ideal) S_ .f32 b)) : IVec SN 1)
      = fun n => Ideal.cmp .ogt (a n) (lit b) := rfl

theorem div_vec (a b : SN.Idx → EReal) :
    (Host.divf (F := Ideal) (φ := .f32) a b : SN.Idx → EReal) = fun n => Ideal.div (a n) (b n) := rfl

theorem sel_bcast (p : IVec SN 1) (a : SN.Idx → EReal) (hb : S_.BroadcastsInDim SN ![]) (z : EReal) :
    (select p a (broadcastInDim SN ![] hb (fun _ : S_.Idx => z)) : SN.Idx → EReal)
      = fun n => Scalar.select (p n) (a n) z := rfl

/-! ## The stretches of host operations, from any contents W -/

section Steps
variable (W : Valuation τ sig (Elt Ideal))

section First
variable (ei : IVec SEI 32)
  (h3 : @Eq (IVec SE 32) (W (Proc.devRef .tc main_v3)) (fun e => ei (ix2 (1 : Fin 2) (e 0))))
include h3

/-- A summed channel: the accumulation of the first region's per-edge output u. -/
theorem step11_v23 (u : Fin 6400000 → EReal) (hu : @Eq (SE.Idx → EReal) (W (Proc.devRef .tc main_v20_0)) (fun e => u (e 0))) :
    (StableHlo.after hostOps1 W (Proc.devRef .tc main_v23) : SN.Idx → EReal) = fun n => agg ei dK u (n 0) := by
  after_results
  rw [h3, hu]
  exact scatter_agg ei dK _ _ _

theorem step11_v26 (u : Fin 6400000 → EReal) (hu : @Eq (SE.Idx → EReal) (W (Proc.devRef .tc main_v20_1)) (fun e => u (e 0))) :
    (StableHlo.after hostOps1 W (Proc.devRef .tc main_v26) : SN.Idx → EReal) = fun n => agg ei dK u (n 0) := by
  after_results
  rw [h3, hu]
  exact scatter_agg ei dK _ _ _

theorem step11_v29 (u : Fin 6400000 → EReal) (hu : @Eq (SE.Idx → EReal) (W (Proc.devRef .tc main_v20_2)) (fun e => u (e 0))) :
    (StableHlo.after hostOps1 W (Proc.devRef .tc main_v29) : SN.Idx → EReal) = fun n => agg ei dK u (n 0) := by
  after_results
  rw [h3, hu]
  exact scatter_agg ei dK _ _ _

theorem step11_v32 (u : Fin 6400000 → EReal) (hu : @Eq (SE.Idx → EReal) (W (Proc.devRef .tc main_v20_3)) (fun e => u (e 0))) :
    (StableHlo.after hostOps1 W (Proc.devRef .tc main_v32) : SN.Idx → EReal) = fun n => agg ei dK u (n 0) := by
  after_results
  rw [h3, hu]
  exact scatter_agg ei dK _ _ _

/-- The count: the accumulation of ones. -/
theorem step11_v36 :
    (StableHlo.after hostOps1 W (Proc.devRef .tc main_v36) : SN.Idx → EReal) = fun n => cnt ei dK (n 0) := by
  after_results
  rw [h3]
  exact scatter_cnt ei dK _ _ _

/-- The count's maximum with one. -/
theorem step11_v38 :
    (StableHlo.after hostOps1 W (Proc.devRef .tc main_v38) : SN.Idx → EReal)
      = fun n => max (cnt ei dK (n 0)) (lit 0x3F800000#32) := by
  after_results_simp
  rw [h3, scatter_cnt ei dK, max_bconst]
  rfl

/-- "The count is positive". -/
theorem step11_v40 :
    (StableHlo.after hostOps1 W (Proc.devRef .tc main_v40) : IVec SN 1)
      = fun n => Ideal.cmp .ogt (cnt ei dK (n 0)) (lit 0x00000000#32) := by
  after_results_simp
  rw [h3, scatter_cnt ei dK, ogt_bconst]
  rfl

/-- The first quotient: the summed channel over the count's maximum with one. -/
theorem step11_v41 (u : Fin 6400000 → EReal) (hu : @Eq (SE.Idx → EReal) (W (Proc.devRef .tc main_v20_0)) (fun e => u (e 0))) :
    (StableHlo.after hostOps1 W (Proc.devRef .tc main_v41) : SN.Idx → EReal)
      = fun n => Ideal.div (agg ei dK u (n 0)) (max (cnt ei dK (n 0)) (lit 0x3F800000#32)) := by
  after_results_simp
  rw [h3, hu, scatter_cnt ei dK, scatter_agg ei dK, max_bconst, div_vec]
  rfl

end First

theorem step11_cst7 :
    (StableHlo.after hostOps1 W (Proc.devRef .tc main_cst_7) : S_.Idx → EReal) = fun _ => lit 0x00000000#32 := by
  after_results
  rfl

/-- A selection of the second stretch (and of the fourth): where b is one the quotient, else the constant. -/
theorem step12 (b : Fin 100000 → BitVec 1) (q : Fin 100000 → EReal) (z : EReal)
    (h40 : @Eq (IVec SN 1) (W (Proc.devRef .tc main_v40)) (fun n => b (n 0)))
    (h41 : @Eq (SN.Idx → EReal) (W (Proc.devRef .tc main_v41)) (fun n => q (n 0)))
    (h7 : @Eq (S_.Idx → EReal) (W (Proc.devRef .tc main_cst_7)) (fun _ => z)) :
    (StableHlo.after hostOps1_1 W (Proc.devRef .tc main_v42) : SN.Idx → EReal)
      = fun n => Scalar.select (b (n 0)) (q (n 0)) z := by
  have e : (StableHlo.after hostOps1_1 W (Proc.devRef .tc main_v42) : SN.Idx → EReal)
      = select (W (Proc.devRef .tc main_v40) : IVec SN 1) (W (Proc.devRef .tc main_v41) : SN.Idx → EReal)
          (broadcastInDim S100000 ![] bcast_S_S100000 (W (Proc.devRef .tc main_cst_7) : S_.Idx → EReal)) := by
    after_results
    rfl
  rw [e, h40, h41, h7, sel_bcast]
  rfl

theorem step13_v44 (cn : Fin 100000 → EReal) (h36 : @Eq (SN.Idx → EReal) (W (Proc.devRef .tc main_v36)) (fun n => cn (n 0))) :
    (StableHlo.after hostOps1_2 W (Proc.devRef .tc main_v44) : IVec SN 1)
      = fun n => Ideal.cmp .ogt (cn (n 0)) (lit 0x00000000#32) := by
  after_results
  rw [h36, ogt_bconst]
  rfl

theorem step13_v45 (sm mx : Fin 100000 → EReal) (h26 : @Eq (SN.Idx → EReal) (W (Proc.devRef .tc main_v26)) (fun n => sm (n 0)))
    (h38 : @Eq (SN.Idx → EReal) (W (Proc.devRef .tc main_v38)) (fun n => mx (n 0))) :
    (StableHlo.after hostOps1_2 W (Proc.devRef .tc main_v45) : SN.Idx → EReal)
      = fun n => Ideal.div (sm (n 0)) (mx (n 0)) := by
  after_results
  rw [h26, h38, div_vec]
  rfl

theorem step13_cst9 :
    (StableHlo.after hostOps1_2 W (Proc.devRef .tc main_cst_9) : S_.Idx → EReal) = fun _ => lit 0x00000000#32 := by
  after_results
  rfl

theorem step14 (b : Fin 100000 → BitVec 1) (q : Fin 100000 → EReal) (z : EReal)
    (h44 : @Eq (IVec SN 1) (W (Proc.devRef .tc main_v44)) (fun n => b (n 0)))
    (h45 : @Eq (SN.Idx → EReal) (W (Proc.devRef .tc main_v45)) (fun n => q (n 0)))
    (h9 : @Eq (S_.Idx → EReal) (W (Proc.devRef .tc main_cst_9)) (fun _ => z)) :
    (StableHlo.after hostOps1_3 W (Proc.devRef .tc main_v46) : SN.Idx → EReal)
      = fun n => Scalar.select (b (n 0)) (q (n 0)) z := by
  have e : (StableHlo.after hostOps1_3 W (Proc.devRef .tc main_v46) : SN.Idx → EReal)
      = select (W (Proc.devRef .tc main_v44) : IVec SN 1) (W (Proc.devRef .tc main_v45) : SN.Idx → EReal)
          (broadcastInDim S100000 ![] bcast_S_S100000 (W (Proc.devRef .tc main_cst_9) : S_.Idx → EReal)) := by
    after_results
    rfl
  rw [e, h44, h45, h9, sel_bcast]
  rfl

end Steps

/-! ## Through the run: from the launch to the second region's entry -/

/-- A buffer none of a stretch's operations writes holds after the stretch what it held before. -/
syntax "skip_ops " ident : tactic
macro_rules
  | `(tactic| skip_ops $h:ident) => `(tactic|
      refine (StableHlo.after_of_forall_not_mem _ _ (List.forall_iff_forall_mem.mp (by
        simp only [$h:ident, List.Forall, StableHlo.nullary_writes, StableHlo.unary_writes, StableHlo.binary_writes,
          StableHlo.ternary_writes, StableHlo.reshape_writes, Finset.mem_singleton]
        repeat' apply And.intro
        all_goals exact StableHlo.devRef_ne_of_ne (by decide)))).trans ?_)

variable (m : (ℓ : Loc nD τ sig) → Buf (Elt Ideal) ℓ) (ρ : Dev nD → PrngReg) (c : Dev nD)

/-! ### The first stretch: the arguments' rows and columns -/

theorem w1_v3 : Gen.W1 m ρ c (Proc.devRef .tc main_v3) = fun e => argEI m c (ix2 (1 : Fin 2) (e 0)) := by
  dsimp only [Gen.W1]
  after_results
  funext e
  exact row_read (argEI m c) 1 ![1, 0] rfl rfl _ _ e

theorem w1_v5 : Gen.W1 m ρ c (Proc.devRef .tc main_v5) = fun n => feat (argP m c) (argV m c) (n 0) 0 := by
  dsimp only [Gen.W1]
  after_results
  funext n
  exact col_read (argP m c) 0 ![0, 0] rfl rfl _ _ n

theorem w1_v7 : Gen.W1 m ρ c (Proc.devRef .tc main_v7) = fun n => feat (argP m c) (argV m c) (n 0) 1 := by
  dsimp only [Gen.W1]
  after_results
  funext n
  exact col_read (argP m c) 1 ![0, 1] rfl rfl _ _ n

theorem w1_v9 : Gen.W1 m ρ c (Proc.devRef .tc main_v9) = fun n => feat (argP m c) (argV m c) (n 0) 2 := by
  dsimp only [Gen.W1]
  after_results
  funext n
  exact col_read (argV m c) 0 ![0, 0] rfl rfl _ _ n

theorem w1_v11 : Gen.W1 m ρ c (Proc.devRef .tc main_v11) = fun n => feat (argP m c) (argV m c) (n 0) 3 := by
  dsimp only [Gen.W1]
  after_results
  funext n
  exact col_read (argV m c) 1 ![0, 1] rfl rfl _ _ n

/-! ### The eight index-take stretches and the first region write none of these five -/

theorem w10_v3 : Gen.W10 m ρ c (Proc.devRef .tc main_v3) = fun e => argEI m c (ix2 (1 : Fin 2) (e 0)) := by
  rw [Gen.W10_of_ne m ρ c main_v3 (by decide)]
  skip_ops hostOps0_8
  skip_ops hostOps0_7
  skip_ops hostOps0_6
  skip_ops hostOps0_5
  skip_ops hostOps0_4
  skip_ops hostOps0_3
  skip_ops hostOps0_2
  skip_ops hostOps0_1
  exact w1_v3 m ρ c

theorem w10_v5 : Gen.W10 m ρ c (Proc.devRef .tc main_v5) = fun n => feat (argP m c) (argV m c) (n 0) 0 := by
  rw [Gen.W10_of_ne m ρ c main_v5 (by decide)]
  skip_ops hostOps0_8
  skip_ops hostOps0_7
  skip_ops hostOps0_6
  skip_ops hostOps0_5
  skip_ops hostOps0_4
  skip_ops hostOps0_3
  skip_ops hostOps0_2
  skip_ops hostOps0_1
  exact w1_v5 m ρ c

theorem w10_v7 : Gen.W10 m ρ c (Proc.devRef .tc main_v7) = fun n => feat (argP m c) (argV m c) (n 0) 1 := by
  rw [Gen.W10_of_ne m ρ c main_v7 (by decide)]
  skip_ops hostOps0_8
  skip_ops hostOps0_7
  skip_ops hostOps0_6
  skip_ops hostOps0_5
  skip_ops hostOps0_4
  skip_ops hostOps0_3
  skip_ops hostOps0_2
  skip_ops hostOps0_1
  exact w1_v7 m ρ c

theorem w10_v9 : Gen.W10 m ρ c (Proc.devRef .tc main_v9) = fun n => feat (argP m c) (argV m c) (n 0) 2 := by
  rw [Gen.W10_of_ne m ρ c main_v9 (by decide)]
  skip_ops hostOps0_8
  skip_ops hostOps0_7
  skip_ops hostOps0_6
  skip_ops hostOps0_5
  skip_ops hostOps0_4
  skip_ops hostOps0_3
  skip_ops hostOps0_2
  skip_ops hostOps0_1
  exact w1_v9 m ρ c

theorem w10_v11 : Gen.W10 m ρ c (Proc.devRef .tc main_v11) = fun n => feat (argP m c) (argV m c) (n 0) 3 := by
  rw [Gen.W10_of_ne m ρ c main_v11 (by decide)]
  skip_ops hostOps0_8
  skip_ops hostOps0_7
  skip_ops hostOps0_6
  skip_ops hostOps0_5
  skip_ops hostOps0_4
  skip_ops hostOps0_3
  skip_ops hostOps0_2
  skip_ops hostOps0_1
  exact w1_v11 m ρ c

/-! ### The second region's eight operand arrays -/

theorem mid_v5 : Gen.V14 m ρ c main_v5 = fun n => feat (argP m c) (argV m c) (n 0) 0 := by
  show Gen.W14 m ρ c (Proc.devRef .tc main_v5) = _
  skip_ops hostOps1_3
  skip_ops hostOps1_2
  skip_ops hostOps1_1
  skip_ops hostOps1
  exact w10_v5 m ρ c

theorem mid_v7 : Gen.V14 m ρ c main_v7 = fun n => feat (argP m c) (argV m c) (n 0) 1 := by
  show Gen.W14 m ρ c (Proc.devRef .tc main_v7) = _
  skip_ops hostOps1_3
  skip_ops hostOps1_2
  skip_ops hostOps1_1
  skip_ops hostOps1
  exact w10_v7 m ρ c

theorem mid_v9 : Gen.V14 m ρ c main_v9 = fun n => feat (argP m c) (argV m c) (n 0) 2 := by
  show Gen.W14 m ρ c (Proc.devRef .tc main_v9) = _
  skip_ops hostOps1_3
  skip_ops hostOps1_2
  skip_ops hostOps1_1
  skip_ops hostOps1
  exact w10_v9 m ρ c

theorem mid_v11 : Gen.V14 m ρ c main_v11 = fun n => feat (argP m c) (argV m c) (n 0) 3 := by
  show Gen.W14 m ρ c (Proc.devRef .tc main_v11) = _
  skip_ops hostOps1_3
  skip_ops hostOps1_2
  skip_ops hostOps1_1
  skip_ops hostOps1
  exact w10_v11 m ρ c

section Sums
variable
  (h0 : Gen.V10 m ρ c main_v20_0 = fun e => edgeMsg (argP m c) (argV m c) (argEI m c) 0 (e 0))
  (h1 : Gen.V10 m ρ c main_v20_1 = fun e => edgeMsg (argP m c) (argV m c) (argEI m c) 1 (e 0))
  (h2 : Gen.V10 m ρ c main_v20_2 = fun e => edgeMsg (argP m c) (argV m c) (argEI m c) 2 (e 0))
  (h3 : Gen.V10 m ρ c main_v20_3 = fun e => edgeMsg (argP m c) (argV m c) (argEI m c) 3 (e 0))

include h2 in
theorem mid_v29 : Gen.V14 m ρ c main_v29 = fun n => sumK (argP m c) (argV m c) (argEI m c) dK 2 (n 0) := by
  show Gen.W14 m ρ c (Proc.devRef .tc main_v29) = _
  skip_ops hostOps1_3
  skip_ops hostOps1_2
  skip_ops hostOps1_1
  exact step11_v29 (Gen.W10 m ρ c) (argEI m c) (w10_v3 m ρ c) (edgeMsg (argP m c) (argV m c) (argEI m c) 2) h2

include h3 in
theorem mid_v32 : Gen.V14 m ρ c main_v32 = fun n => sumK (argP m c) (argV m c) (argEI m c) dK 3 (n 0) := by
  show Gen.W14 m ρ c (Proc.devRef .tc main_v32) = _
  skip_ops hostOps1_3
  skip_ops hostOps1_2
  skip_ops hostOps1_1
  exact step11_v32 (Gen.W10 m ρ c) (argEI m c) (w10_v3 m ρ c) (edgeMsg (argP m c) (argV m c) (argEI m c) 3) h3

include h0 in
theorem mid_v42 : Gen.V14 m ρ c main_v42 = fun n => meanK (argP m c) (argV m c) (argEI m c) dK 0 (n 0) := by
  show Gen.W14 m ρ c (Proc.devRef .tc main_v42) = _
  skip_ops hostOps1_3
  skip_ops hostOps1_2
  exact step12 (Gen.W11 m ρ c)
    (fun k => Ideal.cmp .ogt (cnt (argEI m c) dK k) (lit 0x00000000#32))
    (fun k => Ideal.div (sumK (argP m c) (argV m c) (argEI m c) dK 0 k) (max (cnt (argEI m c) dK k) (lit 0x3F800000#32)))
    (lit 0x00000000#32)
    (step11_v40 (Gen.W10 m ρ c) (argEI m c) (w10_v3 m ρ c))
    (step11_v41 (Gen.W10 m ρ c) (argEI m c) (w10_v3 m ρ c) (edgeMsg (argP m c) (argV m c) (argEI m c) 0) h0)
    (step11_cst7 (Gen.W10 m ρ c))

/-- The count, the second summed channel and the count's maximum with one, after the first selection's stretch
    (which writes none of them). -/
theorem w12_v36 : Gen.W12 m ρ c (Proc.devRef .tc main_v36) = fun n => cnt (argEI m c) dK (n 0) := by
  skip_ops hostOps1_1
  exact step11_v36 (Gen.W10 m ρ c) (argEI m c) (w10_v3 m ρ c)

theorem w12_v38 : Gen.W12 m ρ c (Proc.devRef .tc main_v38)
    = fun n => max (cnt (argEI m c) dK (n 0)) (lit 0x3F800000#32) := by
  skip_ops hostOps1_1
  exact step11_v38 (Gen.W10 m ρ c) (argEI m c) (w10_v3 m ρ c)

include h1 in
theorem w12_v26 : Gen.W12 m ρ c (Proc.devRef .tc main_v26)
    = fun n => sumK (argP m c) (argV m c) (argEI m c) dK 1 (n 0) := by
  skip_ops hostOps1_1
  exact step11_v26 (Gen.W10 m ρ c) (argEI m c) (w10_v3 m ρ c) (edgeMsg (argP m c) (argV m c) (argEI m c) 1) h1

include h1 in
theorem mid_v46 : Gen.V14 m ρ c main_v46 = fun n => meanK (argP m c) (argV m c) (argEI m c) dK 1 (n 0) := by
  show Gen.W14 m ρ c (Proc.devRef .tc main_v46) = _
  exact step14 (Gen.W13 m ρ c)
    (fun k => Ideal.cmp .ogt (cnt (argEI m c) dK k) (lit 0x00000000#32))
    (fun k => Ideal.div (sumK (argP m c) (argV m c) (argEI m c) dK 1 k) (max (cnt (argEI m c) dK k) (lit 0x3F800000#32)))
    (lit 0x00000000#32)
    (step13_v44 (Gen.W12 m ρ c) (cnt (argEI m c) dK) (w12_v36 m ρ c))
    (step13_v45 (Gen.W12 m ρ c) (sumK (argP m c) (argV m c) (argEI m c) dK 1)
      (fun k => max (cnt (argEI m c) dK k) (lit 0x3F800000#32)) (w12_v26 m ρ c h1) (w12_v38 m ρ c))
    (step13_cst9 (Gen.W12 m ρ c))

end Sums

end Cert.KernelIdeal.KVal

end
-- ==== Proof.KTail.lean ====
/-
  The kernel program's last part: the per-node update and the closing host operations.

  The update region has a single grid point, and each of its ten windows is the whole node column, so every input
  block is the operand column itself and the one write-back of each output covers its array. Entry by entry the two
  stored payloads are the two update polynomials of Spec.lean (the same operations in the same association, the same
  literal words), evaluated at the node's entries of the seven operand columns the update reads (of the eight operand
  columns the fifth is not read). The host then lays the two result columns side by side, so that the returned
  node-by-2 array holds output k of node n at (n, k).
-/
import proofs.«423533_j53644141527383_1_alg».proof.Proof.KArgs
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.KVal

open Idealize.ShloMosaic Idealize.ShloMosaic.TcCoe Idealize.SL.Sem Cert.KernelIdeal Cert.KernelIdeal.Gen Cert.Flock
open Idealize.ShloMosaic.ValueIdx
open Idealize.ShloMosaic.Pipeline (Dat)

variable (m : (ℓ : Loc nD τ sig) → Buf (Elt Ideal) ℓ) (ρ : Dev nD → PrngReg) (c : Dev nD)

/-- Output k of the node update at node n, from the node's entries of the eight operand columns Y (column 4 is not
    used). -/
def updOf (Y : Fin 8 → Fin 100000 → EReal) (n : Fin 100000) (k : Fin 2) : EReal :=
  match k with
  | ⟨0, _⟩ => pred0 (Y 0 n) (Y 1 n) (Y 2 n) (Y 3 n) (Y 5 n) (Y 6 n) (Y 7 n)
  | ⟨1, _⟩ => pred1 (Y 0 n) (Y 1 n) (Y 2 n) (Y 3 n) (Y 5 n) (Y 6 n) (Y 7 n)

/-! ## The update's arithmetic, entry by entry -/

/-- Output 0 of the node update at a node: the first update polynomial of that node's seven scalars. -/
theorem pay_out0 (x0 x1 x2 x3 x5 x6 x7 : Vec Ideal S100000 .f32) (n : S100000.Idx) :
    Gen.k1_pay1 (Gen.k1_pay7 x0 x5 x6 x7) (Gen.k1_pay8 x1 x6 x7) (Gen.k1_pay10 x1 x2 x3 x6 x7) n
      = pred0 (x0 n) (x1 n) (x2 n) (x3 n) (x5 n) (x6 n) (x7 n) := by
  unfold Gen.k1_pay1 Gen.k1_pay7 Gen.k1_pay8 Gen.k1_pay10 Gen.k1_pay6 Gen.k1_pay9 Gen.k1_pay3 Gen.k1_pay4 Gen.k1_pay5
  simp only [shapeCast_self]
  rfl

/-- Output 1 of the node update at a node: the second update polynomial of that node's seven scalars. -/
theorem pay_out1 (x0 x1 x2 x3 x5 x6 x7 : Vec Ideal S100000 .f32) (n : S100000.Idx) :
    Gen.k1_pay2 (Gen.k1_pay6 x1 x7) (Gen.k1_pay7 x0 x5 x6 x7) (Gen.k1_pay8 x1 x6 x7) (Gen.k1_pay9 x2 x3 x6 x7) n
      = pred1 (x0 n) (x1 n) (x2 n) (x3 n) (x5 n) (x6 n) (x7 n) := by
  unfold Gen.k1_pay2 Gen.k1_pay7 Gen.k1_pay8 Gen.k1_pay6 Gen.k1_pay9 Gen.k1_pay3 Gen.k1_pay4 Gen.k1_pay5
  simp only [shapeCast_self]
  rfl

/-- The two per-node outputs as whole columns. -/
def updCol0 (Y : Fin 8 → Fin 100000 → EReal) : S100000.Idx → EReal := fun n => updOf Y (n 0) 0
def updCol1 (Y : Fin 8 → Fin 100000 → EReal) : S100000.Idx → EReal := fun n => updOf Y (n 0) 1

theorem hzUpd : (![0] : Fin 1 → Nat) = fun _ => 0 := funext fun a => by fin_cases a; rfl

/-- With the eight operand columns given by Y, the stored payloads are the two output columns. -/
theorem out8_eq (Y : Fin 8 → Fin 100000 → EReal) (x0 x1 x2 x3 x4 x5 x6 x7 : Vec Ideal S100000 .f32)
    (h0 : x0 = fun n => Y 0 (n 0)) (h1 : x1 = fun n => Y 1 (n 0)) (h2 : x2 = fun n => Y 2 (n 0)) (h3 : x3 = fun n => Y 3 (n 0))
    (h5 : x5 = fun n => Y 5 (n 0)) (h6 : x6 = fun n => Y 6 (n 0)) (h7 : x7 = fun n => Y 7 (n 0)) :
    Gen.out1_8 x0 x1 x2 x3 x4 x5 x6 x7 = updCol0 Y := by
  unfold Gen.out1_8
  rw [View.canon_unit_zero hzUpd]
  simp only [View.ld_unit_zero (S := S100000) hzUpd]
  funext n
  refine (pay_out0 x0 x1 x2 x3 x5 x6 x7 n).trans ?_
  subst h0 h1 h2 h3 h5 h6 h7
  rfl

theorem out9_eq (Y : Fin 8 → Fin 100000 → EReal) (x0 x1 x2 x3 x4 x5 x6 x7 : Vec Ideal S100000 .f32)
    (h0 : x0 = fun n => Y 0 (n 0)) (h1 : x1 = fun n => Y 1 (n 0)) (h2 : x2 = fun n => Y 2 (n 0)) (h3 : x3 = fun n => Y 3 (n 0))
    (h5 : x5 = fun n => Y 5 (n 0)) (h6 : x6 = fun n => Y 6 (n 0)) (h7 : x7 = fun n => Y 7 (n 0)) :
    Gen.out1_9 x0 x1 x2 x3 x4 x5 x6 x7 = updCol1 Y := by
  unfold Gen.out1_9
  rw [View.canon_unit_zero hzUpd]
  simp only [View.ld_unit_zero (S := S100000) hzUpd]
  funext n
  refine (pay_out1 x0 x1 x2 x3 x5 x6 x7 n).trans ?_
  subst h0 h1 h2 h3 h5 h6 h7
  rfl

/-! ## The one grid point: every window's block is its whole array -/

/-- The block offsets of the update region's windows vanish at the one point. -/
theorem off0 (t : Fin cfg1.N) : (fun a => win1_0.index t a * main_v5.ty.shape.size a) = fun _ => 0 := funext fun a => by
  fin_cases a
  show win1_0.index t 0 * _ = 0
  rw [show win1_0.index t 0 = 0 from rfl, Nat.zero_mul]
theorem off1 (t : Fin cfg1.N) : (fun a => win1_1.index t a * main_v7.ty.shape.size a) = fun _ => 0 := funext fun a => by
  fin_cases a
  show win1_1.index t 0 * _ = 0
  rw [show win1_1.index t 0 = 0 from rfl, Nat.zero_mul]
theorem off2 (t : Fin cfg1.N) : (fun a => win1_2.index t a * main_v9.ty.shape.size a) = fun _ => 0 := funext fun a => by
  fin_cases a
  show win1_2.index t 0 * _ = 0
  rw [show win1_2.index t 0 = 0 from rfl, Nat.zero_mul]
theorem off3 (t : Fin cfg1.N) : (fun a => win1_3.index t a * main_v11.ty.shape.size a) = fun _ => 0 := funext fun a => by
  fin_cases a
  show win1_3.index t 0 * _ = 0
  rw [show win1_3.index t 0 = 0 from rfl, Nat.zero_mul]
theorem off5 (t : Fin cfg1.N) : (fun a => win1_5.index t a * main_v32.ty.shape.size a) = fun _ => 0 := funext fun a => by
  fin_cases a
  show win1_5.index t 0 * _ = 0
  rw [show win1_5.index t 0 = 0 from rfl, Nat.zero_mul]
theorem off6 (t : Fin cfg1.N) : (fun a => win1_6.index t a * main_v42.ty.shape.size a) = fun _ => 0 := funext fun a => by
  fin_cases a
  show win1_6.index t 0 * _ = 0
  rw [show win1_6.index t 0 = 0 from rfl, Nat.zero_mul]
theorem off7 (t : Fin cfg1.N) : (fun a => win1_7.index t a * main_v46.ty.shape.size a) = fun _ => 0 := funext fun a => by
  fin_cases a
  show win1_7.index t 0 * _ = 0
  rw [show win1_7.index t 0 = 0 from rfl, Nat.zero_mul]
theorem off8 (t : Fin cfg1.N) : (fun a => win1_8.index t a * main_v47_0.ty.shape.size a) = fun _ => 0 := funext fun a => by
  fin_cases a
  show win1_8.index t 0 * _ = 0
  rw [show win1_8.index t 0 = 0 from rfl, Nat.zero_mul]
theorem off9 (t : Fin cfg1.N) : (fun a => win1_9.index t a * main_v47_1.ty.shape.size a) = fun _ => 0 := funext fun a => by
  fin_cases a
  show win1_9.index t 0 * _ = 0
  rw [show win1_9.index t 0 = 0 from rfl, Nat.zero_mul]

/-- Each input block the update reads is the operand column itself. -/
theorem iblk_0 (t : Fin cfg1.N) : (Gen.iblk1 (Gen.V14 m ρ) c 0 t : Vec Ideal S100000 .f32) = Gen.V14 m ρ c main_v5 :=
  Memref.read_access_unit_zero (Elt Ideal) main_v5 (off0 t) (fun a => by rw [congrFun (off0 t) a]; simp) (Gen.V14 m ρ c main_v5)
theorem iblk_1 (t : Fin cfg1.N) : (Gen.iblk1 (Gen.V14 m ρ) c 1 t : Vec Ideal S100000 .f32) = Gen.V14 m ρ c main_v7 :=
  Memref.read_access_unit_zero (Elt Ideal) main_v7 (off1 t) (fun a => by rw [congrFun (off1 t) a]; simp) (Gen.V14 m ρ c main_v7)
theorem iblk_2 (t : Fin cfg1.N) : (Gen.iblk1 (Gen.V14 m ρ) c 2 t : Vec Ideal S100000 .f32) = Gen.V14 m ρ c main_v9 :=
  Memref.read_access_unit_zero (Elt Ideal) main_v9 (off2 t) (fun a => by rw [congrFun (off2 t) a]; simp) (Gen.V14 m ρ c main_v9)
theorem iblk_3 (t : Fin cfg1.N) : (Gen.iblk1 (Gen.V14 m ρ) c 3 t : Vec Ideal S100000 .f32) = Gen.V14 m ρ c main_v11 :=
  Memref.read_access_unit_zero (Elt Ideal) main_v11 (off3 t) (fun a => by rw [congrFun (off3 t) a]; simp) (Gen.V14 m ρ c main_v11)
theorem iblk_5 (t : Fin cfg1.N) : (Gen.iblk1 (Gen.V14 m ρ) c 5 t : Vec Ideal S100000 .f32) = Gen.V14 m ρ c main_v32 :=
  Memref.read_access_unit_zero (Elt Ideal) main_v32 (off5 t) (fun a => by rw [congrFun (off5 t) a]; simp) (Gen.V14 m ρ c main_v32)
theorem iblk_6 (t : Fin cfg1.N) : (Gen.iblk1 (Gen.V14 m ρ) c 6 t : Vec Ideal S100000 .f32) = Gen.V14 m ρ c main_v42 :=
  Memref.read_access_unit_zero (Elt Ideal) main_v42 (off6 t) (fun a => by rw [congrFun (off6 t) a]; simp) (Gen.V14 m ρ c main_v42)
theorem iblk_7 (t : Fin cfg1.N) : (Gen.iblk1 (Gen.V14 m ρ) c 7 t : Vec Ideal S100000 .f32) = Gen.V14 m ρ c main_v46 :=
  Memref.read_access_unit_zero (Elt Ideal) main_v46 (off7 t) (fun a => by rw [congrFun (off7 t) a]; simp) (Gen.V14 m ρ c main_v46)

/-! ## What the one point writes back, and the two result columns after the region -/

/-- The one point writes back output column 0 whole. -/
theorem updFlushed8 (Y : Fin 8 → Fin 100000 → EReal) (hy0 : Gen.V14 m ρ c main_v5 = fun n => Y 0 (n 0)) (hy1 : Gen.V14 m ρ c main_v7 = fun n => Y 1 (n 0)) (hy2 : Gen.V14 m ρ c main_v9 = fun n => Y 2 (n 0)) (hy3 : Gen.V14 m ρ c main_v11 = fun n => Y 3 (n 0)) (hy5 : Gen.V14 m ρ c main_v32 = fun n => Y 5 (n 0)) (hy6 : Gen.V14 m ρ c main_v42 = fun n => Y 6 (n 0)) (hy7 : Gen.V14 m ρ c main_v46 = fun n => Y 7 (n 0)) (t : Fin cfg1.N) :
    (Gen.dat1 (Gen.V14 m ρ) c).flushed 8 t = ((cfg1.win 8).blk t).view.read (Elt Ideal) (updCol0 Y) := by
  show (cfg1.win 8).cut (grid1.coords t) ((Gen.dat1 (Gen.V14 m ρ) c).after 8 t) = _
  rw [Gen.after1_8]
  refine Eq.trans ?_ (Memref.read_access_unit_zero (Elt Ideal) main_v47_0 (off8 t) (fun a => by rw [congrFun (off8 t) a]; simp) (updCol0 Y)).symm
  exact out8_eq Y _ _ _ _ _ _ _ _ ((iblk_0 m ρ c t).trans hy0) ((iblk_1 m ρ c t).trans hy1) ((iblk_2 m ρ c t).trans hy2)
    ((iblk_3 m ρ c t).trans hy3) ((iblk_5 m ρ c t).trans hy5) ((iblk_6 m ρ c t).trans hy6) ((iblk_7 m ρ c t).trans hy7)

/-- The one point writes back output column 1 whole. -/
theorem updFlushed9 (Y : Fin 8 → Fin 100000 → EReal) (hy0 : Gen.V14 m ρ c main_v5 = fun n => Y 0 (n 0)) (hy1 : Gen.V14 m ρ c main_v7 = fun n => Y 1 (n 0)) (hy2 : Gen.V14 m ρ c main_v9 = fun n => Y 2 (n 0)) (hy3 : Gen.V14 m ρ c main_v11 = fun n => Y 3 (n 0)) (hy5 : Gen.V14 m ρ c main_v32 = fun n => Y 5 (n 0)) (hy6 : Gen.V14 m ρ c main_v42 = fun n => Y 6 (n 0)) (hy7 : Gen.V14 m ρ c main_v46 = fun n => Y 7 (n 0)) (t : Fin cfg1.N) :
    (Gen.dat1 (Gen.V14 m ρ) c).flushed 9 t = ((cfg1.win 9).blk t).view.read (Elt Ideal) (updCol1 Y) := by
  show (cfg1.win 9).cut (grid1.coords t) ((Gen.dat1 (Gen.V14 m ρ) c).after 9 t) = _
  rw [Gen.after1_9]
  refine Eq.trans ?_ (Memref.read_access_unit_zero (Elt Ideal) main_v47_1 (off9 t) (fun a => by rw [congrFun (off9 t) a]; simp) (updCol1 Y)).symm
  exact out9_eq Y _ _ _ _ _ _ _ _ ((iblk_0 m ρ c t).trans hy0) ((iblk_1 m ρ c t).trans hy1) ((iblk_2 m ρ c t).trans hy2)
    ((iblk_3 m ρ c t).trans hy3) ((iblk_5 m ρ c t).trans hy5) ((iblk_6 m ρ c t).trans hy6) ((iblk_7 m ρ c t).trans hy7)

/-- The one point of the grid. -/
def pt0 : Fin cfg1.N := ⟨0, by decide⟩

/-- The one point's block of either result is every node. -/
theorem updCover8 (i : S100000.Idx) : i ∈ ((cfg1.win 8).blk pt0).view.set := by
  show i ∈ ((View.whole main_v47_0).slice (win1_8.rect pt0)).set
  rw [View.set_slice_whole, Rect.mem_set_unit]
  intro a
  have h0 : (i 0 : Nat) < 100000 := (i 0).isLt
  have hi : win1_8.index pt0 0 = 0 := rfl
  have hs : win1_8.size 0 = 100000 := rfl
  have hx : win1_8.xsize (grid1.coords pt0) 0 = 100000 := rfl
  match a with
  | ⟨0, _⟩ =>
    show win1_8.index pt0 0 * win1_8.size 0 ≤ (i 0 : Nat) ∧ (i 0 : Nat) < win1_8.index pt0 0 * win1_8.size 0 + win1_8.xsize (grid1.coords pt0) 0
    rw [hi, hs, hx]; omega

theorem updCover9 (i : S100000.Idx) : i ∈ ((cfg1.win 9).blk pt0).view.set := by
  show i ∈ ((View.whole main_v47_1).slice (win1_9.rect pt0)).set
  rw [View.set_slice_whole, Rect.mem_set_unit]
  intro a
  have h0 : (i 0 : Nat) < 100000 := (i 0).isLt
  have hi : win1_9.index pt0 0 = 0 := rfl
  have hs : win1_9.size 0 = 100000 := rfl
  have hx : win1_9.xsize (grid1.coords pt0) 0 = 100000 := rfl
  match a with
  | ⟨0, _⟩ =>
    show win1_9.index pt0 0 * win1_9.size 0 ≤ (i 0 : Nat) ∧ (i 0 : Nat) < win1_9.index pt0 0 * win1_9.size 0 + win1_9.xsize (grid1.coords pt0) 0
    rw [hi, hs, hx]; omega

/-- After the region, result 0 is output column 0 … -/
theorem final8 (Y : Fin 8 → Fin 100000 → EReal) (hy0 : Gen.V14 m ρ c main_v5 = fun n => Y 0 (n 0)) (hy1 : Gen.V14 m ρ c main_v7 = fun n => Y 1 (n 0)) (hy2 : Gen.V14 m ρ c main_v9 = fun n => Y 2 (n 0)) (hy3 : Gen.V14 m ρ c main_v11 = fun n => Y 3 (n 0)) (hy5 : Gen.V14 m ρ c main_v32 = fun n => Y 5 (n 0)) (hy6 : Gen.V14 m ρ c main_v42 = fun n => Y 6 (n 0)) (hy7 : Gen.V14 m ρ c main_v46 = fun n => Y 7 (n 0)) :
    (Gen.dat1 (Gen.V14 m ρ) c).arrAt 8 cfg1.N = updCol0 Y :=
  (Gen.dat1 (Gen.V14 m ρ) c).arrAt_eq_of_cover 8 (updCol0 Y) (fun t _ => updFlushed8 m ρ c Y hy0 hy1 hy2 hy3 hy5 hy6 hy7 t)
    fun i => ⟨pt0, Gen.flush1_8 pt0, updCover8 i⟩

/-- … and result 1 output column 1. -/
theorem final9 (Y : Fin 8 → Fin 100000 → EReal) (hy0 : Gen.V14 m ρ c main_v5 = fun n => Y 0 (n 0)) (hy1 : Gen.V14 m ρ c main_v7 = fun n => Y 1 (n 0)) (hy2 : Gen.V14 m ρ c main_v9 = fun n => Y 2 (n 0)) (hy3 : Gen.V14 m ρ c main_v11 = fun n => Y 3 (n 0)) (hy5 : Gen.V14 m ρ c main_v32 = fun n => Y 5 (n 0)) (hy6 : Gen.V14 m ρ c main_v42 = fun n => Y 6 (n 0)) (hy7 : Gen.V14 m ρ c main_v46 = fun n => Y 7 (n 0)) :
    (Gen.dat1 (Gen.V14 m ρ) c).arrAt 9 cfg1.N = updCol1 Y :=
  (Gen.dat1 (Gen.V14 m ρ) c).arrAt_eq_of_cover 9 (updCol1 Y) (fun t _ => updFlushed9 m ρ c Y hy0 hy1 hy2 hy3 hy5 hy6 hy7 t)
    fun i => ⟨pt0, Gen.flush1_9 pt0, updCover9 i⟩

/-! ## The closing host operations: the two columns side by side -/

/-- Two node columns, each broadcast to a one-column matrix and the two concatenated along the column axis, read at
    (n, k): column k at node n. -/
theorem concat_at (hb : S100000.BroadcastsInDim S100000x1 ![0]) (hc : Shape.Concatenates [S100000x1, S100000x1] S100000x2 1)
    (A B : S100000.Idx → EReal) (i : S100000x2.Idx) :
    concatenate S100000x2 1 [⟨S100000x1, broadcastInDim S100000x1 ![0] hb A⟩, ⟨S100000x1, broadcastInDim S100000x1 ![0] hb B⟩] hc i
      = if (i 1).val = 0 then A (ix1 (i 0)) else B (ix1 (i 0)) := by
  have h2 : (i 1).val < 2 := (i 1).isLt
  by_cases h : (i 1).val = 0
  · rw [if_pos h]
    refine (concatenate_pair_apply_left (t := S100000x2) (s₁ := S100000x1) (s₂ := S100000x1) (1 : Fin 2)
      (broadcastInDim S100000x1 ![0] hb A) (broadcastInDim S100000x1 ![0] hb B) hc i rfl
      (ix2 (i 0 : Fin 100000) (0 : Fin 1) : S100000x1.Idx) ?_).trans ?_
    · intro b
      match b with
      | ⟨0, _⟩ => rfl
      | ⟨1, _⟩ => exact h.symm
    · refine broadcastInDim_apply (s := S100000) (t := S100000x1) ![0] hb A _ (ix1 (i 0 : Fin 100000) : S100000.Idx) ?_
      intro a
      match a with
      | ⟨0, _⟩ => rw [if_neg (by show ¬ ((100000 : Nat) = 1); decide)]; rfl
  · rw [if_neg h]
    refine (concatenate_pair_apply_right (t := S100000x2) (s₁ := S100000x1) (s₂ := S100000x1) (1 : Fin 2)
      (broadcastInDim S100000x1 ![0] hb A) (broadcastInDim S100000x1 ![0] hb B) hc i rfl rfl
      (ix2 (i 0 : Fin 100000) (0 : Fin 1) : S100000x1.Idx) ?_ ?_).trans ?_
    · intro b hne
      match b with
      | ⟨0, _⟩ => rfl
      | ⟨1, _⟩ => exact absurd rfl hne
    · show 0 + 1 = (i 1).val
      omega
    · refine broadcastInDim_apply (s := S100000) (t := S100000x1) ![0] hb B _ (ix1 (i 0 : Fin 100000) : S100000.Idx) ?_
      intro a
      match a with
      | ⟨0, _⟩ => rw [if_neg (by show ¬ ((100000 : Nat) = 1); decide)]; rfl

/-- THE KERNEL PROGRAM'S RESULT: with the update region's eight operand columns given by Y, the returned node-by-2
    array holds, at (n, k), output k of the node update of node n. -/
theorem tail_result (Y : Fin 8 → Fin 100000 → EReal)
  (hy0 : Gen.V14 m ρ c main_v5 = fun n => Y 0 (n 0)) (hy1 : Gen.V14 m ρ c main_v7 = fun n => Y 1 (n 0)) (hy2 : Gen.V14 m ρ c main_v9 = fun n => Y 2 (n 0)) (hy3 : Gen.V14 m ρ c main_v11 = fun n => Y 3 (n 0)) (hy4 : Gen.V14 m ρ c main_v29 = fun n => Y 4 (n 0)) (hy5 : Gen.V14 m ρ c main_v32 = fun n => Y 5 (n 0)) (hy6 : Gen.V14 m ρ c main_v42 = fun n => Y 6 (n 0)) (hy7 : Gen.V14 m ρ c main_v46 = fun n => Y 7 (n 0)) :
  Gen.W16 m ρ c (Proc.devRef .tc main_v50) = fun i => updOf Y (i 0) (i 1) := by
  have e8 : Gen.W15 m ρ c (Proc.devRef .tc main_v47_0) = updCol0 Y :=
    (Gen.W15_arr m ρ c 8).trans (final8 m ρ c Y hy0 hy1 hy2 hy3 hy5 hy6 hy7)
  have e9 : Gen.W15 m ρ c (Proc.devRef .tc main_v47_1) = updCol1 Y :=
    (Gen.W15_arr m ρ c 9).trans (final9 m ρ c Y hy0 hy1 hy2 hy3 hy5 hy6 hy7)
  show StableHlo.after hostOps2 (Gen.W15 m ρ c) (Proc.devRef .tc main_v50) = _
  after_results
  rw [e8, e9]
  funext i
  refine (concat_at _ _ (updCol0 Y) (updCol1 Y) i).trans ?_
  have h2 : (i 1).val < 2 := (i 1).isLt
  by_cases h : (i 1).val = 0
  · rw [if_pos h, show i 1 = (0 : Fin 2) from Fin.ext h]; rfl
  · rw [if_neg h, show i 1 = (1 : Fin 2) from Fin.ext (by show (i 1).val = 1; omega)]; rfl

end Cert.KernelIdeal.KVal

end
-- ==== Proof.KValue.lean ====
/-
  The kernel program's result array is the function G of its three arguments (Spec.lean): the first kernel leaves the four
  per-edge message channels, the host operations between the kernels leave the per-node sums, count and means, and the second
  kernel updates each node from its own features and those aggregates.
-/
import proofs.«423533_j53644141527383_1_alg».proof.Proof.KRegion0
import proofs.«423533_j53644141527383_1_alg».proof.Proof.KMid
import proofs.«423533_j53644141527383_1_alg».proof.Proof.KTail

noncomputable section

namespace Cert.KernelIdeal.KVal

open Idealize.ShloMosaic Idealize.ShloMosaic.TcCoe Idealize.SL.Sem Cert.KernelIdeal Cert.KernelIdeal.Gen Cert.Flock
  Idealize.ShloMosaic.ValueIdx

variable (m : (ℓ : Loc nD τ sig) → Buf (Elt Ideal) ℓ) (ρ : Dev nD → PrngReg) (c : Dev nD)

/-- The eight per-node arrays the update reads: the node's four features, the summed channels 2 and 3, the averaged
    channels 0 and 1. -/
def nodeInputs (j : Fin 8) (n : Fin 100000) : EReal :=
  match j with
  | ⟨0, _⟩ => feat (argP m c) (argV m c) n 0
  | ⟨1, _⟩ => feat (argP m c) (argV m c) n 1
  | ⟨2, _⟩ => feat (argP m c) (argV m c) n 2
  | ⟨3, _⟩ => feat (argP m c) (argV m c) n 3
  | ⟨4, _⟩ => sumK (argP m c) (argV m c) (argEI m c) scatter_S100000_S6400000x1_S6400000_n_0_0_1 2 n
  | ⟨5, _⟩ => sumK (argP m c) (argV m c) (argEI m c) scatter_S100000_S6400000x1_S6400000_n_0_0_1 3 n
  | ⟨6, _⟩ => meanK (argP m c) (argV m c) (argEI m c) scatter_S100000_S6400000x1_S6400000_n_0_0_1 0 n
  | ⟨7, _⟩ => meanK (argP m c) (argV m c) (argEI m c) scatter_S100000_S6400000x1_S6400000_n_0_0_1 1 n

/-- The result array at the program's last boundary is G. -/
theorem kernel_value (hin : InRange (argEI m c)) :
    Gen.W16 m ρ c (Proc.devRef .tc main_v50)
      = G (argP m c) (argV m c) (argEI m c) scatter_S100000_S6400000x1_S6400000_n_0_0_1 := by
  have h0 := region0_out0 m ρ c hin
  have h1 := region0_out1 m ρ c hin
  have h2 := region0_out2 m ρ c hin
  have h3 := region0_out3 m ρ c hin
  rw [tail_result m ρ c (nodeInputs m c) (mid_v5 m ρ c) (mid_v7 m ρ c) (mid_v9 m ρ c) (mid_v11 m ρ c)
    (mid_v29 m ρ c h2) (mid_v32 m ρ c h3) (mid_v42 m ρ c h0) (mid_v46 m ρ c h1)]
  funext i
  unfold G outAt updOf
  match i 1 with
  | ⟨0, _⟩ => rfl
  | ⟨1, _⟩ => rfl

end Cert.KernelIdeal.KVal

end
-- ==== Proof.RefAfter.lean ====
/-
  The reference's run as a function of its arguments: the fold of its 190 host operations over a valuation leaves, in every
  buffer that is read later, that buffer's stage function of the three argument arrays. The operation list is cut at the two
  outlined selections and before the closing concatenate; each stretch carries the statement across: given it of the buffers
  the stretch reads, it holds of the buffers the stretch writes, and a buffer the stretch does not write is unchanged.
-/
import proofs.«423533_j53644141527383_1_alg».proof.Proof.RefRead

noncomputable section

namespace Cert.ReferenceIdeal.RVal

open Cert.ReferenceIdeal Cert.ReferenceIdeal.Gen Idealize.ShloMosaic Idealize.ShloMosaic.TcCoe Idealize.SL.Sem Idealize.ShloMosaic.StableHlo

variable {F : FTy → Type} [FloatOps F]

/-- stretch A of the operation list -/
abbrev opsA : List (HloOp τ sig (Elt F)) :=
  [ binary main_arg0 main_arg1 main_v0 ((fun a b => concatenate S100000x4 1 [⟨S100000x2, a⟩, ⟨S100000x2, b⟩] concatenates_S100000x2_S100000x2_S100000x4_d1) : (⟨S100000x2, .f32⟩ : BufTy).Contents (Elt F) → (⟨S100000x2, .f32⟩ : BufTy).Contents (Elt F) → (⟨S100000x4, .f32⟩ : BufTy).Contents (Elt F)),
    unary main_arg2 main_v1 ((extractStridedSlice S1x6400000 ![0, 0] · slices_S2x6400000_S1x6400000_0_0) : (⟨S2x6400000, .i32⟩ : BufTy).Contents (Elt F) → (⟨S1x6400000, .i32⟩ : BufTy).Contents (Elt F)),
    reshape main_v1 main_v2 rfl shapeCasts_S1x6400000_S6400000,
    unary main_arg2 main_v3 ((extractStridedSlice S1x6400000 ![1, 0] · slices_S2x6400000_S1x6400000_1_0) : (⟨S2x6400000, .i32⟩ : BufTy).Contents (Elt F) → (⟨S1x6400000, .i32⟩ : BufTy).Contents (Elt F)),
    reshape main_v3 main_v4 rfl shapeCasts_S1x6400000_S6400000,
    nullary main_c (constantI S_ 32 0#32),
    unary main_c main_v5 (broadcastInDim S6400000 ![] bcast_S_S6400000 : (⟨S_, .i32⟩ : BufTy).Contents (Elt F) → (⟨S6400000, .i32⟩ : BufTy).Contents (Elt F)),
    binary main_v4 main_v5 main_v6 (cmpi .slt : (⟨S6400000, .i32⟩ : BufTy).Contents (Elt F) → (⟨S6400000, .i32⟩ : BufTy).Contents (Elt F) → (⟨S6400000, .i1⟩ : BufTy).Contents (Elt F)),
    nullary main_c_0 (constantI S_ 32 100000#32),
    unary main_c_0 main_v7 (broadcastInDim S6400000 ![] bcast_S_S6400000 : (⟨S_, .i32⟩ : BufTy).Contents (Elt F) → (⟨S6400000, .i32⟩ : BufTy).Contents (Elt F)),
    binary main_v4 main_v7 main_v8 (addi : (⟨S6400000, .i32⟩ : BufTy).Contents (Elt F) → (⟨S6400000, .i32⟩ : BufTy).Contents (Elt F) → (⟨S6400000, .i32⟩ : BufTy).Contents (Elt F)),
    ternary main_v6 main_v8 main_v4 main_v9 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v9 main_v10 (broadcastInDim S6400000x1 ![0] bcast_S6400000_S6400000x1_0 : (⟨S6400000, .i32⟩ : BufTy).Contents (Elt F) → (⟨S6400000x1, .i32⟩ : BufTy).Contents (Elt F)),
    binary main_v0 main_v10 main_v11 ((fun x i => Host.gather gather_S100000x4_S6400000x1_S6400000x4_1_0_n_n_0_1_14 x i) : (⟨S100000x4, .f32⟩ : BufTy).Contents (Elt F) → (⟨S6400000x1, .i32⟩ : BufTy).Contents (Elt F) → (⟨S6400000x4, .f32⟩ : BufTy).Contents (Elt F)),
    nullary main_c_1 (constantI S_ 32 0#32),
    unary main_c_1 main_v12 (broadcastInDim S6400000 ![] bcast_S_S6400000 : (⟨S_, .i32⟩ : BufTy).Contents (Elt F) → (⟨S6400000, .i32⟩ : BufTy).Contents (Elt F)),
    binary main_v2 main_v12 main_v13 (cmpi .slt : (⟨S6400000, .i32⟩ : BufTy).Contents (Elt F) → (⟨S6400000, .i32⟩ : BufTy).Contents (Elt F) → (⟨S6400000, .i1⟩ : BufTy).Contents (Elt F)),
    nullary main_c_2 (constantI S_ 32 100000#32),
    unary main_c_2 main_v14 (broadcastInDim S6400000 ![] bcast_S_S6400000 : (⟨S_, .i32⟩ : BufTy).Contents (Elt F) → (⟨S6400000, .i32⟩ : BufTy).Contents (Elt F)),
    binary main_v2 main_v14 main_v15 (addi : (⟨S6400000, .i32⟩ : BufTy).Contents (Elt F) → (⟨S6400000, .i32⟩ : BufTy).Contents (Elt F) → (⟨S6400000, .i32⟩ : BufTy).Contents (Elt F)),
    ternary main_v13 main_v15 main_v2 main_v16 (select : (⟨S6400000, .i1⟩ : BufTy).Contents (Elt F) → (⟨S6400000, .i32⟩ : BufTy).Contents (Elt F) → (⟨S6400000, .i32⟩ : BufTy).Contents (Elt F) → (⟨S6400000, .i32⟩ : BufTy).Contents (Elt F)),
    unary main_v16 main_v17 (broadcastInDim S6400000x1 ![0] bcast_S6400000_S6400000x1_0 : (⟨S6400000, .i32⟩ : BufTy).Contents (Elt F) → (⟨S6400000x1, .i32⟩ : BufTy).Contents (Elt F)),
    binary main_v0 main_v17 main_v18 ((fun x i => Host.gather gather_S100000x4_S6400000x1_S6400000x4_1_0_n_n_0_1_14 x i) : (⟨S100000x4, .f32⟩ : BufTy).Contents (Elt F) → (⟨S6400000x1, .i32⟩ : BufTy).Contents (Elt F) → (⟨S6400000x4, .f32⟩ : BufTy).Contents (Elt F)),
    unary main_v11 main_v19 ((extractStridedSlice S6400000x1 ![0, 0] · slices_S6400000x4_S6400000x1_0_0) : (⟨S6400000x4, .f32⟩ : BufTy).Contents (Elt F) → (⟨S6400000x1, .f32⟩ : BufTy).Contents (Elt F)),
    reshape main_v19 main_v20 rfl shapeCasts_S6400000x1_S6400000,
    unary main_v11 main_v21 ((extractStridedSlice S6400000x1 ![0, 1] · slices_S6400000x4_S6400000x1_0_1) : (⟨S6400000x4, .f32⟩ : BufTy).Contents (Elt F) → (⟨S6400000x1, .f32⟩ : BufTy).Contents (Elt F)),
    reshape main_v21 main_v22 rfl shapeCasts_S6400000x1_S6400000,
    unary main_v18 main_v23 ((extractStridedSlice S6400000x1 ![0, 0] · slices_S6400000x4_S6400000x1_0_0) : (⟨S6400000x4, .f32⟩ : BufTy).Contents (Elt F) → (⟨S6400000x1, .f32⟩ : BufTy).Contents (Elt F)),
    reshape main_v23 main_v24 rfl shapeCasts_S6400000x1_S6400000,
    unary main_v18 main_v25 ((extractStridedSlice S6400000x1 ![0, 1] · slices_S6400000x4_S6400000x1_0_1) : (⟨S6400000x4, .f32⟩ : BufTy).Contents (Elt F) → (⟨S6400000x1, .f32⟩ : BufTy).Contents (Elt F)),
    reshape main_v25 main_v26 rfl shapeCasts_S6400000x1_S6400000,
    binary main_v24 main_v20 main_v27 (subf : (⟨S6400000, .f32⟩ : BufTy).Contents (Elt F) → (⟨S6400000, .f32⟩ : BufTy).Contents (Elt F) → (⟨S6400000, .f32⟩ : BufTy).Contents (Elt F)),
    binary main_v22 main_v26 main_v28 (subf : (⟨S6400000, .f32⟩ : BufTy).Contents (Elt F) → (⟨S6400000, .f32⟩ : BufTy).Contents (Elt F) → (⟨S6400000, .f32⟩ : BufTy).Contents (Elt F)),
    nullary main_cst (constant S_ .f32 0x3ED17BFC#32),
    unary main_cst main_v29 (broadcastInDim S6400000 ![] bcast_S_S6400000 : (⟨S_, .f32⟩ : BufTy).Contents (Elt F) → (⟨S6400000, .f32⟩ : BufTy).Contents (Elt F)),
    binary main_v28 main_v29 main_v30 (mulf : (⟨S6400000, .f32⟩ : BufTy).Contents (Elt F) → (⟨S6400000, .f32⟩ : BufTy).Contents (Elt F) → (⟨S6400000, .f32⟩ : BufTy).Contents (Elt F)),
    binary main_v27 main_v30 main_v31 (addf : (⟨S6400000, .f32⟩ : BufTy).Contents (Elt F) → (⟨S6400000, .f32⟩ : BufTy).Contents (Elt F) → (⟨S6400000, .f32⟩ : BufTy).Contents (Elt F)),
    nullary main_cst_3 (constant S_ .f32 0x3CED8F1D#32),
    unary main_cst_3 main_v32 (broadcastInDim S6400000 ![] bcast_S_S6400000 : (⟨S_, .f32⟩ : BufTy).Contents (Elt F) → (⟨S6400000, .f32⟩ : BufTy).Contents (Elt F)),
    binary main_v31 main_v32 main_v33 (mulf : (⟨S6400000, .f32⟩ : BufTy).Contents (Elt F) → (⟨S6400000, .f32⟩ : BufTy).Contents (Elt F) → (⟨S6400000, .f32⟩ : BufTy).Contents (Elt F)),
    binary main_v22 main_v26 main_v34 (subf : (⟨S6400000, .f32⟩ : BufTy).Contents (Elt F) → (⟨S6400000, .f32⟩ : BufTy).Contents (Elt F) → (⟨S6400000, .f32⟩ : BufTy).Contents (Elt F)),
    nullary main_cst_4 (constant S_ .f32 0x3F14F9A7#32),
    unary main_cst_4 main_v35 (broadcastInDim S6400000 ![] bcast_S_S6400000 : (⟨S_, .f32⟩ : BufTy).Contents (Elt F) → (⟨S6400000, .f32⟩ : BufTy).Contents (Elt F)),
    binary main_v34 main_v35 main_v36 (mulf : (⟨S6400000, .f32⟩ : BufTy).Contents (Elt F) → (⟨S6400000, .f32⟩ : BufTy).Contents (Elt F) → (⟨S6400000, .f32⟩ : BufTy).Contents (Elt F)),
    binary main_v27 main_v36 main_v37 (addf : (⟨S6400000, .f32⟩ : BufTy).Contents (Elt F) → (⟨S6400000, .f32⟩ : BufTy).Contents (Elt F) → (⟨S6400000, .f32⟩ : BufTy).Contents (Elt F)),
    nullary main_cst_5 (constant S_ .f32 0xBCD8166C#32),
    unary main_cst_5 main_v38 (broadcastInDim S6400000 ![] bcast_S_S6400000 : (⟨S_, .f32⟩ : BufTy).Contents (Elt F) → (⟨S6400000, .f32⟩ : BufTy).Contents (Elt F)),
    binary main_v37 main_v38 main_v39 (mulf : (⟨S6400000, .f32⟩ : BufTy).Contents (Elt F) → (⟨S6400000, .f32⟩ : BufTy).Contents (Elt F) → (⟨S6400000, .f32⟩ : BufTy).Contents (Elt F)),
    nullary main_cst_6 (constant S_ .f32 0xBDA1F257#32),
    unary main_cst_6 main_v40 (broadcastInDim S6400000 ![] bcast_S_S6400000 : (⟨S_, .f32⟩ : BufTy).Contents (Elt F) → (⟨S6400000, .f32⟩ : BufTy).Contents (Elt F)),
    binary main_v22 main_v40 main_v41 (mulf : (⟨S6400000, .f32⟩ : BufTy).Contents (Elt F) → (⟨S6400000, .f32⟩ : BufTy).Contents (Elt F) → (⟨S6400000, .f32⟩ : BufTy).Contents (Elt F)),
    binary main_v41 main_v27 main_v42 (subf : (⟨S6400000, .f32⟩ : BufTy).Contents (Elt F) → (⟨S6400000, .f32⟩ : BufTy).Contents (Elt F) → (⟨S6400000, .f32⟩ : BufTy).Contents (Elt F)),
    nullary main_cst_7 (constant S_ .f32 0xBCDAE815#32),
    unary main_cst_7 main_v43 (broadcastInDim S6400000 ![] bcast_S_S6400000 : (⟨S_, .f32⟩ : BufTy).Contents (Elt F) → (⟨S6400000, .f32⟩ : BufTy).Contents (Elt F)),
    binary main_v42 main_v43 main_v44 (mulf : (⟨S6400000, .f32⟩ : BufTy).Contents (Elt F) → (⟨S6400000, .f32⟩ : BufTy).Contents (Elt F) → (⟨S6400000, .f32⟩ : BufTy).Contents (Elt F)),
    nullary main_cst_8 (constant S_ .f32 0x3F74B8A0#32),
    unary main_cst_8 main_v45 (broadcastInDim S6400000 ![] bcast_S_S6400000 : (⟨S_, .f32⟩ : BufTy).Contents (Elt F) → (⟨S6400000, .f32⟩ : BufTy).Contents (Elt F)),
    binary main_v22 main_v45 main_v46 (mulf : (⟨S6400000, .f32⟩ : BufTy).Contents (Elt F) → (⟨S6400000, .f32⟩ : BufTy).Contents (Elt F) → (⟨S6400000, .f32⟩ : BufTy).Contents (Elt F)),
    binary main_v46 main_v26 main_v47 (subf : (⟨S6400000, .f32⟩ : BufTy).Contents (Elt F) → (⟨S6400000, .f32⟩ : BufTy).Contents (Elt F) → (⟨S6400000, .f32⟩ : BufTy).Contents (Elt F)),
    nullary main_cst_9 (constant S_ .f32 0x3E4F4D35#32),
    unary main_cst_9 main_v48 (broadcastInDim S6400000 ![] bcast_S_S6400000 : (⟨S_, .f32⟩ : BufTy).Contents (Elt F) → (⟨S6400000, .f32⟩ : BufTy).Contents (Elt F)),
    binary main_v20 main_v48 main_v49 (mulf : (⟨S6400000, .f32⟩ : BufTy).Contents (Elt F) → (⟨S6400000, .f32⟩ : BufTy).Contents (Elt F) → (⟨S6400000, .f32⟩ : BufTy).Contents (Elt F)),
    binary main_v47 main_v49 main_v50 (subf : (⟨S6400000, .f32⟩ : BufTy).Contents (Elt F) → (⟨S6400000, .f32⟩ : BufTy).Contents (Elt F) → (⟨S6400000, .f32⟩ : BufTy).Contents (Elt F)),
    nullary main_cst_10 (constant S_ .f32 0xBE365DEE#32),
    unary main_cst_10 main_v51 (broadcastInDim S6400000 ![] bcast_S_S6400000 : (⟨S_, .f32⟩ : BufTy).Contents (Elt F) → (⟨S6400000, .f32⟩ : BufTy).Contents (Elt F)),
    binary main_v24 main_v51 main_v52 (mulf : (⟨S6400000, .f32⟩ : BufTy).Contents (Elt F) → (⟨S6400000, .f32⟩ : BufTy).Contents (Elt F) → (⟨S6400000, .f32⟩ : BufTy).Contents (Elt F)),
    binary main_v50 main_v52 main_v53 (subf : (⟨S6400000, .f32⟩ : BufTy).Contents (Elt F) → (⟨S6400000, .f32⟩ : BufTy).Contents (Elt F) → (⟨S6400000, .f32⟩ : BufTy).Contents (Elt F)),
    nullary main_cst_11 (constant S_ .f32 0x3CDCA3CF#32),
    unary main_cst_11 main_v54 (broadcastInDim S6400000 ![] bcast_S_S6400000 : (⟨S_, .f32⟩ : BufTy).Contents (Elt F) → (⟨S6400000, .f32⟩ : BufTy).Contents (Elt F)),
    binary main_v53 main_v54 main_v55 (mulf : (⟨S6400000, .f32⟩ : BufTy).Contents (Elt F) → (⟨S6400000, .f32⟩ : BufTy).Contents (Elt F) → (⟨S6400000, .f32⟩ : BufTy).Contents (Elt F)),
    unary main_v33 main_v56 (broadcastInDim S6400000x1 ![0] bcast_S6400000_S6400000x1_0 : (⟨S6400000, .f32⟩ : BufTy).Contents (Elt F) → (⟨S6400000x1, .f32⟩ : BufTy).Contents (Elt F)),
    unary main_v39 main_v57 (broadcastInDim S6400000x1 ![0] bcast_S6400000_S6400000x1_0 : (⟨S6400000, .f32⟩ : BufTy).Contents (Elt F) → (⟨S6400000x1, .f32⟩ : BufTy).Contents (Elt F)),
    unary main_v44 main_v58 (broadcastInDim S6400000x1 ![0] bcast_S6400000_S6400000x1_0 : (⟨S6400000, .f32⟩ : BufTy).Contents (Elt F) → (⟨S6400000x1, .f32⟩ : BufTy).Contents (Elt F)),
    unary main_v55 main_v59 (broadcastInDim S6400000x1 ![0] bcast_S6400000_S6400000x1_0 : (⟨S6400000, .f32⟩ : BufTy).Contents (Elt F) → (⟨S6400000x1, .f32⟩ : BufTy).Contents (Elt F)),
    nary ![main_v56, main_v57, main_v58, main_v59] main_v60 (fun u => concatenate S6400000x4 1 [⟨S6400000x1, u 0⟩, ⟨S6400000x1, u 1⟩, ⟨S6400000x1, u 2⟩, ⟨S6400000x1, u 3⟩] concatenates_S6400000x1_S6400000x1_S6400000x1_S6400000x1_S6400000x4_d1),
    binary main_v11 main_v18 main_v61 (subf : (⟨S6400000x4, .f32⟩ : BufTy).Contents (Elt F) → (⟨S6400000x4, .f32⟩ : BufTy).Contents (Elt F) → (⟨S6400000x4, .f32⟩ : BufTy).Contents (Elt F)),
    nullary main_cst_12 (constant S_ .f32 0x00000000#32),
    unary main_cst_12 main_v62 (broadcastInDim S6400000x4 ![] bcast_S_S6400000x4 : (⟨S_, .f32⟩ : BufTy).Contents (Elt F) → (⟨S6400000x4, .f32⟩ : BufTy).Contents (Elt F)),
    binary main_v61 main_v62 main_v63 (cmpf .oeq : (⟨S6400000x4, .f32⟩ : BufTy).Contents (Elt F) → (⟨S6400000x4, .f32⟩ : BufTy).Contents (Elt F) → (⟨S6400000x4, .i1⟩ : BufTy).Contents (Elt F)),
    nullary main_c_13 (constantI S_ 1 1#1),
    binary main_v63 main_c_13 main_v64 ((fun x v => Host.reduce IntOp.andi x v reducesTo_S6400000x4_S6400000_d1 h_S_) : (⟨S6400000x4, .i1⟩ : BufTy).Contents (Elt F) → (⟨S_, .i1⟩ : BufTy).Contents (Elt F) → (⟨S6400000, .i1⟩ : BufTy).Contents (Elt F)),
    unary main_v64 main_v65 (broadcastInDim S6400000x1 ![0] bcast_S6400000_S6400000x1_0 : (⟨S6400000, .i1⟩ : BufTy).Contents (Elt F) → (⟨S6400000x1, .i1⟩ : BufTy).Contents (Elt F)),
    nullary main_cst_14 (constant S_ .f32 0x00000000#32) ]

/-- stretch B of the operation list -/
abbrev opsB : List (HloOp τ sig (Elt F)) :=
  [ TRef.unary (TRef.of (T := ⟨S_, .f32⟩) main_cst_14) (TRef.of (T := ⟨S_, .f32⟩) main_call0_v0) id,
    TRef.unary (TRef.of (T := ⟨S6400000x1, .i1⟩) main_v65) (TRef.of (T := ⟨S6400000x4, .i1⟩) main_call0_v1) (broadcastInDim S6400000x4 ![0, 1] bcast_S6400000x1_S6400000x4_0_1),
    TRef.unary (TRef.of (T := ⟨S_, .f32⟩) main_call0_v0) (TRef.of (T := ⟨S6400000x4, .f32⟩) main_call0_v2) (broadcastInDim S6400000x4 ![] bcast_S_S6400000x4),
    TRef.ternary (TRef.of (T := ⟨S6400000x4, .i1⟩) main_call0_v1) (TRef.of (T := ⟨S6400000x4, .f32⟩) main_call0_v2) (TRef.of (T := ⟨S6400000x4, .f32⟩) main_v60) (TRef.of (T := ⟨S6400000x4, .f32⟩) main_v66) select ]

/-- stretch C of the operation list -/
abbrev opsC : List (HloOp τ sig (Elt F)) :=
  [ unary main_v66 main_v67 ((extractStridedSlice S6400000x2 ![0, 0] · slices_S6400000x4_S6400000x2_0_0) : (⟨S6400000x4, .f32⟩ : BufTy).Contents (Elt F) → (⟨S6400000x2, .f32⟩ : BufTy).Contents (Elt F)),
    unary main_v66 main_v68 ((extractStridedSlice S6400000x2 ![0, 2] · slices_S6400000x4_S6400000x2_0_2) : (⟨S6400000x4, .f32⟩ : BufTy).Contents (Elt F) → (⟨S6400000x2, .f32⟩ : BufTy).Contents (Elt F)),
    nullary main_cst_15 (constant S_ .f32 0x00000000#32),
    unary main_cst_15 main_v69 (broadcastInDim S100000x2 ![] bcast_S_S100000x2 : (⟨S_, .f32⟩ : BufTy).Contents (Elt F) → (⟨S100000x2, .f32⟩ : BufTy).Contents (Elt F)),
    unary main_v4 main_v70 (broadcastInDim S6400000x1 ![0] bcast_S6400000_S6400000x1_0 : (⟨S6400000, .i32⟩ : BufTy).Contents (Elt F) → (⟨S6400000x1, .i32⟩ : BufTy).Contents (Elt F)),
    ternary main_v69 main_v70 main_v68 main_v71 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    nullary main_cst_16 (constant S_ .f32 0x00000000#32),
    unary main_cst_16 main_v72 (broadcastInDim S100000x2 ![] bcast_S_S100000x2 : (⟨S_, .f32⟩ : BufTy).Contents (Elt F) → (⟨S100000x2, .f32⟩ : BufTy).Contents (Elt F)),
    unary main_v4 main_v73 (broadcastInDim S6400000x1 ![0] bcast_S6400000_S6400000x1_0 : (⟨S6400000, .i32⟩ : BufTy).Contents (Elt F) → (⟨S6400000x1, .i32⟩ : BufTy).Contents (Elt F)),
    ternary main_v72 main_v73 main_v67 main_v74 ((fun x i u => Host.scatterAdd scatter_S100000x2_S6400000x1_S6400000x2_1_0_0_1 x i u) : (⟨S100000x2, .f32⟩ : BufTy).Contents (Elt F) → (⟨S6400000x1, .i32⟩ : BufTy).Contents (Elt F) → (⟨S6400000x2, .f32⟩ : BufTy).Contents (Elt F) → (⟨S100000x2, .f32⟩ : BufTy).Contents (Elt F)),
    nullary main_cst_17 (constant S_ .f32 0x3F800000#32),
    unary main_cst_17 main_v75 (broadcastInDim S6400000 ![] bcast_S_S6400000 : (⟨S_, .f32⟩ : BufTy).Contents (Elt F) → (⟨S6400000, .f32⟩ : BufTy).Contents (Elt F)),
    nullary main_cst_18 (constant S_ .f32 0x00000000#32),
    unary main_cst_18 main_v76 (broadcastInDim S100000 ![] bcast_S_S100000 : (⟨S_, .f32⟩ : BufTy).Contents (Elt F) → (⟨S100000, .f32⟩ : BufTy).Contents (Elt F)),
    unary main_v4 main_v77 (broadcastInDim S6400000x1 ![0] bcast_S6400000_S6400000x1_0 : (⟨S6400000, .i32⟩ : BufTy).Contents (Elt F) → (⟨S6400000x1, .i32⟩ : BufTy).Contents (Elt F)),
    ternary main_v76 main_v77 main_v75 main_v78 ((fun x i u => Host.scatterAdd scatter_S100000_S6400000x1_S6400000_n_0_0_1 x i u) : (⟨S100000, .f32⟩ : BufTy).Contents (Elt F) → (⟨S6400000x1, .i32⟩ : BufTy).Contents (Elt F) → (⟨S6400000, .f32⟩ : BufTy).Contents (Elt F) → (⟨S100000, .f32⟩ : BufTy).Contents (Elt F)),
    unary main_v78 main_v79 (broadcastInDim S100000x1 ![0] bcast_S100000_S100000x1_0 : (⟨S100000, .f32⟩ : BufTy).Contents (Elt F) → (⟨S100000x1, .f32⟩ : BufTy).Contents (Elt F)),
    nullary main_cst_19 (constant S_ .f32 0x00000000#32),
    unary main_cst_19 main_v80 (broadcastInDim S100000x1 ![] bcast_S_S100000x1 : (⟨S_, .f32⟩ : BufTy).Contents (Elt F) → (⟨S100000x1, .f32⟩ : BufTy).Contents (Elt F)),
    binary main_v79 main_v80 main_v81 (cmpf .ogt : (⟨S100000x1, .f32⟩ : BufTy).Contents (Elt F) → (⟨S100000x1, .f32⟩ : BufTy).Contents (Elt F) → (⟨S100000x1, .i1⟩ : BufTy).Contents (Elt F)),
    nullary main_cst_20 (constant S_ .f32 0x3F800000#32),
    unary main_cst_20 main_v82 (broadcastInDim S100000 ![] bcast_S_S100000 : (⟨S_, .f32⟩ : BufTy).Contents (Elt F) → (⟨S100000, .f32⟩ : BufTy).Contents (Elt F)),
    binary main_v78 main_v82 main_v83 (maximumf : (⟨S100000, .f32⟩ : BufTy).Contents (Elt F) → (⟨S100000, .f32⟩ : BufTy).Contents (Elt F) → (⟨S100000, .f32⟩ : BufTy).Contents (Elt F)),
    unary main_v83 main_v84 (broadcastInDim S100000x1 ![0] bcast_S100000_S100000x1_0 : (⟨S100000, .f32⟩ : BufTy).Contents (Elt F) → (⟨S100000x1, .f32⟩ : BufTy).Contents (Elt F)),
    unary main_v84 main_v85 (broadcastInDim S100000x2 ![0, 1] bcast_S100000x1_S100000x2_0_1 : (⟨S100000x1, .f32⟩ : BufTy).Contents (Elt F) → (⟨S100000x2, .f32⟩ : BufTy).Contents (Elt F)),
    binary main_v74 main_v85 main_v86 (Host.divf : (⟨S100000x2, .f32⟩ : BufTy).Contents (Elt F) → (⟨S100000x2, .f32⟩ : BufTy).Contents (Elt F) → (⟨S100000x2, .f32⟩ : BufTy).Contents (Elt F)),
    nullary main_cst_21 (constant S_ .f32 0x00000000#32) ]

/-- stretch D of the operation list -/
abbrev opsD : List (HloOp τ sig (Elt F)) :=
  [ TRef.unary (TRef.of (T := ⟨S_, .f32⟩) main_cst_21) (TRef.of (T := ⟨S_, .f32⟩) main_call1_v0) id,
    TRef.unary (TRef.of (T := ⟨S100000x1, .i1⟩) main_v81) (TRef.of (T := ⟨S100000x2, .i1⟩) main_call1_v1) (broadcastInDim S100000x2 ![0, 1] bcast_S100000x1_S100000x2_0_1),
    TRef.unary (TRef.of (T := ⟨S_, .f32⟩) main_call1_v0) (TRef.of (T := ⟨S100000x2, .f32⟩) main_call1_v2) (broadcastInDim S100000x2 ![] bcast_S_S100000x2),
    TRef.ternary (TRef.of (T := ⟨S100000x2, .i1⟩) main_call1_v1) (TRef.of (T := ⟨S100000x2, .f32⟩) main_v86) (TRef.of (T := ⟨S100000x2, .f32⟩) main_call1_v2) (TRef.of (T := ⟨S100000x2, .f32⟩) main_v87) select ]

/-- stretch E1 of the operation list -/
abbrev opsE1 : List (HloOp τ sig (Elt F)) :=
  [ binary main_v71 main_v87 main_v88 ((fun a b => concatenate S100000x4 1 [⟨S100000x2, a⟩, ⟨S100000x2, b⟩] concatenates_S100000x2_S100000x2_S100000x4_d1) : (⟨S100000x2, .f32⟩ : BufTy).Contents (Elt F) → (⟨S100000x2, .f32⟩ : BufTy).Contents (Elt F) → (⟨S100000x4, .f32⟩ : BufTy).Contents (Elt F)),
    unary main_v0 main_v89 ((extractStridedSlice S100000x1 ![0, 0] · slices_S100000x4_S100000x1_0_0) : (⟨S100000x4, .f32⟩ : BufTy).Contents (Elt F) → (⟨S100000x1, .f32⟩ : BufTy).Contents (Elt F)),
    reshape main_v89 main_v90 rfl shapeCasts_S100000x1_S100000,
    unary main_v0 main_v91 ((extractStridedSlice S100000x1 ![0, 1] · slices_S100000x4_S100000x1_0_1) : (⟨S100000x4, .f32⟩ : BufTy).Contents (Elt F) → (⟨S100000x1, .f32⟩ : BufTy).Contents (Elt F)),
    reshape main_v91 main_v92 rfl shapeCasts_S100000x1_S100000,
    unary main_v0 main_v93 ((extractStridedSlice S100000x1 ![0, 2] · slices_S100000x4_S100000x1_0_2) : (⟨S100000x4, .f32⟩ : BufTy).Contents (Elt F) → (⟨S100000x1, .f32⟩ : BufTy).Contents (Elt F)),
    reshape main_v93 main_v94 rfl shapeCasts_S100000x1_S100000,
    unary main_v0 main_v95 ((extractStridedSlice S100000x1 ![0, 3] · slices_S100000x4_S100000x1_0_3) : (⟨S100000x4, .f32⟩ : BufTy).Contents (Elt F) → (⟨S100000x1, .f32⟩ : BufTy).Contents (Elt F)),
    reshape main_v95 main_v96 rfl shapeCasts_S100000x1_S100000,
    unary main_v88 main_v97 ((extractStridedSlice S100000x1 ![0, 0] · slices_S100000x4_S100000x1_0_0) : (⟨S100000x4, .f32⟩ : BufTy).Contents (Elt F) → (⟨S100000x1, .f32⟩ : BufTy).Contents (Elt F)),
    reshape main_v97 main_v98 rfl shapeCasts_S100000x1_S100000,
    unary main_v88 main_v99 ((extractStridedSlice S100000x1 ![0, 1] · slices_S100000x4_S100000x1_0_1) : (⟨S100000x4, .f32⟩ : BufTy).Contents (Elt F) → (⟨S100000x1, .f32⟩ : BufTy).Contents (Elt F)),
    reshape main_v99 main_v100 rfl shapeCasts_S100000x1_S100000,
    unary main_v88 main_v101 ((extractStridedSlice S100000x1 ![0, 2] · slices_S100000x4_S100000x1_0_2) : (⟨S100000x4, .f32⟩ : BufTy).Contents (Elt F) → (⟨S100000x1, .f32⟩ : BufTy).Contents (Elt F)),
    reshape main_v101 main_v102 rfl shapeCasts_S100000x1_S100000,
    unary main_v88 main_v103 ((extractStridedSlice S100000x1 ![0, 3] · slices_S100000x4_S100000x1_0_3) : (⟨S100000x4, .f32⟩ : BufTy).Contents (Elt F) → (⟨S100000x1, .f32⟩ : BufTy).Contents (Elt F)),
    reshape main_v103 main_v104 rfl shapeCasts_S100000x1_S100000,
    nullary main_cst_22 (constant S_ .f32 0x3D1881A8#32),
    unary main_cst_22 main_v105 (broadcastInDim S100000 ![] bcast_S_S100000 : (⟨S_, .f32⟩ : BufTy).Contents (Elt F) → (⟨S100000, .f32⟩ : BufTy).Contents (Elt F)),
    binary main_v104 main_v105 main_v106 (Host.divf : (⟨S100000, .f32⟩ : BufTy).Contents (Elt F) → (⟨S100000, .f32⟩ : BufTy).Contents (Elt F) → (⟨S100000, .f32⟩ : BufTy).Contents (Elt F)),
    binary main_v92 main_v106 main_v107 (addf : (⟨S100000, .f32⟩ : BufTy).Contents (Elt F) → (⟨S100000, .f32⟩ : BufTy).Contents (Elt F) → (⟨S100000, .f32⟩ : BufTy).Contents (Elt F)),
    nullary main_cst_23 (constant S_ .f32 0xBB06EB2F#32),
    unary main_cst_23 main_v108 (broadcastInDim S100000 ![] bcast_S_S100000 : (⟨S_, .f32⟩ : BufTy).Contents (Elt F) → (⟨S100000, .f32⟩ : BufTy).Contents (Elt F)),
    binary main_v107 main_v108 main_v109 (mulf : (⟨S100000, .f32⟩ : BufTy).Contents (Elt F) → (⟨S100000, .f32⟩ : BufTy).Contents (Elt F) → (⟨S100000, .f32⟩ : BufTy).Contents (Elt F)),
    binary main_v104 main_v104 main_v110 (mulf : (⟨S100000, .f32⟩ : BufTy).Contents (Elt F) → (⟨S100000, .f32⟩ : BufTy).Contents (Elt F) → (⟨S100000, .f32⟩ : BufTy).Contents (Elt F)),
    binary main_v110 main_v100 main_v111 (mulf : (⟨S100000, .f32⟩ : BufTy).Contents (Elt F) → (⟨S100000, .f32⟩ : BufTy).Contents (Elt F) → (⟨S100000, .f32⟩ : BufTy).Contents (Elt F)),
    binary main_v90 main_v111 main_v112 (subf : (⟨S100000, .f32⟩ : BufTy).Contents (Elt F) → (⟨S100000, .f32⟩ : BufTy).Contents (Elt F) → (⟨S100000, .f32⟩ : BufTy).Contents (Elt F)),
    nullary main_cst_24 (constant S_ .f32 0x3C788362#32),
    unary main_cst_24 main_v113 (broadcastInDim S100000 ![] bcast_S_S100000 : (⟨S_, .f32⟩ : BufTy).Contents (Elt F) → (⟨S100000, .f32⟩ : BufTy).Contents (Elt F)),
    binary main_v112 main_v113 main_v114 (mulf : (⟨S100000, .f32⟩ : BufTy).Contents (Elt F) → (⟨S100000, .f32⟩ : BufTy).Contents (Elt F) → (⟨S100000, .f32⟩ : BufTy).Contents (Elt F)),
    binary main_v114 main_v102 main_v115 (subf : (⟨S100000, .f32⟩ : BufTy).Contents (Elt F) → (⟨S100000, .f32⟩ : BufTy).Contents (Elt F) → (⟨S100000, .f32⟩ : BufTy).Contents (Elt F)),
    nullary main_cst_25 (constant S_ .f32 0xBDD606C2#32),
    unary main_cst_25 main_v116 (broadcastInDim S100000 ![] bcast_S_S100000 : (⟨S_, .f32⟩ : BufTy).Contents (Elt F) → (⟨S100000, .f32⟩ : BufTy).Contents (Elt F)),
    binary main_v115 main_v116 main_v117 (mulf : (⟨S100000, .f32⟩ : BufTy).Contents (Elt F) → (⟨S100000, .f32⟩ : BufTy).Contents (Elt F) → (⟨S100000, .f32⟩ : BufTy).Contents (Elt F)),
    nullary main_cst_26 (constant S_ .f32 0x3CE4D0E4#32),
    unary main_cst_26 main_v118 (broadcastInDim S100000 ![] bcast_S_S100000 : (⟨S_, .f32⟩ : BufTy).Contents (Elt F) → (⟨S100000, .f32⟩ : BufTy).Contents (Elt F)),
    binary main_v92 main_v118 main_v119 (mulf : (⟨S100000, .f32⟩ : BufTy).Contents (Elt F) → (⟨S100000, .f32⟩ : BufTy).Contents (Elt F) → (⟨S100000, .f32⟩ : BufTy).Contents (Elt F)),
    binary main_v104 main_v119 main_v120 (subf : (⟨S100000, .f32⟩ : BufTy).Contents (Elt F) → (⟨S100000, .f32⟩ : BufTy).Contents (Elt F) → (⟨S100000, .f32⟩ : BufTy).Contents (Elt F)),
    binary main_v120 main_v102 main_v121 (addf : (⟨S100000, .f32⟩ : BufTy).Contents (Elt F) → (⟨S100000, .f32⟩ : BufTy).Contents (Elt F) → (⟨S100000, .f32⟩ : BufTy).Contents (Elt F)),
    nullary main_cst_27 (constant S_ .f32 0x3D9A24AD#32),
    unary main_cst_27 main_v122 (broadcastInDim S100000 ![] bcast_S_S100000 : (⟨S_, .f32⟩ : BufTy).Contents (Elt F) → (⟨S100000, .f32⟩ : BufTy).Contents (Elt F)),
    binary main_v121 main_v122 main_v123 (mulf : (⟨S100000, .f32⟩ : BufTy).Contents (Elt F) → (⟨S100000, .f32⟩ : BufTy).Contents (Elt F) → (⟨S100000, .f32⟩ : BufTy).Contents (Elt F)),
    binary main_v96 main_v96 main_v124 (mulf : (⟨S100000, .f32⟩ : BufTy).Contents (Elt F) → (⟨S100000, .f32⟩ : BufTy).Contents (Elt F) → (⟨S100000, .f32⟩ : BufTy).Contents (Elt F)),
    binary main_v124 main_v102 main_v125 (subf : (⟨S100000, .f32⟩ : BufTy).Contents (Elt F) → (⟨S100000, .f32⟩ : BufTy).Contents (Elt F) → (⟨S100000, .f32⟩ : BufTy).Contents (Elt F)),
    binary main_v125 main_v94 main_v126 (addf : (⟨S100000, .f32⟩ : BufTy).Contents (Elt F) → (⟨S100000, .f32⟩ : BufTy).Contents (Elt F) → (⟨S100000, .f32⟩ : BufTy).Contents (Elt F)),
    binary main_v126 main_v96 main_v127 (subf : (⟨S100000, .f32⟩ : BufTy).Contents (Elt F) → (⟨S100000, .f32⟩ : BufTy).Contents (Elt F) → (⟨S100000, .f32⟩ : BufTy).Contents (Elt F)),
    nullary main_cst_28 (constant S_ .f32 0xBEADB62B#32),
    unary main_cst_28 main_v128 (broadcastInDim S100000 ![] bcast_S_S100000 : (⟨S_, .f32⟩ : BufTy).Contents (Elt F) → (⟨S100000, .f32⟩ : BufTy).Contents (Elt F)),
    binary main_v104 main_v128 main_v129 (mulf : (⟨S100000, .f32⟩ : BufTy).Contents (Elt F) → (⟨S100000, .f32⟩ : BufTy).Contents (Elt F) → (⟨S100000, .f32⟩ : BufTy).Contents (Elt F)),
    binary main_v127 main_v129 main_v130 (addf : (⟨S100000, .f32⟩ : BufTy).Contents (Elt F) → (⟨S100000, .f32⟩ : BufTy).Contents (Elt F) → (⟨S100000, .f32⟩ : BufTy).Contents (Elt F)),
    nullary main_cst_29 (constant S_ .f32 0xBDAF3456#32),
    unary main_cst_29 main_v131 (broadcastInDim S100000 ![] bcast_S_S100000 : (⟨S_, .f32⟩ : BufTy).Contents (Elt F) → (⟨S100000, .f32⟩ : BufTy).Contents (Elt F)),
    binary main_v130 main_v131 main_v132 (mulf : (⟨S100000, .f32⟩ : BufTy).Contents (Elt F) → (⟨S100000, .f32⟩ : BufTy).Contents (Elt F) → (⟨S100000, .f32⟩ : BufTy).Contents (Elt F)),
    binary main_v109 main_v132 main_v133 (addf : (⟨S100000, .f32⟩ : BufTy).Contents (Elt F) → (⟨S100000, .f32⟩ : BufTy).Contents (Elt F) → (⟨S100000, .f32⟩ : BufTy).Contents (Elt F)),
    binary main_v133 main_v109 main_v134 (addf : (⟨S100000, .f32⟩ : BufTy).Contents (Elt F) → (⟨S100000, .f32⟩ : BufTy).Contents (Elt F) → (⟨S100000, .f32⟩ : BufTy).Contents (Elt F)),
    nullary main_cst_30 (constant S_ .f32 0xBE791B26#32),
    unary main_cst_30 main_v135 (broadcastInDim S100000 ![] bcast_S_S100000 : (⟨S_, .f32⟩ : BufTy).Contents (Elt F) → (⟨S100000, .f32⟩ : BufTy).Contents (Elt F)),
    binary main_v134 main_v135 main_v136 (mulf : (⟨S100000, .f32⟩ : BufTy).Contents (Elt F) → (⟨S100000, .f32⟩ : BufTy).Contents (Elt F) → (⟨S100000, .f32⟩ : BufTy).Contents (Elt F)),
    nullary main_cst_31 (constant S_ .f32 0x3F3AE9B4#32),
    unary main_cst_31 main_v137 (broadcastInDim S100000 ![] bcast_S_S100000 : (⟨S_, .f32⟩ : BufTy).Contents (Elt F) → (⟨S100000, .f32⟩ : BufTy).Contents (Elt F)),
    binary main_v117 main_v137 main_v138 (Host.divf : (⟨S100000, .f32⟩ : BufTy).Contents (Elt F) → (⟨S100000, .f32⟩ : BufTy).Contents (Elt F) → (⟨S100000, .f32⟩ : BufTy).Contents (Elt F)),
    binary main_v136 main_v138 main_v139 (subf : (⟨S100000, .f32⟩ : BufTy).Contents (Elt F) → (⟨S100000, .f32⟩ : BufTy).Contents (Elt F) → (⟨S100000, .f32⟩ : BufTy).Contents (Elt F)),
    nullary main_cst_32 (constant S_ .f32 0x3F8FCD96#32),
    unary main_cst_32 main_v140 (broadcastInDim S100000 ![] bcast_S_S100000 : (⟨S_, .f32⟩ : BufTy).Contents (Elt F) → (⟨S100000, .f32⟩ : BufTy).Contents (Elt F)),
    binary main_v123 main_v140 main_v141 (mulf : (⟨S100000, .f32⟩ : BufTy).Contents (Elt F) → (⟨S100000, .f32⟩ : BufTy).Contents (Elt F) → (⟨S100000, .f32⟩ : BufTy).Contents (Elt F)),
    binary main_v139 main_v141 main_v142 (subf : (⟨S100000, .f32⟩ : BufTy).Contents (Elt F) → (⟨S100000, .f32⟩ : BufTy).Contents (Elt F) → (⟨S100000, .f32⟩ : BufTy).Contents (Elt F)),
    binary main_v117 main_v109 main_v143 (addf : (⟨S100000, .f32⟩ : BufTy).Contents (Elt F) → (⟨S100000, .f32⟩ : BufTy).Contents (Elt F) → (⟨S100000, .f32⟩ : BufTy).Contents (Elt F)),
    binary main_v123 main_v143 main_v144 (subf : (⟨S100000, .f32⟩ : BufTy).Contents (Elt F) → (⟨S100000, .f32⟩ : BufTy).Contents (Elt F) → (⟨S100000, .f32⟩ : BufTy).Contents (Elt F)),
    binary main_v144 main_v132 main_v145 (addf : (⟨S100000, .f32⟩ : BufTy).Contents (Elt F) → (⟨S100000, .f32⟩ : BufTy).Contents (Elt F) → (⟨S100000, .f32⟩ : BufTy).Contents (Elt F)),
    unary main_v142 main_v146 (broadcastInDim S100000x1 ![0] bcast_S100000_S100000x1_0 : (⟨S100000, .f32⟩ : BufTy).Contents (Elt F) → (⟨S100000x1, .f32⟩ : BufTy).Contents (Elt F)),
    unary main_v145 main_v147 (broadcastInDim S100000x1 ![0] bcast_S100000_S100000x1_0 : (⟨S100000, .f32⟩ : BufTy).Contents (Elt F) → (⟨S100000x1, .f32⟩ : BufTy).Contents (Elt F)) ]

/-- stretch E2 of the operation list -/
abbrev opsE2 : List (HloOp τ sig (Elt F)) :=
  [ binary main_v146 main_v147 main_v148 ((fun a b => concatenate S100000x2 1 [⟨S100000x1, a⟩, ⟨S100000x1, b⟩] concatenates_S100000x1_S100000x1_S100000x2_d1) : (⟨S100000x1, .f32⟩ : BufTy).Contents (Elt F) → (⟨S100000x1, .f32⟩ : BufTy).Contents (Elt F) → (⟨S100000x2, .f32⟩ : BufTy).Contents (Elt F)) ]

set_option maxRecDepth 8192 in
set_option maxHeartbeats 4000000 in
/-- the operation list is its stretches, in order -/
theorem ops_split : (ValueP.ops (F := F)) = opsA ++ (opsB ++ (opsC ++ (opsD ++ (opsE1 ++ opsE2)))) := rfl

set_option maxRecDepth 8192 in
set_option maxHeartbeats 4000000 in
theorem A_main_v0 (W : Valuation τ sig (Elt F)) :
    after (opsA (F := F)) W (Proc.devRef .tc main_v0) = ReadP.val_main_v0 (F := F) (W (Proc.devRef .tc main_arg0)) (W (Proc.devRef .tc main_arg1)) := by
  after_results_simp <;> rfl

set_option maxRecDepth 8192 in
set_option maxHeartbeats 4000000 in
theorem A_main_v4 (W : Valuation τ sig (Elt F)) :
    after (opsA (F := F)) W (Proc.devRef .tc main_v4) = ReadP.val_main_v4 (F := F) (W (Proc.devRef .tc main_arg2)) := by
  after_results_simp <;> rfl

set_option maxRecDepth 8192 in
set_option maxHeartbeats 4000000 in
theorem A_main_v60 (W : Valuation τ sig (Elt F)) :
    after (opsA (F := F)) W (Proc.devRef .tc main_v60) = ReadP.val_main_v60 (F := F) (W (Proc.devRef .tc main_arg0)) (W (Proc.devRef .tc main_arg1)) (W (Proc.devRef .tc main_arg2)) := by
  after_results_simp <;> rfl

set_option maxRecDepth 8192 in
set_option maxHeartbeats 4000000 in
theorem A_main_v65 (W : Valuation τ sig (Elt F)) :
    after (opsA (F := F)) W (Proc.devRef .tc main_v65) = ReadP.val_main_v65 (F := F) (W (Proc.devRef .tc main_arg0)) (W (Proc.devRef .tc main_arg1)) (W (Proc.devRef .tc main_arg2)) := by
  after_results_simp <;> rfl

set_option maxRecDepth 8192 in
set_option maxHeartbeats 4000000 in
theorem A_main_cst_14 (W : Valuation τ sig (Elt F)) :
    after (opsA (F := F)) W (Proc.devRef .tc main_cst_14) = ReadP.val_main_cst_14 (F := F) := by
  after_results_simp <;> rfl

set_option maxRecDepth 8192 in
set_option maxHeartbeats 4000000 in
theorem B_main_v66 (W : Valuation τ sig (Elt F)) (x0 x1 : (⟨S100000x2, .f32⟩ : BufTy).Contents (Elt F)) (x2 : (⟨S2x6400000, .i32⟩ : BufTy).Contents (Elt F))
    (h_main_v65 : W (Proc.devRef .tc main_v65) = ReadP.val_main_v65 (F := F) x0 x1 x2)
    (h_main_cst_14 : W (Proc.devRef .tc main_cst_14) = ReadP.val_main_cst_14 (F := F))
    (h_main_v60 : W (Proc.devRef .tc main_v60) = ReadP.val_main_v60 (F := F) x0 x1 x2)
    : after (opsB (F := F)) W (Proc.devRef .tc main_v66) = ReadP.val_main_v66 (F := F) x0 x1 x2 := by
  after_results_simp
  all_goals (try simp only [TRef.ofBuf, TRef.toBuf, cast_eq])
  all_goals (try rw [h_main_v65])
  all_goals (try rw [h_main_cst_14])
  all_goals (try rw [h_main_v60])
  all_goals rfl

set_option maxRecDepth 8192 in
set_option maxHeartbeats 4000000 in
theorem B_keep_main_v0 (W : Valuation τ sig (Elt F)) : after (opsB (F := F)) W (Proc.devRef .tc main_v0) = W (Proc.devRef .tc main_v0) := by
  after_results_simp <;> rfl

set_option maxRecDepth 8192 in
set_option maxHeartbeats 4000000 in
theorem B_keep_main_v4 (W : Valuation τ sig (Elt F)) : after (opsB (F := F)) W (Proc.devRef .tc main_v4) = W (Proc.devRef .tc main_v4) := by
  after_results_simp <;> rfl

set_option maxRecDepth 8192 in
set_option maxHeartbeats 4000000 in
theorem C_main_v71 (W : Valuation τ sig (Elt F)) (x0 x1 : (⟨S100000x2, .f32⟩ : BufTy).Contents (Elt F)) (x2 : (⟨S2x6400000, .i32⟩ : BufTy).Contents (Elt F))
    (h_main_v66 : W (Proc.devRef .tc main_v66) = ReadP.val_main_v66 (F := F) x0 x1 x2)
    (h_main_v4 : W (Proc.devRef .tc main_v4) = ReadP.val_main_v4 (F := F) x2)
    : after (opsC (F := F)) W (Proc.devRef .tc main_v71) = ReadP.val_main_v71 (F := F) x0 x1 x2 := by
  after_results_simp
  all_goals (try simp only [TRef.ofBuf, TRef.toBuf, cast_eq])
  all_goals (try rw [h_main_v66])
  all_goals (try rw [h_main_v4])
  all_goals rfl

set_option maxRecDepth 8192 in
set_option maxHeartbeats 4000000 in
theorem C_main_v81 (W : Valuation τ sig (Elt F)) (x0 x1 : (⟨S100000x2, .f32⟩ : BufTy).Contents (Elt F)) (x2 : (⟨S2x6400000, .i32⟩ : BufTy).Contents (Elt F))
    (h_main_v66 : W (Proc.devRef .tc main_v66) = ReadP.val_main_v66 (F := F) x0 x1 x2)
    (h_main_v4 : W (Proc.devRef .tc main_v4) = ReadP.val_main_v4 (F := F) x2)
    : after (opsC (F := F)) W (Proc.devRef .tc main_v81) = ReadP.val_main_v81 (F := F) x2 := by
  after_results_simp
  all_goals (try simp only [TRef.ofBuf, TRef.toBuf, cast_eq])
  all_goals (try rw [h_main_v66])
  all_goals (try rw [h_main_v4])
  all_goals rfl

set_option maxRecDepth 8192 in
set_option maxHeartbeats 4000000 in
theorem C_main_v86 (W : Valuation τ sig (Elt F)) (x0 x1 : (⟨S100000x2, .f32⟩ : BufTy).Contents (Elt F)) (x2 : (⟨S2x6400000, .i32⟩ : BufTy).Contents (Elt F))
    (h_main_v66 : W (Proc.devRef .tc main_v66) = ReadP.val_main_v66 (F := F) x0 x1 x2)
    (h_main_v4 : W (Proc.devRef .tc main_v4) = ReadP.val_main_v4 (F := F) x2)
    : after (opsC (F := F)) W (Proc.devRef .tc main_v86) = ReadP.val_main_v86 (F := F) x0 x1 x2 := by
  after_results_simp
  all_goals (try simp only [TRef.ofBuf, TRef.toBuf, cast_eq])
  all_goals (try rw [h_main_v66])
  all_goals (try rw [h_main_v4])
  all_goals rfl

set_option maxRecDepth 8192 in
set_option maxHeartbeats 4000000 in
theorem C_main_cst_21 (W : Valuation τ sig (Elt F)) (x0 x1 : (⟨S100000x2, .f32⟩ : BufTy).Contents (Elt F)) (x2 : (⟨S2x6400000, .i32⟩ : BufTy).Contents (Elt F))
    (h_main_v66 : W (Proc.devRef .tc main_v66) = ReadP.val_main_v66 (F := F) x0 x1 x2)
    (h_main_v4 : W (Proc.devRef .tc main_v4) = ReadP.val_main_v4 (F := F) x2)
    : after (opsC (F := F)) W (Proc.devRef .tc main_cst_21) = ReadP.val_main_cst_21 (F := F) := by
  after_results_simp
  all_goals (try simp only [TRef.ofBuf, TRef.toBuf, cast_eq])
  all_goals (try rw [h_main_v66])
  all_goals (try rw [h_main_v4])
  all_goals rfl

set_option maxRecDepth 8192 in
set_option maxHeartbeats 4000000 in
theorem C_keep_main_v0 (W : Valuation τ sig (Elt F)) : after (opsC (F := F)) W (Proc.devRef .tc main_v0) = W (Proc.devRef .tc main_v0) := by
  after_results_simp <;> rfl

set_option maxRecDepth 8192 in
set_option maxHeartbeats 4000000 in
theorem D_main_v87 (W : Valuation τ sig (Elt F)) (x0 x1 : (⟨S100000x2, .f32⟩ : BufTy).Contents (Elt F)) (x2 : (⟨S2x6400000, .i32⟩ : BufTy).Contents (Elt F))
    (h_main_v81 : W (Proc.devRef .tc main_v81) = ReadP.val_main_v81 (F := F) x2)
    (h_main_v86 : W (Proc.devRef .tc main_v86) = ReadP.val_main_v86 (F := F) x0 x1 x2)
    (h_main_cst_21 : W (Proc.devRef .tc main_cst_21) = ReadP.val_main_cst_21 (F := F))
    : after (opsD (F := F)) W (Proc.devRef .tc main_v87) = ReadP.val_main_v87 (F := F) x0 x1 x2 := by
  after_results_simp
  all_goals (try simp only [TRef.ofBuf, TRef.toBuf, cast_eq])
  all_goals (try rw [h_main_v81])
  all_goals (try rw [h_main_v86])
  all_goals (try rw [h_main_cst_21])
  all_goals rfl

set_option maxRecDepth 8192 in
set_option maxHeartbeats 4000000 in
theorem D_keep_main_v0 (W : Valuation τ sig (Elt F)) : after (opsD (F := F)) W (Proc.devRef .tc main_v0) = W (Proc.devRef .tc main_v0) := by
  after_results_simp <;> rfl

set_option maxRecDepth 8192 in
set_option maxHeartbeats 4000000 in
theorem D_keep_main_v71 (W : Valuation τ sig (Elt F)) : after (opsD (F := F)) W (Proc.devRef .tc main_v71) = W (Proc.devRef .tc main_v71) := by
  after_results_simp <;> rfl

set_option maxRecDepth 8192 in
set_option maxHeartbeats 4000000 in
theorem E1_main_v146 (W : Valuation τ sig (Elt F)) (x0 x1 : (⟨S100000x2, .f32⟩ : BufTy).Contents (Elt F)) (x2 : (⟨S2x6400000, .i32⟩ : BufTy).Contents (Elt F))
    (h_main_v71 : W (Proc.devRef .tc main_v71) = ReadP.val_main_v71 (F := F) x0 x1 x2)
    (h_main_v87 : W (Proc.devRef .tc main_v87) = ReadP.val_main_v87 (F := F) x0 x1 x2)
    (h_main_v0 : W (Proc.devRef .tc main_v0) = ReadP.val_main_v0 (F := F) x0 x1)
    : after (opsE1 (F := F)) W (Proc.devRef .tc main_v146) = ReadP.val_main_v146 (F := F) x0 x1 x2 := by
  after_results_simp
  all_goals (try simp only [TRef.ofBuf, TRef.toBuf, cast_eq])
  all_goals (try rw [h_main_v71])
  all_goals (try rw [h_main_v87])
  all_goals (try rw [h_main_v0])
  all_goals rfl

set_option maxRecDepth 8192 in
set_option maxHeartbeats 4000000 in
theorem E1_main_v147 (W : Valuation τ sig (Elt F)) (x0 x1 : (⟨S100000x2, .f32⟩ : BufTy).Contents (Elt F)) (x2 : (⟨S2x6400000, .i32⟩ : BufTy).Contents (Elt F))
    (h_main_v71 : W (Proc.devRef .tc main_v71) = ReadP.val_main_v71 (F := F) x0 x1 x2)
    (h_main_v87 : W (Proc.devRef .tc main_v87) = ReadP.val_main_v87 (F := F) x0 x1 x2)
    (h_main_v0 : W (Proc.devRef .tc main_v0) = ReadP.val_main_v0 (F := F) x0 x1)
    : after (opsE1 (F := F)) W (Proc.devRef .tc main_v147) = ReadP.val_main_v147 (F := F) x0 x1 x2 := by
  after_results_simp
  all_goals (try simp only [TRef.ofBuf, TRef.toBuf, cast_eq])
  all_goals (try rw [h_main_v71])
  all_goals (try rw [h_main_v87])
  all_goals (try rw [h_main_v0])
  all_goals rfl

set_option maxRecDepth 8192 in
set_option maxHeartbeats 4000000 in
theorem E2_main_v148 (W : Valuation τ sig (Elt F)) (x0 x1 : (⟨S100000x2, .f32⟩ : BufTy).Contents (Elt F)) (x2 : (⟨S2x6400000, .i32⟩ : BufTy).Contents (Elt F))
    (h_main_v146 : W (Proc.devRef .tc main_v146) = ReadP.val_main_v146 (F := F) x0 x1 x2)
    (h_main_v147 : W (Proc.devRef .tc main_v147) = ReadP.val_main_v147 (F := F) x0 x1 x2)
    : after (opsE2 (F := F)) W (Proc.devRef .tc main_v148) = ReadP.val_main_v148 (F := F) x0 x1 x2 := by
  after_results_simp
  all_goals (try simp only [TRef.ofBuf, TRef.toBuf, cast_eq])
  all_goals (try rw [h_main_v146])
  all_goals (try rw [h_main_v147])
  all_goals rfl

end Cert.ReferenceIdeal.RVal

end
-- ==== Proof.RefMsg.lean ====
/-
  The reference's first half: its [6400000, 4] array of masked messages is, entry by entry, the message of Spec.lean.

  Row e of the feature table gathered by the target (source) word of edge e is the four features of that edge's target
  (source) node: in range, the wrap of negative words is the identity and the clamp of the row gather does nothing. The
  four raw channels are the affine-bilinear expressions of the endpoints' positions, term for term. The mask is the AND
  over the four columns of "target feature minus source feature is zero"; the features are real numbers, so a zero
  difference is equality, and the mask says exactly that the two endpoints carry the same four features.
-/
import proofs.«423533_j53644141527383_1_alg».proof.Proof.RefRead
import proofs.«423533_j53644141527383_1_alg».proof.Proof.Spec
import Idealize.ShloMosaic.Lib.ReduceAll
import Idealize.ShloMosaic.PureOps.Reduce
import Idealize.ShloMosaic.PureOps.Ideal.Laws
import Idealize.ShloMosaic.Lib.Affine
import Idealize.ShloMosaic.Lib.ValueIdx
import Idealize.ShloMosaic.Lib.Pipeline.Value

noncomputable section

namespace Cert.ReferenceIdeal.RVal

open Cert.ReferenceIdeal Cert.ReferenceIdeal.Gen Idealize.ShloMosaic Idealize.ShloMosaic.TcCoe Idealize.SL.Sem Idealize.ShloMosaic.StableHlo
open Idealize.ShloMosaic.ValueIdx Cert.Flock

variable (P V : Cert.Flock.SN2.Idx → EReal) (ei : IVec Cert.Flock.SEI 32)

/-! ### The feature table: column k of row n of [pos | vel] is feature k of node n -/

theorem v0_apply (n : Fin 100000) (k : Fin 4) :
    ReadP.val_main_v0 (F := Ideal) P V (ix2 n k) = feat P V n k := by
  unfold ReadP.val_main_v0
  match k with
  | ⟨0, _⟩ =>
    show concatenate S100000x4 1 [⟨S100000x2, P⟩, ⟨S100000x2, V⟩] concatenates_S100000x2_S100000x2_S100000x4_d1 (ix2 n (0 : Fin 4)) = P (ix2 n (0 : Fin 2))
    exact concatenate_pair_apply_left (t := S100000x4) (s₁ := S100000x2) (s₂ := S100000x2) 1 P V _ _ (by rfl) (ix2 n (0 : Fin 2)) (fun b => match b with | ⟨0, _⟩ => rfl | ⟨1, _⟩ => rfl)
  | ⟨1, _⟩ =>
    show concatenate S100000x4 1 [⟨S100000x2, P⟩, ⟨S100000x2, V⟩] concatenates_S100000x2_S100000x2_S100000x4_d1 (ix2 n (1 : Fin 4)) = P (ix2 n (1 : Fin 2))
    exact concatenate_pair_apply_left (t := S100000x4) (s₁ := S100000x2) (s₂ := S100000x2) 1 P V _ _ (by rfl) (ix2 n (1 : Fin 2)) (fun b => match b with | ⟨0, _⟩ => rfl | ⟨1, _⟩ => rfl)
  | ⟨2, _⟩ =>
    show concatenate S100000x4 1 [⟨S100000x2, P⟩, ⟨S100000x2, V⟩] concatenates_S100000x2_S100000x2_S100000x4_d1 (ix2 n (2 : Fin 4)) = V (ix2 n (0 : Fin 2))
    exact concatenate_pair_apply_right (t := S100000x4) (s₁ := S100000x2) (s₂ := S100000x2) 1 P V _ _ (by rfl) (by rfl) (ix2 n (0 : Fin 2))
      (fun b hb => match b, hb with | ⟨0, _⟩, _ => rfl | ⟨1, _⟩, hb => (hb (Fin.ext rfl)).elim) rfl
  | ⟨3, _⟩ =>
    show concatenate S100000x4 1 [⟨S100000x2, P⟩, ⟨S100000x2, V⟩] concatenates_S100000x2_S100000x2_S100000x4_d1 (ix2 n (3 : Fin 4)) = V (ix2 n (1 : Fin 2))
    exact concatenate_pair_apply_right (t := S100000x4) (s₁ := S100000x2) (s₂ := S100000x2) 1 P V _ _ (by rfl) (by rfl) (ix2 n (1 : Fin 2))
      (fun b hb => match b, hb with | ⟨0, _⟩, _ => rfl | ⟨1, _⟩, hb => (hb (Fin.ext rfl)).elim) rfl

/-! ### The index words: rows 1 and 0 of the edge list, unchanged by the wrap of negatives when in range -/

theorem v4_apply (e : Fin 6400000) : ReadP.val_main_v4 (F := Ideal) ei (ix1 e) = ei (ix2 (1 : Fin 2) e) := by
  rw [ReadP.val_main_v4_apply, ReadP.val_main_v3_apply]
  congr 1
  funext a; match a with
  | ⟨0, _⟩ => rfl
  | ⟨1, _⟩ => exact Fin.ext (Nat.mod_eq_of_lt e.isLt)

theorem v2_apply (e : Fin 6400000) : ReadP.val_main_v2 (F := Ideal) ei (ix1 e) = ei (ix2 (0 : Fin 2) e) := by
  rw [ReadP.val_main_v2_apply, ReadP.val_main_v1_apply]
  congr 1
  funext a; match a with
  | ⟨0, _⟩ => rfl
  | ⟨1, _⟩ => exact Fin.ext (Nat.mod_eq_of_lt e.isLt)

/-- A word that is not negative is not wrapped. -/
theorem wrap_id (w : BitVec 32) (h0 : 0 ≤ w.toInt) :
    Scalar.select (IntOp.cmpi .slt w 0#32) (IntOp.addi w 100000#32) w = w := by
  have hne : ¬ IntOp.cmpi .slt w 0#32 = 1#1 := by
    rw [IntOp.cmpi_slt]; simp only [BitVec.toInt_zero]; omega
  rw [eq_zero_of_ne_one hne, select_zero]

theorem v9_apply (hin : InRange ei) (e : Fin 6400000) :
    ReadP.val_main_v9 (F := Ideal) ei (ix1 e) = ei (ix2 (1 : Fin 2) e) := by
  rw [ReadP.val_main_v9_apply, ReadP.val_main_v6_apply, ReadP.val_main_v8_apply, v4_apply, ReadP.val_main_v5_apply,
    ReadP.val_main_c_apply, ReadP.val_main_v7_apply, ReadP.val_main_c_0_apply]
  exact wrap_id _ (hin _).1

theorem v16_apply (hin : InRange ei) (e : Fin 6400000) :
    ReadP.val_main_v16 (F := Ideal) ei (ix1 e) = ei (ix2 (0 : Fin 2) e) := by
  rw [ReadP.val_main_v16_apply, ReadP.val_main_v13_apply, ReadP.val_main_v15_apply, v2_apply, ReadP.val_main_v12_apply,
    ReadP.val_main_c_1_apply, ReadP.val_main_v14_apply, ReadP.val_main_c_2_apply]
  exact wrap_id _ (hin _).1

theorem v10_apply (hin : InRange ei) (e : Fin 6400000) :
    ReadP.val_main_v10 (F := Ideal) ei (ix2 e (0 : Fin 1)) = ei (ix2 (1 : Fin 2) e) := by
  rw [ReadP.val_main_v10_apply]
  exact v9_apply ei hin e

theorem v17_apply (hin : InRange ei) (e : Fin 6400000) :
    ReadP.val_main_v17 (F := Ideal) ei (ix2 e (0 : Fin 1)) = ei (ix2 (0 : Fin 2) e) := by
  rw [ReadP.val_main_v17_apply]
  exact v16_apply ei hin e

/-! ### The gathered rows: the features of each edge's target and source -/

/-- The row gather reads row clamp(word), column k. -/
abbrev GatherRows : Prop :=
  ∀ (x : Cert.Flock.SN4.Idx → EReal) (idx : IVec Cert.Flock.SE1 32) (e : Fin 6400000) (k : Fin 4),
    Host.gather gather_S100000x4_S6400000x1_S6400000x4_1_0_n_n_0_1_14 x idx (ix2 e k)
      = x (ix2 (nodeOf (idx (ix2 e (0 : Fin 1)))) k)

theorem v11_apply (hin : InRange ei) (hg : GatherRows) (e : Fin 6400000) (k : Fin 4) :
    ReadP.val_main_v11 (F := Ideal) P V ei (ix2 e k) = feat P V (dstOf ei e) k := by
  unfold ReadP.val_main_v11
  refine (hg _ _ e k).trans ?_
  rw [v10_apply ei hin e, v0_apply]
  rfl

theorem v18_apply (hin : InRange ei) (hg : GatherRows) (e : Fin 6400000) (k : Fin 4) :
    ReadP.val_main_v18 (F := Ideal) P V ei (ix2 e k) = feat P V (srcOf ei e) k := by
  unfold ReadP.val_main_v18
  refine (hg _ _ e k).trans ?_
  rw [v17_apply ei hin e, v0_apply]
  rfl

theorem v20_apply (hin : InRange ei) (hg : GatherRows) (e : Fin 6400000) :
    ReadP.val_main_v20 (F := Ideal) P V ei (ix1 e) = feat P V (dstOf ei e) 0 := by
  rw [ReadP.val_main_v20_apply, ReadP.val_main_v19_apply]
  have hi : ReadP.idx_main_v19 (ReadP.idx_main_v20 (ix1 e)) = ix2 e (0 : Fin 4) := by
    funext a; match a with
    | ⟨0, _⟩ => exact Fin.ext (Nat.div_one _)
    | ⟨1, _⟩ => rfl
  rw [hi]; exact v11_apply P V ei hin hg e 0

theorem v22_apply (hin : InRange ei) (hg : GatherRows) (e : Fin 6400000) :
    ReadP.val_main_v22 (F := Ideal) P V ei (ix1 e) = feat P V (dstOf ei e) 1 := by
  rw [ReadP.val_main_v22_apply, ReadP.val_main_v21_apply]
  have hi : ReadP.idx_main_v21 (ReadP.idx_main_v22 (ix1 e)) = ix2 e (1 : Fin 4) := by
    funext a; match a with
    | ⟨0, _⟩ => exact Fin.ext (Nat.div_one _)
    | ⟨1, _⟩ => rfl
  rw [hi]; exact v11_apply P V ei hin hg e 1

theorem v24_apply (hin : InRange ei) (hg : GatherRows) (e : Fin 6400000) :
    ReadP.val_main_v24 (F := Ideal) P V ei (ix1 e) = feat P V (srcOf ei e) 0 := by
  rw [ReadP.val_main_v24_apply, ReadP.val_main_v23_apply]
  have hi : ReadP.idx_main_v23 (ReadP.idx_main_v24 (ix1 e)) = ix2 e (0 : Fin 4) := by
    funext a; match a with
    | ⟨0, _⟩ => exact Fin.ext (Nat.div_one _)
    | ⟨1, _⟩ => rfl
  rw [hi]; exact v18_apply P V ei hin hg e 0

theorem v26_apply (hin : InRange ei) (hg : GatherRows) (e : Fin 6400000) :
    ReadP.val_main_v26 (F := Ideal) P V ei (ix1 e) = feat P V (srcOf ei e) 1 := by
  rw [ReadP.val_main_v26_apply, ReadP.val_main_v25_apply]
  have hi : ReadP.idx_main_v25 (ReadP.idx_main_v26 (ix1 e)) = ix2 e (1 : Fin 4) := by
    funext a; match a with
    | ⟨0, _⟩ => exact Fin.ext (Nat.div_one _)
    | ⟨1, _⟩ => rfl
  rw [hi]; exact v18_apply P V ei hin hg e 1

/-! ### The four raw channels of an edge -/

/-- The raw message of edge e from its endpoints' positions, channel k. -/
abbrev rawAt (e : Fin 6400000) (k : Fin 4) : EReal :=
  mraw (feat P V (dstOf ei e) 0) (feat P V (dstOf ei e) 1) (feat P V (srcOf ei e) 0) (feat P V (srcOf ei e) 1) k

theorem v33_apply (hin : InRange ei) (hg : GatherRows) (e : Fin 6400000) :
    ReadP.val_main_v33 (F := Ideal) P V ei (ix1 e) = rawAt P V ei e 0 := by
  rw [ReadP.val_main_v33_apply, ReadP.val_main_v31_apply, ReadP.val_main_v27_apply, ReadP.val_main_v30_apply,
    ReadP.val_main_v28_apply, ReadP.val_main_v29_apply, ReadP.val_main_cst_apply, ReadP.val_main_v32_apply,
    ReadP.val_main_cst_3_apply, v20_apply P V ei hin hg, v22_apply P V ei hin hg, v24_apply P V ei hin hg,
    v26_apply P V ei hin hg]
  rfl

theorem v39_apply (hin : InRange ei) (hg : GatherRows) (e : Fin 6400000) :
    ReadP.val_main_v39 (F := Ideal) P V ei (ix1 e) = rawAt P V ei e 1 := by
  rw [ReadP.val_main_v39_apply, ReadP.val_main_v37_apply, ReadP.val_main_v27_apply, ReadP.val_main_v36_apply,
    ReadP.val_main_v34_apply, ReadP.val_main_v35_apply, ReadP.val_main_cst_4_apply, ReadP.val_main_v38_apply,
    ReadP.val_main_cst_5_apply, v20_apply P V ei hin hg, v22_apply P V ei hin hg, v24_apply P V ei hin hg,
    v26_apply P V ei hin hg]
  rfl

theorem v44_apply (hin : InRange ei) (hg : GatherRows) (e : Fin 6400000) :
    ReadP.val_main_v44 (F := Ideal) P V ei (ix1 e) = rawAt P V ei e 2 := by
  rw [ReadP.val_main_v44_apply, ReadP.val_main_v42_apply, ReadP.val_main_v41_apply, ReadP.val_main_v27_apply,
    ReadP.val_main_v40_apply, ReadP.val_main_cst_6_apply, ReadP.val_main_v43_apply, ReadP.val_main_cst_7_apply,
    v20_apply P V ei hin hg, v22_apply P V ei hin hg, v24_apply P V ei hin hg]
  rfl

theorem v55_apply (hin : InRange ei) (hg : GatherRows) (e : Fin 6400000) :
    ReadP.val_main_v55 (F := Ideal) P V ei (ix1 e) = rawAt P V ei e 3 := by
  rw [ReadP.val_main_v55_apply, ReadP.val_main_v53_apply, ReadP.val_main_v50_apply, ReadP.val_main_v47_apply,
    ReadP.val_main_v46_apply, ReadP.val_main_v49_apply, ReadP.val_main_v52_apply, ReadP.val_main_v45_apply,
    ReadP.val_main_cst_8_apply, ReadP.val_main_v48_apply, ReadP.val_main_cst_9_apply, ReadP.val_main_v51_apply,
    ReadP.val_main_cst_10_apply, ReadP.val_main_v54_apply, ReadP.val_main_cst_11_apply,
    v20_apply P V ei hin hg, v22_apply P V ei hin hg, v24_apply P V ei hin hg, v26_apply P V ei hin hg]
  rfl

/-- Column k of four one-column arrays joined side by side is the k-th of them. -/
theorem concat4_apply (a b c d : S6400000x1.Idx → EReal)
    (h : Shape.Concatenates [S6400000x1, S6400000x1, S6400000x1, S6400000x1] S6400000x4 1) (e : Fin 6400000) (k : Fin 4) :
    concatenate S6400000x4 1 [⟨S6400000x1, a⟩, ⟨S6400000x1, b⟩, ⟨S6400000x1, c⟩, ⟨S6400000x1, d⟩] h (ix2 e k)
      = (match k with | ⟨0, _⟩ => a | ⟨1, _⟩ => b | ⟨2, _⟩ => c | ⟨3, _⟩ => d) (ix2 e (0 : Fin 1)) := by
  have hoff : ∀ (K : Fin 4) (bb : Fin S6400000x1.rank), bb.cast (by rfl : S6400000x1.rank = S6400000x4.rank) ≠ (1 : Fin S6400000x4.rank) →
      ((ix2 e (0 : Fin 1) : S6400000x1.Idx) bb).val = ((ix2 e K : S6400000x4.Idx) (bb.cast (by rfl))).val := by
    intro K bb hb
    match bb, hb with
    | ⟨0, _⟩, _ => rfl
    | ⟨1, _⟩, hb => exact (hb (Fin.ext rfl)).elim
  match k with
  | ⟨0, _⟩ =>
    exact concatenate_apply_piece (t := S6400000x4) 1 [⟨S6400000x1, a⟩, ⟨S6400000x1, b⟩, ⟨S6400000x1, c⟩, ⟨S6400000x1, d⟩] h
      (ix2 e (0 : Fin 4)) 0 (by show _ < 4; omega) S6400000x1 a (by rfl) (by rfl) 0 (by rfl) (ix2 e (0 : Fin 1)) (hoff 0) (by rfl)
  | ⟨1, _⟩ =>
    exact concatenate_apply_piece (t := S6400000x4) 1 [⟨S6400000x1, a⟩, ⟨S6400000x1, b⟩, ⟨S6400000x1, c⟩, ⟨S6400000x1, d⟩] h
      (ix2 e (1 : Fin 4)) 1 (by show _ < 4; omega) S6400000x1 b (by rfl) (by rfl) 1 (by rfl) (ix2 e (0 : Fin 1)) (hoff 1) (by rfl)
  | ⟨2, _⟩ =>
    exact concatenate_apply_piece (t := S6400000x4) 1 [⟨S6400000x1, a⟩, ⟨S6400000x1, b⟩, ⟨S6400000x1, c⟩, ⟨S6400000x1, d⟩] h
      (ix2 e (2 : Fin 4)) 2 (by show _ < 4; omega) S6400000x1 c (by rfl) (by rfl) 2 (by rfl) (ix2 e (0 : Fin 1)) (hoff 2) (by rfl)
  | ⟨3, _⟩ =>
    exact concatenate_apply_piece (t := S6400000x4) 1 [⟨S6400000x1, a⟩, ⟨S6400000x1, b⟩, ⟨S6400000x1, c⟩, ⟨S6400000x1, d⟩] h
      (ix2 e (3 : Fin 4)) 3 (by show _ < 4; omega) S6400000x1 d (by rfl) (by rfl) 3 (by rfl) (ix2 e (0 : Fin 1)) (hoff 3) (by rfl)

theorem v60_apply (hin : InRange ei) (hg : GatherRows) (e : Fin 6400000) (k : Fin 4) :
    ReadP.val_main_v60 (F := Ideal) P V ei (ix2 e k) = rawAt P V ei e k := by
  unfold ReadP.val_main_v60
  refine (concat4_apply _ _ _ _ _ e k).trans ?_
  match k with
  | ⟨0, _⟩ =>
    show ReadP.val_main_v56 (F := Ideal) P V ei (ix2 e (0 : Fin 1)) = rawAt P V ei e 0
    rw [ReadP.val_main_v56_apply]; exact v33_apply P V ei hin hg e
  | ⟨1, _⟩ =>
    show ReadP.val_main_v57 (F := Ideal) P V ei (ix2 e (0 : Fin 1)) = rawAt P V ei e 1
    rw [ReadP.val_main_v57_apply]; exact v39_apply P V ei hin hg e
  | ⟨2, _⟩ =>
    show ReadP.val_main_v58 (F := Ideal) P V ei (ix2 e (0 : Fin 1)) = rawAt P V ei e 2
    rw [ReadP.val_main_v58_apply]; exact v44_apply P V ei hin hg e
  | ⟨3, _⟩ =>
    show ReadP.val_main_v59 (F := Ideal) P V ei (ix2 e (0 : Fin 1)) = rawAt P V ei e 3
    rw [ReadP.val_main_v59_apply]; exact v55_apply P V ei hin hg e

/-! ### The mask: the AND over the four columns of "the difference is zero" -/

theorem feat_real (hP : Finite P) (hV : Finite V) (n : Fin 100000) (k : Fin 4) :
    feat P V n k ≠ ⊤ ∧ feat P V n k ≠ ⊥ := by
  match k with
  | ⟨0, _⟩ => exact hP _
  | ⟨1, _⟩ => exact hP _
  | ⟨2, _⟩ => exact hV _
  | ⟨3, _⟩ => exact hV _

/-- Two reals differ by zero exactly when they are equal. -/
theorem sub_eq_zero_iff_of_real {x y : EReal} (hx : x ≠ ⊤ ∧ x ≠ ⊥) (hy : y ≠ ⊤ ∧ y ≠ ⊥) : x - y = 0 ↔ x = y := by
  lift x to ℝ using hx
  lift y to ℝ using hy
  rw [← EReal.coe_sub, EReal.coe_eq_zero, EReal.coe_eq_coe_iff, sub_eq_zero]

theorem ofBool_eq_one_iff (b : Bool) : BitVec.ofBool b = 1#1 ↔ b = true := by cases b <;> decide

theorem v63_eq_one_iff (hP : Finite P) (hV : Finite V) (hin : InRange ei) (hg : GatherRows) (e : Fin 6400000) (k : Fin 4) :
    ReadP.val_main_v63 (F := Ideal) P V ei (ix2 e k) = 1#1 ↔ feat P V (dstOf ei e) k = feat P V (srcOf ei e) k := by
  rw [ReadP.val_main_v63_apply, ReadP.val_main_v61_apply, ReadP.val_main_v62_apply, ReadP.val_main_cst_12_apply,
    v11_apply P V ei hin hg, v18_apply P V ei hin hg]
  show Ideal.cmp .oeq (feat P V (dstOf ei e) k - feat P V (srcOf ei e) k) (Ideal.ofBits .f32 0x00000000#32) = 1#1 ↔ _
  rw [Ideal.ofBits_zero_f32]
  unfold Ideal.cmp
  rw [ofBool_eq_one_iff, decide_eq_true_eq]
  exact sub_eq_zero_iff_of_real (feat_real P V hP hV _ k) (feat_real P V hP hV _ k)

theorem reduces_cols : S6400000x4.Reduces [1] S6400000 := by decide

/-- Result index e with column k put back on the reduced axis is the index (e, k). -/
theorem lift_cols (e : Fin 6400000) (k : Fin 4) : reduces_cols.lift (ix1 e) k = ix2 e k := by
  funext a
  match a with
  | ⟨0, _⟩ => exact Fin.ext rfl
  | ⟨1, _⟩ => exact Fin.ext rfl

theorem v64_eq_one_iff (e : Fin 6400000) :
    ReadP.val_main_v64 (F := Ideal) P V ei (ix1 e) = 1#1
      ↔ ∀ k : Fin 4, ReadP.val_main_v63 (F := Ideal) P V ei (ix2 e k) = 1#1 := by
  unfold ReadP.val_main_v64
  rw [Host.reduce_eq_fold_single IntOp.andi _ _ reducesTo_S6400000x4_S6400000_d1 reduces_cols h_S_ (ix1 e)]
  refine (Finset.fold_op_rel_iff_and (r := fun _ y => y = 1#1) (c := 0#1) (fun {x y z} => IntOp.andi_eq_one)).trans ?_
  constructor
  · intro h k
    exact (congrArg (fun i => ReadP.val_main_v63 (F := Ideal) P V ei i = 1#1) (lift_cols e k)).mp
      (h.2 k (Finset.mem_univ _))
  · intro h
    refine ⟨rfl, fun k _ => ?_⟩
    exact (congrArg (fun i => ReadP.val_main_v63 (F := Ideal) P V ei i = 1#1) (lift_cols e k)).mpr (h k)

/-! ### The masked message: zero where the endpoints carry the same four features, else the raw channels -/

theorem v66_apply (hP : Finite P) (hV : Finite V) (hin : InRange ei) (hg : GatherRows) (e : Fin 6400000) (k : Fin 4) :
    ReadP.val_main_v66 (F := Ideal) P V ei (ix2 e k) = edgeMsg P V ei k e := by
  rw [ReadP.val_main_v66_apply, ReadP.val_main_call0_v1_apply, ReadP.val_main_v65_apply,
    ReadP.val_main_call0_v2_apply, ReadP.val_main_call0_v0_apply, ReadP.val_main_cst_14_apply,
    v60_apply P V ei hin hg]
  have hi : ReadP.idx_main_v65 (ReadP.idx_main_call0_v1 (ix2 e k)) = ix1 e := by
    funext a; match a with | ⟨0, _⟩ => rfl
  rw [hi]
  show Scalar.select _ (Ideal.ofBits .f32 0x00000000#32) _ = _
  rw [Ideal.ofBits_zero_f32]
  unfold edgeMsg msg
  by_cases hall : ∀ k : Fin 4, feat P V (dstOf ei e) k = feat P V (srcOf ei e) k
  · have hm : ReadP.val_main_v64 (F := Ideal) P V ei (ix1 e) = 1#1 :=
      (v64_eq_one_iff P V ei e).2 (fun k => (v63_eq_one_iff P V ei hP hV hin hg e k).2 (hall k))
    rw [hm, select_one, if_pos ⟨hall 0, hall 1, hall 2, hall 3⟩]
  · have hm : ¬ ReadP.val_main_v64 (F := Ideal) P V ei (ix1 e) = 1#1 := fun h =>
      hall (fun k => (v63_eq_one_iff P V ei hP hV hin hg e k).1 ((v64_eq_one_iff P V ei e).1 h k))
    have hneg : ¬ (feat P V (dstOf ei e) 0 = feat P V (srcOf ei e) 0 ∧ feat P V (dstOf ei e) 1 = feat P V (srcOf ei e) 1
        ∧ feat P V (dstOf ei e) 2 = feat P V (srcOf ei e) 2 ∧ feat P V (dstOf ei e) 3 = feat P V (srcOf ei e) 3) := by
      intro ⟨h0, h1, h2, h3⟩
      exact hall (fun k => match k with | ⟨0, _⟩ => h0 | ⟨1, _⟩ => h1 | ⟨2, _⟩ => h2 | ⟨3, _⟩ => h3)
    rw [eq_zero_of_ne_one hm, select_zero, if_neg hneg]

/-- The reference's [6400000, 4] message array is the message of each edge, channel by channel. -/
theorem ref_msg (hP : Finite P) (hV : Finite V) (hin : InRange ei)
    (hg : ∀ (x : Cert.Flock.SN4.Idx → EReal) (idx : IVec Cert.Flock.SE1 32) (e : Fin 6400000) (k : Fin 4),
      Host.gather gather_S100000x4_S6400000x1_S6400000x4_1_0_n_n_0_1_14 x idx (ix2 e k)
        = x (ix2 (nodeOf (idx (ix2 e (0 : Fin 1)))) k)) :
    ReadP.val_main_v66 (F := Ideal) P V ei = fun j => edgeMsg P V ei (j 1) (j 0) := by
  funext j
  obtain ⟨e, k, rfl⟩ : ∃ (e : Fin 6400000) (k : Fin 4), j = ix2 e k := ⟨j 0, j 1, eq_ix2 j⟩
  exact v66_apply P V ei hP hV hin hg e k

end Cert.ReferenceIdeal.RVal

end
-- ==== Proof.RefAgg.lean ====
/-
  The reference program's second half, read as the mathematics of the flocking step.

  From the per-edge message array (edges by four channels) the reference accumulates channels 2 and 3 per target
  node, accumulates channels 0 and 1 per target node and divides them by max(count, 1) where the count is positive,
  joins the four aggregates with the node's own four features, and evaluates the two update polynomials. Here each
  of those arrays is read index by index and identified with the corresponding quantity of the specification:
  the node features, the per-node sums, the count, the per-node means, and finally the two outputs.
-/
import proofs.«423533_j53644141527383_1_alg».proof.Proof.RefRead
import proofs.«423533_j53644141527383_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RVal

open Cert.ReferenceIdeal Cert.ReferenceIdeal.Gen Idealize.ShloMosaic Idealize.ShloMosaic.TcCoe Idealize.SL.Sem
  Idealize.ShloMosaic.StableHlo Idealize.ShloMosaic.ValueIdx Cert.Flock

/-! ### Indices from their coordinates -/

/-- A rank-1 index is determined by the value of its coordinate. -/
theorem ix1_of_val {n : Nat} (j : (⟨1, ![n]⟩ : Shape).Idx) (a : Fin n) (h : (j 0).val = a.val) : j = ix1 a := by
  rw [eq_ix1 j]; exact congrArg ix1 (Fin.ext h)

/-- A rank-2 index is determined by the values of its two coordinates. -/
theorem ix2_of_val {n0 n1 : Nat} (j : (⟨2, ![n0, n1]⟩ : Shape).Idx) (a : Fin n0) (b : Fin n1)
    (h0 : (j 0).val = a.val) (h1 : (j 1).val = b.val) : j = ix2 a b := by
  have e0 : j 0 = a := Fin.ext h0
  have e1 : j 1 = b := Fin.ext h1
  subst e0 e1; exact eq_ix2 j

/-! ### The update arithmetic over any float model, and the layout steps around it -/

section Generic
variable {F : FTy → Type} [FloatOps F]

/-- an f32 literal in the float model -/
abbrev cF (b : BitVec 32) : F .f32 := FloatOps.ofBits .f32 b

def u0F (y1 y7 : F .f32) : F .f32 :=
  FloatOps.mulf (FloatOps.addf y1 (FloatOps.hostDivf y7 (cF 0x3D1881A8#32))) (cF 0xBB06EB2F#32)
def u1F (y0 y5 y6 y7 : F .f32) : F .f32 :=
  FloatOps.mulf (FloatOps.subf (FloatOps.mulf (FloatOps.subf y0 (FloatOps.mulf (FloatOps.mulf y7 y7) y5))
    (cF 0x3C788362#32)) y6) (cF 0xBDD606C2#32)
def u2F (y1 y6 y7 : F .f32) : F .f32 :=
  FloatOps.mulf (FloatOps.addf (FloatOps.subf y7 (FloatOps.mulf y1 (cF 0x3CE4D0E4#32))) y6) (cF 0x3D9A24AD#32)
def u3F (y2 y3 y6 y7 : F .f32) : F .f32 :=
  FloatOps.mulf (FloatOps.addf (FloatOps.subf (FloatOps.addf (FloatOps.subf (FloatOps.mulf y3 y3) y6) y2) y3)
    (FloatOps.mulf y7 (cF 0xBEADB62B#32))) (cF 0xBDAF3456#32)
def pred0F (y0 y1 y2 y3 y5 y6 y7 : F .f32) : F .f32 :=
  FloatOps.subf (FloatOps.subf (FloatOps.mulf (FloatOps.addf (FloatOps.addf (u0F y1 y7) (u3F y2 y3 y6 y7)) (u0F y1 y7))
    (cF 0xBE791B26#32)) (FloatOps.hostDivf (u1F y0 y5 y6 y7) (cF 0x3F3AE9B4#32)))
    (FloatOps.mulf (u2F y1 y6 y7) (cF 0x3F8FCD96#32))
def pred1F (y0 y1 y2 y3 y5 y6 y7 : F .f32) : F .f32 :=
  FloatOps.addf (FloatOps.subf (u2F y1 y6 y7) (FloatOps.addf (u1F y0 y5 y6 y7) (u0F y1 y7))) (u3F y2 y3 y6 y7)

variable (x0 x1 : (⟨S100000x2, .f32⟩ : BufTy).Contents (Elt F)) (x2 : (⟨S2x6400000, .i32⟩ : BufTy).Contents (Elt F))

/-- The first output vector is the first update polynomial of the eight per-node vectors. -/
theorem pred0_chain (i : S100000.Idx) :
    ReadP.val_main_v142 (F := F) x0 x1 x2 i
      = pred0F (ReadP.val_main_v90 (F := F) x0 x1 i) (ReadP.val_main_v92 (F := F) x0 x1 i)
          (ReadP.val_main_v94 (F := F) x0 x1 i) (ReadP.val_main_v96 (F := F) x0 x1 i)
          (ReadP.val_main_v100 (F := F) x0 x1 x2 i) (ReadP.val_main_v102 (F := F) x0 x1 x2 i)
          (ReadP.val_main_v104 (F := F) x0 x1 x2 i) := by
  simp only [ReadP.val_main_v142_apply, ReadP.val_main_v141_apply, ReadP.val_main_v140_apply, ReadP.val_main_cst_32_apply,
    ReadP.val_main_v139_apply, ReadP.val_main_v138_apply, ReadP.val_main_v137_apply, ReadP.val_main_cst_31_apply,
    ReadP.val_main_v136_apply, ReadP.val_main_v135_apply, ReadP.val_main_cst_30_apply, ReadP.val_main_v134_apply,
    ReadP.val_main_v133_apply, ReadP.val_main_v132_apply, ReadP.val_main_v131_apply, ReadP.val_main_cst_29_apply,
    ReadP.val_main_v130_apply, ReadP.val_main_v129_apply, ReadP.val_main_v128_apply, ReadP.val_main_cst_28_apply,
    ReadP.val_main_v127_apply, ReadP.val_main_v126_apply, ReadP.val_main_v125_apply, ReadP.val_main_v124_apply,
    ReadP.val_main_v123_apply, ReadP.val_main_v122_apply, ReadP.val_main_cst_27_apply, ReadP.val_main_v121_apply,
    ReadP.val_main_v120_apply, ReadP.val_main_v119_apply, ReadP.val_main_v118_apply, ReadP.val_main_cst_26_apply,
    ReadP.val_main_v117_apply, ReadP.val_main_v116_apply, ReadP.val_main_cst_25_apply, ReadP.val_main_v115_apply,
    ReadP.val_main_v114_apply, ReadP.val_main_v113_apply, ReadP.val_main_cst_24_apply, ReadP.val_main_v112_apply,
    ReadP.val_main_v111_apply, ReadP.val_main_v110_apply, ReadP.val_main_v109_apply, ReadP.val_main_v108_apply,
    ReadP.val_main_cst_23_apply, ReadP.val_main_v107_apply, ReadP.val_main_v106_apply, ReadP.val_main_v105_apply,
    ReadP.val_main_cst_22_apply]
  rfl

/-- The second output vector is the second update polynomial of the eight per-node vectors. -/
theorem pred1_chain (i : S100000.Idx) :
    ReadP.val_main_v145 (F := F) x0 x1 x2 i
      = pred1F (ReadP.val_main_v90 (F := F) x0 x1 i) (ReadP.val_main_v92 (F := F) x0 x1 i)
          (ReadP.val_main_v94 (F := F) x0 x1 i) (ReadP.val_main_v96 (F := F) x0 x1 i)
          (ReadP.val_main_v100 (F := F) x0 x1 x2 i) (ReadP.val_main_v102 (F := F) x0 x1 x2 i)
          (ReadP.val_main_v104 (F := F) x0 x1 x2 i) := by
  simp only [ReadP.val_main_v145_apply, ReadP.val_main_v144_apply, ReadP.val_main_v143_apply,
    ReadP.val_main_v132_apply, ReadP.val_main_v131_apply, ReadP.val_main_cst_29_apply,
    ReadP.val_main_v130_apply, ReadP.val_main_v129_apply, ReadP.val_main_v128_apply, ReadP.val_main_cst_28_apply,
    ReadP.val_main_v127_apply, ReadP.val_main_v126_apply, ReadP.val_main_v125_apply, ReadP.val_main_v124_apply,
    ReadP.val_main_v123_apply, ReadP.val_main_v122_apply, ReadP.val_main_cst_27_apply, ReadP.val_main_v121_apply,
    ReadP.val_main_v120_apply, ReadP.val_main_v119_apply, ReadP.val_main_v118_apply, ReadP.val_main_cst_26_apply,
    ReadP.val_main_v117_apply, ReadP.val_main_v116_apply, ReadP.val_main_cst_25_apply, ReadP.val_main_v115_apply,
    ReadP.val_main_v114_apply, ReadP.val_main_v113_apply, ReadP.val_main_cst_24_apply, ReadP.val_main_v112_apply,
    ReadP.val_main_v111_apply, ReadP.val_main_v110_apply, ReadP.val_main_v109_apply, ReadP.val_main_v108_apply,
    ReadP.val_main_cst_23_apply, ReadP.val_main_v107_apply, ReadP.val_main_v106_apply, ReadP.val_main_v105_apply,
    ReadP.val_main_cst_22_apply]
  rfl

/-- Column 0 of the result is the first output vector, column 1 the second. -/
theorem out0_chain (n : Fin 100000) :
    ReadP.val_main_v148 (F := F) x0 x1 x2 (ix2 n (0 : Fin 2)) = ReadP.val_main_v142 (F := F) x0 x1 x2 (ix1 n) := by
  unfold ReadP.val_main_v148
  refine (concatenate_pair_apply_left (s₁ := S100000x1) (s₂ := S100000x1) (1 : Fin S100000x2.rank) _ _ _ _ rfl
    (ix2 n (0 : Fin 1)) (fun b => match b with | ⟨0, _⟩ => rfl | ⟨1, _⟩ => rfl)).trans ?_
  rw [ReadP.val_main_v146_apply, ix1_of_val (ReadP.idx_main_v146 (ix2 n (0 : Fin 1))) n rfl]

theorem out1_chain (n : Fin 100000) :
    ReadP.val_main_v148 (F := F) x0 x1 x2 (ix2 n (1 : Fin 2)) = ReadP.val_main_v145 (F := F) x0 x1 x2 (ix1 n) := by
  unfold ReadP.val_main_v148
  refine (concatenate_pair_apply_right (s₁ := S100000x1) (s₂ := S100000x1) (1 : Fin S100000x2.rank) _ _ _ _ rfl rfl
    (ix2 n (0 : Fin 1)) (fun b => match b with | ⟨0, _⟩ => fun _ => rfl | ⟨1, _⟩ => fun hb => absurd rfl hb) rfl).trans ?_
  rw [ReadP.val_main_v147_apply, ix1_of_val (ReadP.idx_main_v147 (ix2 n (0 : Fin 1))) n rfl]

/-- The aggregate table's column 1 is column 1 of the summed channels; its columns 2 and 3 are the averaged channels. -/
theorem y5_chain (n : Fin 100000) :
    ReadP.val_main_v100 (F := F) x0 x1 x2 (ix1 n) = ReadP.val_main_v71 (F := F) x0 x1 x2 (ix2 n (1 : Fin 2)) := by
  rw [ReadP.val_main_v100_apply, ReadP.val_main_v99_apply,
    ix2_of_val (ReadP.idx_main_v99 (ReadP.idx_main_v100 (ix1 n))) n (1 : Fin 4) (Nat.div_one _) rfl]
  unfold ReadP.val_main_v88
  exact concatenate_pair_apply_left (s₁ := S100000x2) (s₂ := S100000x2) (1 : Fin S100000x4.rank) _ _ _ _ rfl
    (ix2 n (1 : Fin 2)) (fun b => match b with | ⟨0, _⟩ => rfl | ⟨1, _⟩ => rfl)

theorem y6_chain (n : Fin 100000) :
    ReadP.val_main_v102 (F := F) x0 x1 x2 (ix1 n) = ReadP.val_main_v87 (F := F) x0 x1 x2 (ix2 n (0 : Fin 2)) := by
  rw [ReadP.val_main_v102_apply, ReadP.val_main_v101_apply,
    ix2_of_val (ReadP.idx_main_v101 (ReadP.idx_main_v102 (ix1 n))) n (2 : Fin 4) (Nat.div_one _) rfl]
  unfold ReadP.val_main_v88
  exact concatenate_pair_apply_right (s₁ := S100000x2) (s₂ := S100000x2) (1 : Fin S100000x4.rank) _ _ _ _ rfl rfl
    (ix2 n (0 : Fin 2)) (fun b => match b with | ⟨0, _⟩ => fun _ => rfl | ⟨1, _⟩ => fun hb => absurd rfl hb) rfl

theorem y7_chain (n : Fin 100000) :
    ReadP.val_main_v104 (F := F) x0 x1 x2 (ix1 n) = ReadP.val_main_v87 (F := F) x0 x1 x2 (ix2 n (1 : Fin 2)) := by
  rw [ReadP.val_main_v104_apply, ReadP.val_main_v103_apply,
    ix2_of_val (ReadP.idx_main_v103 (ReadP.idx_main_v104 (ix1 n))) n (3 : Fin 4) (Nat.div_one _) rfl]
  unfold ReadP.val_main_v88
  exact concatenate_pair_apply_right (s₁ := S100000x2) (s₂ := S100000x2) (1 : Fin S100000x4.rank) _ _ _ _ rfl rfl
    (ix2 n (1 : Fin 2)) (fun b => match b with | ⟨0, _⟩ => fun _ => rfl | ⟨1, _⟩ => fun hb => absurd rfl hb) rfl

/-- The averaged channels: where the count is positive the sum over max(count, 1), else zero. -/
theorem mean_chain (n : Fin 100000) (k : Fin 2) :
    ReadP.val_main_v87 (F := F) x0 x1 x2 (ix2 n k)
      = Scalar.select (FloatOps.cmpf .ogt (ReadP.val_main_v78 (F := F) x2 (ix1 n)) (cF 0x00000000#32))
          (FloatOps.hostDivf (ReadP.val_main_v74 (F := F) x0 x1 x2 (ix2 n k))
            (FloatOps.maximumf (ReadP.val_main_v78 (F := F) x2 (ix1 n)) (cF 0x3F800000#32)))
          (cF 0x00000000#32) := by
  rw [ReadP.val_main_v87_apply, ReadP.val_main_call1_v1_apply, ReadP.val_main_v81_apply, ReadP.val_main_v79_apply,
    ReadP.val_main_v80_apply, ReadP.val_main_cst_19_apply, ReadP.val_main_v86_apply, ReadP.val_main_v85_apply,
    ReadP.val_main_v84_apply, ReadP.val_main_v83_apply, ReadP.val_main_v82_apply, ReadP.val_main_cst_20_apply,
    ReadP.val_main_call1_v2_apply, ReadP.val_main_call1_v0_apply, ReadP.val_main_cst_21_apply,
    ix1_of_val (ReadP.idx_main_v79 (ReadP.idx_main_call1_v1 (ix2 n k))) n rfl,
    ix1_of_val (ReadP.idx_main_v84 (ReadP.idx_main_v85 (ix2 n k))) n rfl]

end Generic

section
variable (P V : Cert.Flock.SN2.Idx → EReal) (ei : IVec Cert.Flock.SEI 32)

/-! ### The node table: positions beside velocities -/

/-- Column c of the joined node table is feature c of the node. -/
theorem h_apply (n : Fin 100000) (c : Fin 4) :
    ReadP.val_main_v0 (F := Ideal) P V (ix2 n c) = feat P V n c := by
  unfold ReadP.val_main_v0
  match c with
  | ⟨0, _⟩ =>
    exact concatenate_pair_apply_left (s₁ := S100000x2) (s₂ := S100000x2) (1 : Fin S100000x4.rank) _ _ _ _ rfl (ix2 n (0 : Fin 2))
      (fun b => match b with | ⟨0, _⟩ => rfl | ⟨1, _⟩ => rfl)
  | ⟨1, _⟩ =>
    exact concatenate_pair_apply_left (s₁ := S100000x2) (s₂ := S100000x2) (1 : Fin S100000x4.rank) _ _ _ _ rfl (ix2 n (1 : Fin 2))
      (fun b => match b with | ⟨0, _⟩ => rfl | ⟨1, _⟩ => rfl)
  | ⟨2, _⟩ =>
    exact concatenate_pair_apply_right (s₁ := S100000x2) (s₂ := S100000x2) (1 : Fin S100000x4.rank) _ _ _ _ rfl rfl (ix2 n (0 : Fin 2))
      (fun b => match b with | ⟨0, _⟩ => fun _ => rfl | ⟨1, _⟩ => fun hb => absurd rfl hb) rfl
  | ⟨3, _⟩ =>
    exact concatenate_pair_apply_right (s₁ := S100000x2) (s₂ := S100000x2) (1 : Fin S100000x4.rank) _ _ _ _ rfl rfl (ix2 n (1 : Fin 2))
      (fun b => match b with | ⟨0, _⟩ => fun _ => rfl | ⟨1, _⟩ => fun hb => absurd rfl hb) rfl

/-! ### The node's own features as four vectors -/

theorem y0_apply (n : Fin 100000) : ReadP.val_main_v90 (F := Ideal) P V (ix1 n) = feat P V n 0 := by
  rw [ReadP.val_main_v90_apply, ReadP.val_main_v89_apply,
    ix2_of_val (ReadP.idx_main_v89 (ReadP.idx_main_v90 (ix1 n))) n (0 : Fin 4) (Nat.div_one _) rfl]
  exact h_apply P V n 0

theorem y1_apply (n : Fin 100000) : ReadP.val_main_v92 (F := Ideal) P V (ix1 n) = feat P V n 1 := by
  rw [ReadP.val_main_v92_apply, ReadP.val_main_v91_apply,
    ix2_of_val (ReadP.idx_main_v91 (ReadP.idx_main_v92 (ix1 n))) n (1 : Fin 4) (Nat.div_one _) rfl]
  exact h_apply P V n 1

theorem y2_apply (n : Fin 100000) : ReadP.val_main_v94 (F := Ideal) P V (ix1 n) = feat P V n 2 := by
  rw [ReadP.val_main_v94_apply, ReadP.val_main_v93_apply,
    ix2_of_val (ReadP.idx_main_v93 (ReadP.idx_main_v94 (ix1 n))) n (2 : Fin 4) (Nat.div_one _) rfl]
  exact h_apply P V n 2

theorem y3_apply (n : Fin 100000) : ReadP.val_main_v96 (F := Ideal) P V (ix1 n) = feat P V n 3 := by
  rw [ReadP.val_main_v96_apply, ReadP.val_main_v95_apply,
    ix2_of_val (ReadP.idx_main_v95 (ReadP.idx_main_v96 (ix1 n))) n (3 : Fin 4) (Nat.div_one _) rfl]
  exact h_apply P V n 3

/-! ### The scatter operands: the target column, the zero tables, the ones -/

/-- The index column of the three accumulations is the edge list's target row. -/
theorem dst_col : ReadP.val_main_v70 (F := Ideal) ei = dstCol ei := by
  funext j
  rw [ReadP.val_main_v70_apply, ReadP.val_main_v4_apply, ReadP.val_main_v3_apply]
  unfold dstCol
  refine congrArg ei (ix2_of_val _ (1 : Fin 2) (j 0) rfl ?_)
  have h0 : (j 0).val < 6400000 := (j 0).isLt
  show (j 0).val % 6400000 = (j 0).val
  omega

/-- The node-by-2 table the sums start from is zero. -/
theorem zeros2 : ReadP.val_main_v69 (F := Ideal) = fun _ => (0 : EReal) := by
  funext i
  rw [ReadP.val_main_v69_apply, ReadP.val_main_cst_15_apply]
  exact Ideal.ofBits_zero_f32

/-- The per-node vector the count starts from is zero. -/
theorem zeros1 : ReadP.val_main_v76 (F := Ideal) = fun _ => (0 : EReal) := by
  funext i
  rw [ReadP.val_main_v76_apply, ReadP.val_main_cst_18_apply]
  exact Ideal.ofBits_zero_f32

/-- Every edge contributes one to the count. -/
theorem ones : ReadP.val_main_v75 (F := Ideal) = fun _ => lit 0x3F800000#32 := by
  funext i
  rw [ReadP.val_main_v75_apply, ReadP.val_main_cst_17_apply]
  rfl

/-! ### The three accumulations -/

local notation "dR" => scatter_S100000_S6400000x1_S6400000_n_0_0_1
local notation "d2R" => scatter_S100000x2_S6400000x1_S6400000x2_1_0_0_1

/-- On the extended reals the host's accumulating scatter is the exact per-element sum, as an equation of whole
    arrays. -/
theorem scatterAdd_eq {s si u : Shape} {w : Nat} (d : ScatterDims s si u) (x : s.Idx → EReal) (idx : IVec si w)
    (upd : u.Idx → EReal) :
    Host.scatterAdd (F := Ideal) (φ := .f32) d x idx upd = Ideal.hostScatterAdd d x idx upd := rfl

/-- The accumulation depends only on its three operands. -/
theorem scatter_congr {s si u : Shape} {w : Nat} (d : ScatterDims s si u) {x x' : s.Idx → EReal} {idx idx' : IVec si w}
    {upd upd' : u.Idx → EReal} (hx : x = x') (hi : idx = idx') (hu : upd = upd') (i : s.Idx) :
    Ideal.hostScatterAdd d x idx upd i = Ideal.hostScatterAdd d x' idx' upd' i := by
  subst hx hi hu; rfl

attribute [local irreducible] Ideal.hostScatterAdd

/-- The count vector: ones accumulated from zero at the target words. -/
theorem v78_eq : ReadP.val_main_v78 (F := Ideal) ei
    = Ideal.hostScatterAdd dR (fun _ => (0 : EReal)) (dstCol ei) (fun _ => lit 0x3F800000#32) := by
  unfold ReadP.val_main_v78
  rw [scatterAdd_eq, zeros1, show ReadP.val_main_v77 (F := Ideal) ei = dstCol ei from dst_col ei, ones]

/-- The accumulated ones are the number of incoming edges. -/
theorem cnt_apply (n : Fin 100000) : ReadP.val_main_v78 (F := Ideal) ei (ix1 n) = cnt ei dR n :=
  congrFun (v78_eq ei) (ix1 n)

/-- The summed-channel table: message columns 2 and 3 accumulated from zero at the target words. -/
theorem v71_eq : ReadP.val_main_v71 (F := Ideal) P V ei
    = Ideal.hostScatterAdd d2R (fun _ => (0 : EReal)) (dstCol ei) (ReadP.val_main_v68 (F := Ideal) P V ei) := by
  unfold ReadP.val_main_v71
  rw [scatterAdd_eq, zeros2, dst_col]

/-- The table the means are taken from: message columns 0 and 1 accumulated from zero at the target words. -/
theorem v74_eq : ReadP.val_main_v74 (F := Ideal) P V ei
    = Ideal.hostScatterAdd d2R (fun _ => (0 : EReal)) (dstCol ei) (ReadP.val_main_v67 (F := Ideal) P V ei) := by
  unfold ReadP.val_main_v74
  rw [scatterAdd_eq, show ReadP.val_main_v72 (F := Ideal) = fun _ => (0 : EReal) from zeros2,
    show ReadP.val_main_v73 (F := Ideal) ei = dstCol ei from dst_col ei]

/-- Column k of the summed-channel table is the per-node sum of channel 2 + k. -/
theorem sum_hi_apply (hmsg : ReadP.val_main_v66 (F := Ideal) P V ei = fun j => edgeMsg P V ei (j 1) (j 0))
    (hs : ∀ (x : Cert.Flock.SN2.Idx → EReal) (idx : IVec Cert.Flock.SE1 32) (U : Cert.Flock.SE2.Idx → EReal)
      (n : Fin 100000) (k : Fin 2), Ideal.hostScatterAdd d2R x idx U (ix2 n k)
        = Ideal.hostScatterAdd dR (fun i => x (ix2 (i 0) k)) idx (fun j => U (ix2 (j 0) k)) (ix1 n))
    (n : Fin 100000) (k : Fin 2) (kk : Fin 4) (hk : kk.val = 2 + k.val) :
    ReadP.val_main_v71 (F := Ideal) P V ei (ix2 n k) = sumK P V ei dR kk n := by
  rw [v71_eq]
  refine (hs _ _ _ n k).trans ?_
  refine scatter_congr dR rfl rfl (funext fun j => ?_) (ix1 n)
  rw [ReadP.val_main_v68_apply, hmsg]
  exact congrArg₂ (edgeMsg P V ei) (Fin.ext hk.symm) rfl

/-- Column k of the table the means are taken from is the per-node sum of channel k. -/
theorem sum_lo_apply (hmsg : ReadP.val_main_v66 (F := Ideal) P V ei = fun j => edgeMsg P V ei (j 1) (j 0))
    (hs : ∀ (x : Cert.Flock.SN2.Idx → EReal) (idx : IVec Cert.Flock.SE1 32) (U : Cert.Flock.SE2.Idx → EReal)
      (n : Fin 100000) (k : Fin 2), Ideal.hostScatterAdd d2R x idx U (ix2 n k)
        = Ideal.hostScatterAdd dR (fun i => x (ix2 (i 0) k)) idx (fun j => U (ix2 (j 0) k)) (ix1 n))
    (n : Fin 100000) (k : Fin 2) (kk : Fin 4) (hk : kk.val = k.val) :
    ReadP.val_main_v74 (F := Ideal) P V ei (ix2 n k) = sumK P V ei dR kk n := by
  rw [v74_eq]
  refine (hs _ _ _ n k).trans ?_
  refine scatter_congr dR rfl rfl (funext fun j => ?_) (ix1 n)
  rw [ReadP.val_main_v67_apply, hmsg]
  exact congrArg₂ (edgeMsg P V ei) (Fin.ext hk.symm) rfl

/-! ### The means -/

/-- The guarded quotient on the extended reals, over a count c and a sum s. -/
theorem mean_scalar (c s : EReal) :
    (Scalar.select (FloatOps.cmpf (F := Ideal) (φ := .f32) .ogt c (cF (F := Ideal) 0x00000000#32))
      (FloatOps.hostDivf (F := Ideal) (φ := .f32) s (FloatOps.maximumf (F := Ideal) (φ := .f32) c (cF (F := Ideal) 0x3F800000#32)))
      (cF (F := Ideal) 0x00000000#32) : EReal)
    = if Ideal.cmp .ogt c (lit 0x00000000#32) = 1#1 then Ideal.div s (max c (lit 0x3F800000#32))
      else lit 0x00000000#32 := rfl

/-- Column k of the averaged-channel table is the per-node mean of channel k. -/
theorem mean_apply (hmsg : ReadP.val_main_v66 (F := Ideal) P V ei = fun j => edgeMsg P V ei (j 1) (j 0))
    (hs : ∀ (x : Cert.Flock.SN2.Idx → EReal) (idx : IVec Cert.Flock.SE1 32) (U : Cert.Flock.SE2.Idx → EReal)
      (n : Fin 100000) (k : Fin 2), Ideal.hostScatterAdd d2R x idx U (ix2 n k)
        = Ideal.hostScatterAdd dR (fun i => x (ix2 (i 0) k)) idx (fun j => U (ix2 (j 0) k)) (ix1 n))
    (n : Fin 100000) (k : Fin 2) (kk : Fin 4) (hk : kk.val = k.val) :
    ReadP.val_main_v87 (F := Ideal) P V ei (ix2 n k) = meanK P V ei dR kk n := by
  rw [mean_chain (F := Ideal), cnt_apply, sum_lo_apply P V ei hmsg hs n k kk hk]
  exact mean_scalar _ _

/-! ### The aggregates as the update's vectors -/

theorem y5_apply (hmsg : ReadP.val_main_v66 (F := Ideal) P V ei = fun j => edgeMsg P V ei (j 1) (j 0))
    (hs : ∀ (x : Cert.Flock.SN2.Idx → EReal) (idx : IVec Cert.Flock.SE1 32) (U : Cert.Flock.SE2.Idx → EReal)
      (n : Fin 100000) (k : Fin 2), Ideal.hostScatterAdd d2R x idx U (ix2 n k)
        = Ideal.hostScatterAdd dR (fun i => x (ix2 (i 0) k)) idx (fun j => U (ix2 (j 0) k)) (ix1 n))
    (n : Fin 100000) : ReadP.val_main_v100 (F := Ideal) P V ei (ix1 n) = sumK P V ei dR 3 n :=
  (y5_chain (F := Ideal) P V ei n).trans (sum_hi_apply P V ei hmsg hs n 1 3 rfl)

theorem y6_apply (hmsg : ReadP.val_main_v66 (F := Ideal) P V ei = fun j => edgeMsg P V ei (j 1) (j 0))
    (hs : ∀ (x : Cert.Flock.SN2.Idx → EReal) (idx : IVec Cert.Flock.SE1 32) (U : Cert.Flock.SE2.Idx → EReal)
      (n : Fin 100000) (k : Fin 2), Ideal.hostScatterAdd d2R x idx U (ix2 n k)
        = Ideal.hostScatterAdd dR (fun i => x (ix2 (i 0) k)) idx (fun j => U (ix2 (j 0) k)) (ix1 n))
    (n : Fin 100000) : ReadP.val_main_v102 (F := Ideal) P V ei (ix1 n) = meanK P V ei dR 0 n :=
  (y6_chain (F := Ideal) P V ei n).trans (mean_apply P V ei hmsg hs n 0 0 rfl)

theorem y7_apply (hmsg : ReadP.val_main_v66 (F := Ideal) P V ei = fun j => edgeMsg P V ei (j 1) (j 0))
    (hs : ∀ (x : Cert.Flock.SN2.Idx → EReal) (idx : IVec Cert.Flock.SE1 32) (U : Cert.Flock.SE2.Idx → EReal)
      (n : Fin 100000) (k : Fin 2), Ideal.hostScatterAdd d2R x idx U (ix2 n k)
        = Ideal.hostScatterAdd dR (fun i => x (ix2 (i 0) k)) idx (fun j => U (ix2 (j 0) k)) (ix1 n))
    (n : Fin 100000) : ReadP.val_main_v104 (F := Ideal) P V ei (ix1 n) = meanK P V ei dR 1 n :=
  (y7_chain (F := Ideal) P V ei n).trans (mean_apply P V ei hmsg hs n 1 1 rfl)

/-! ### The two outputs -/

/-- On the extended reals the program's update arithmetic is the specification's. -/
theorem pred0F_eq (y0 y1 y2 y3 y5 y6 y7 : EReal) :
    pred0F (F := Ideal) y0 y1 y2 y3 y5 y6 y7 = pred0 y0 y1 y2 y3 y5 y6 y7 := rfl
theorem pred1F_eq (y0 y1 y2 y3 y5 y6 y7 : EReal) :
    pred1F (F := Ideal) y0 y1 y2 y3 y5 y6 y7 = pred1 y0 y1 y2 y3 y5 y6 y7 := rfl

/-- THE REFERENCE'S RESULT is the specification's node-by-2 array. -/
theorem ref_result (hmsg : ReadP.val_main_v66 (F := Ideal) P V ei = fun j => edgeMsg P V ei (j 1) (j 0))
    (hs : ∀ (x : Cert.Flock.SN2.Idx → EReal) (idx : IVec Cert.Flock.SE1 32) (U : Cert.Flock.SE2.Idx → EReal)
      (n : Fin 100000) (k : Fin 2), Ideal.hostScatterAdd d2R x idx U (ix2 n k)
        = Ideal.hostScatterAdd dR (fun i => x (ix2 (i 0) k)) idx (fun j => U (ix2 (j 0) k)) (ix1 n)) :
    ReadP.val_main_v148 (F := Ideal) P V ei = G P V ei dR := by
  funext i
  obtain ⟨n, k, rfl⟩ : ∃ (n : Fin 100000) (k : Fin 2), i = ix2 n k := ⟨i 0, i 1, eq_ix2 i⟩
  match k with
  | ⟨0, _⟩ =>
    refine (out0_chain (F := Ideal) P V ei n).trans ((pred0_chain (F := Ideal) P V ei (ix1 n)).trans ?_)
    rw [y0_apply, y1_apply, y2_apply, y3_apply, y5_apply P V ei hmsg hs, y6_apply P V ei hmsg hs,
      y7_apply P V ei hmsg hs]
    exact pred0F_eq _ _ _ _ _ _ _
  | ⟨1, _⟩ =>
    refine (out1_chain (F := Ideal) P V ei n).trans ((pred1_chain (F := Ideal) P V ei (ix1 n)).trans ?_)
    rw [y0_apply, y1_apply, y2_apply, y3_apply, y5_apply P V ei hmsg hs, y6_apply P V ei hmsg hs,
      y7_apply P V ei hmsg hs]
    exact pred1F_eq _ _ _ _ _ _ _

end

end Cert.ReferenceIdeal.RVal

end
-- ==== Proof.LibIndexing.lean ====
/-
  Reading a row gather and an accumulating scatter at an index.

  Three facts about the host's indexed operations over the literal shapes of the flocking step.
  A gather of rows of a node-by-4 table at a column of start indices reads, at (edge e, channel k), the table at
  (the node the e-th index word names, clamped into the node range; k). A one-axis accumulating scatter sends update e
  to the node its index word names, read signed and not clamped, and drops it when the word names no node. Column k of
  a two-column accumulating scatter is the one-axis accumulating scatter of column k of the updates.
-/
import Idealize.ShloMosaic.PureOps.Ideal
import Idealize.ShloMosaic.PureOps.Dims
import Idealize.ShloMosaic.PureOps.ShapeOps
import Idealize.ShloMosaic.Lib.ValueIdx
import proofs.«423533_j53644141527383_1_alg».proof.Proof.Spec

noncomputable section

open scoped BigOperators

namespace Cert.Flock

open Idealize.ShloMosaic Idealize.ShloMosaic.ValueIdx

/-! ## The row gather -/

/-- The row gather's dimension numbers as a literal record. -/
private abbrev rowDims (wf : GatherDims.WF SN4 SE1 SE4 [1] [0] [] [0] [] 1 ![1, 4]) : GatherDims SN4 SE1 SE4 :=
  ⟨[1], [0], [], [], [0], 1, ![1, 4], wf⟩

/-- The row gather of a node-by-4 table at an edge-by-1 column of start indices (the result's axis 1 the offset axis,
    the table's axis 0 collapsed and start-indexed, the index vector on axis 1 of the column, slices of one row by four
    columns) reads, at (e, k), the table at row clamp(idx e) — the index word read signed and clamped into
    [0, 99999] — and column k: on axis 0 the start is the clamped word and the offset coordinate 0; on axis 1 the start
    is 0 (clamped into [0, 4 − 4]) and the offset coordinate is k. -/
theorem rowGather_apply {α : Type} (d : GatherDims SN4 SE1 SE4) (hoff : d.offsetDims = [1])
    (hcoll : d.collapsedSliceDims = [0]) (hob : d.operandBatchingDims = []) (hsib : d.startIndicesBatchingDims = [])
    (hsim : d.startIndexMap = [0]) (hivd : d.indexVectorDim = 1) (hss : d.sliceSizes = ![1, 4])
    (x : SN4.Idx → α) (idx : IVec SE1 32) (e : Fin 6400000) (k : Fin 4) :
    Host.gather d x idx (ix2 e k) = x (ix2 (nodeOf (idx (ix2 e (0 : Fin 1)))) k) := by
  obtain ⟨od, cd, ob, sib, sim, ivd, ss, wf⟩ := d
  dsimp only at hoff hcoll hob hsib hsim hivd hss
  subst hoff hcoll hob hsib hsim hivd hss
  unfold Host.gather
  congr 1
  funext a
  refine Fin.ext ?_
  match a with
  | ⟨0, _⟩ =>
    -- the collapsed, start-indexed axis: the clamped word, no batching and no offset coordinate
    show (rowDims wf).start (ix2 e k) idx (0 : Fin 2) + (rowDims wf).batchCoord (ix2 e k) (0 : Fin 2)
      + (rowDims wf).offCoord (ix2 e k) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : (rowDims wf).siIdx (ix2 e k)
        ⟨List.idxOf (0 : Fin 2) [0], List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the offset axis: start 0, no batching coordinate, the offset coordinate the result's channel
    show (rowDims wf).start (ix2 e k) idx (1 : Fin 2) + (rowDims wf).batchCoord (ix2 e k) (1 : Fin 2)
      + (rowDims wf).offCoord (ix2 e k) (1 : Fin 2) = _
    rw [GatherDims.batchCoord_eq_zero _ _ _ List.not_mem_nil]
    unfold GatherDims.start
    rw [dif_neg (show (1 : Fin 2) ∉ ([0] : List (Fin 2)) by decide)]
    unfold GatherDims.offCoord
    rw [dif_pos (((rowDims wf).mem_sKept (1 : Fin 2)).2
      ⟨show (1 : Fin 2) ∉ ([0] : List (Fin 2)) by decide, List.not_mem_nil⟩)]
    rw [Nat.zero_add]
    rfl

/-! ## The accumulating scatters -/

/-- An update lands on a result index exactly when, on every axis, its start (the index word read signed, not
    clamped; 0 on an axis the map does not name) plus its window coordinate is that index's coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  next h =>
    constructor
    · intro heq a
      have hv := congrArg Fin.val (congrFun (Option.some.inj heq) a)
      simp only at hv
      have := (h a).1
      omega
    · intro hall
      congr 1
      funext a
      refine Fin.ext ?_
      show (d.start j idx a + (d.window j a : Int)).toNat = (i a).val
      rw [hall a]; exact Int.toNat_natCast _
  next h =>
    constructor
    · intro heq; exact absurd heq (by simp)
    · intro hall
      exfalso; apply h; intro a
      rw [hall a]
      exact ⟨Int.natCast_nonneg _, by exact_mod_cast (i a).isLt⟩

/-- The one-axis scatter's dimension numbers as a literal record. -/
private abbrev oneDims (wf : ScatterDims.WF SN SE1 SE [] [0] [0] 1) : ScatterDims SN SE1 SE := ⟨[], [0], [0], 1, wf⟩

/-- The two-column scatter's dimension numbers as a literal record. -/
private abbrev twoDims (wf : ScatterDims.WF SN2 SE1 SE2 [1] [0] [0] 1) : ScatterDims SN2 SE1 SE2 :=
  ⟨[1], [0], [0], 1, wf⟩

/-- One-axis scatter: the start on the one operand axis is update e's index word, read signed. -/
private theorem oneDims_start (wf : ScatterDims.WF SN SE1 SE [] [0] [0] 1) (idx : IVec SE1 32) (e : Fin 6400000) :
    (oneDims wf).start (ix1 e) idx (0 : Fin 1) = (idx (ix2 e (0 : Fin 1))).toInt := by
  unfold ScatterDims.start
  rw [dif_pos (List.mem_singleton.mpr rfl)]
  have hsi : (oneDims wf).siIdx (ix1 e)
      ⟨List.idxOf (0 : Fin 1) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- One-axis scatter: the one operand axis is inserted, so the window coordinate there is 0. -/
private theorem oneDims_window (wf : ScatterDims.WF SN SE1 SE [] [0] [0] 1) (e : Fin 6400000) :
    (oneDims wf).window (ix1 e) (0 : Fin 1) = 0 := by
  unfold ScatterDims.window
  rw [dif_neg (show (0 : Fin 1) ∉ SN.kept ([0] : List (Fin 1)) by decide)]

/-- The one-axis accumulating scatter sends update e to the node its index word names, the word read signed and not
    clamped: it lands on node n exactly when the word, as an integer, is n (and on no node when the word is negative or
    at least the node count). -/
theorem scatter1_resultIdx (d : ScatterDims SN SE1 SE) (huw : d.updateWindowDims = []) (hiw : d.insertedWindowDims = [0])
    (hsd : d.scatterDimsToOperandDims = [0]) (hivd : d.indexVectorDim = 1) (idx : IVec SE1 32) (e : Fin 6400000)
    (n : Fin 100000) :
    d.resultIdx? (ix1 e) idx = some (ix1 n) ↔ (idx (ix2 e (0 : Fin 1))).toInt = (n.val : Int) := by
  obtain ⟨uw, iw, sd, ivd, wf⟩ := d
  dsimp only at huw hiw hsd hivd
  subst huw hiw hsd hivd
  rw [resultIdx?_eq_some_iff]
  constructor
  · intro h
    have h0 : (idx (ix2 e (0 : Fin 1))).toInt + ((0 : Nat) : Int) = (n.val : Int) := by
      have := h (0 : Fin 1)
      rwa [oneDims_start wf idx e, oneDims_window wf e] at this
    omega
  · intro h a
    obtain rfl : a = (0 : Fin 1) := Subsingleton.elim _ _
    rw [oneDims_start wf idx e, oneDims_window wf e]
    show (idx (ix2 e (0 : Fin 1))).toInt + ((0 : Nat) : Int) = (n.val : Int)
    omega

/-- Two-column scatter: on the node axis the start is update (e, k')'s index word, read signed. -/
private theorem twoDims_start0 (wf : ScatterDims.WF SN2 SE1 SE2 [1] [0] [0] 1) (idx : IVec SE1 32) (e : Fin 6400000)
    (k' : Fin 2) : (twoDims wf).start (ix2 e k') idx (0 : Fin 2) = (idx (ix2 e (0 : Fin 1))).toInt := by
  unfold ScatterDims.start
  rw [dif_pos (List.mem_singleton.mpr rfl)]
  have hsi : (twoDims wf).siIdx (ix2 e k')
      ⟨List.idxOf (0 : Fin 2) [0], List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Two-column scatter: the column axis is not named by the index map, so the start there is 0. -/
private theorem twoDims_start1 (wf : ScatterDims.WF SN2 SE1 SE2 [1] [0] [0] 1) (idx : IVec SE1 32) (e : Fin 6400000)
    (k' : Fin 2) : (twoDims wf).start (ix2 e k') idx (1 : Fin 2) = 0 := by
  unfold ScatterDims.start
  rw [dif_neg (show (1 : Fin 2) ∉ ([0] : List (Fin 2)) by decide)]

/-- Two-column scatter: the node axis is inserted, so the window coordinate there is 0. -/
private theorem twoDims_window0 (wf : ScatterDims.WF SN2 SE1 SE2 [1] [0] [0] 1) (e : Fin 6400000) (k' : Fin 2) :
    (twoDims wf).window (ix2 e k') (0 : Fin 2) = 0 := by
  unfold ScatterDims.window
  rw [dif_neg (show (0 : Fin 2) ∉ SN2.kept ([0] : List (Fin 2)) by decide)]

/-- Two-column scatter: on the column axis the window coordinate is the update's column. -/
private theorem twoDims_window1 (wf : ScatterDims.WF SN2 SE1 SE2 [1] [0] [0] 1) (e : Fin 6400000) (k' : Fin 2) :
    (twoDims wf).window (ix2 e k') (1 : Fin 2) = k'.val := by
  unfold ScatterDims.window
  rw [dif_pos (show (1 : Fin 2) ∈ SN2.kept ([0] : List (Fin 2)) by decide)]
  rfl

/-- The two-column accumulating scatter sends update (e, k') to (the node e's index word names, read signed and not
    clamped; column k'): it lands on (n, k) exactly when k' = k and the word, as an integer, is n. -/
theorem scatter2_resultIdx (d2 : ScatterDims SN2 SE1 SE2) (huw2 : d2.updateWindowDims = [1])
    (hiw2 : d2.insertedWindowDims = [0]) (hsd2 : d2.scatterDimsToOperandDims = [0]) (hivd2 : d2.indexVectorDim = 1)
    (idx : IVec SE1 32) (e : Fin 6400000) (k' : Fin 2) (n : Fin 100000) (k : Fin 2) :
    d2.resultIdx? (ix2 e k') idx = some (ix2 n k) ↔ k' = k ∧ (idx (ix2 e (0 : Fin 1))).toInt = (n.val : Int) := by
  obtain ⟨uw, iw, sd, ivd, wf⟩ := d2
  dsimp only at huw2 hiw2 hsd2 hivd2
  subst huw2 hiw2 hsd2 hivd2
  rw [resultIdx?_eq_some_iff]
  constructor
  · intro h
    have h0 : (idx (ix2 e (0 : Fin 1))).toInt + ((0 : Nat) : Int) = (n.val : Int) := by
      have := h (0 : Fin 2)
      rwa [twoDims_start0 wf idx e k', twoDims_window0 wf e k'] at this
    have h1 : (0 : Int) + ((k'.val : Nat) : Int) = (k.val : Int) := by
      have := h (1 : Fin 2)
      rwa [twoDims_start1 wf idx e k', twoDims_window1 wf e k'] at this
    exact ⟨Fin.ext (by omega), by omega⟩
  · rintro ⟨rfl, h⟩ a
    match a with
    | ⟨0, _⟩ =>
      show (twoDims wf).start (ix2 e k') idx (0 : Fin 2) + (((twoDims wf).window (ix2 e k') (0 : Fin 2) : Nat) : Int)
        = (n.val : Int)
      rw [twoDims_start0 wf idx e k', twoDims_window0 wf e k']
      omega
    | ⟨1, _⟩ =>
      show (twoDims wf).start (ix2 e k') idx (1 : Fin 2) + (((twoDims wf).window (ix2 e k') (1 : Fin 2) : Nat) : Int)
        = (k'.val : Int)
      rw [twoDims_start1 wf idx e k', twoDims_window1 wf e k']
      omega

/-- Column k of the two-column accumulating scatter is the one-axis accumulating scatter of column k: at (n, k) the
    operand's entry plus the sum of the updates (e, k') with k' = k whose index word names n, which is the one-axis
    scatter's sum over the edges e whose index word names n of the k-th column of the updates. -/
theorem scatterAdd2_apply (d2 : ScatterDims SN2 SE1 SE2) (huw2 : d2.updateWindowDims = [1])
    (hiw2 : d2.insertedWindowDims = [0]) (hsd2 : d2.scatterDimsToOperandDims = [0]) (hivd2 : d2.indexVectorDim = 1)
    (d : ScatterDims SN SE1 SE) (huw : d.updateWindowDims = []) (hiw : d.insertedWindowDims = [0])
    (hsd : d.scatterDimsToOperandDims = [0]) (hivd : d.indexVectorDim = 1)
    (x : SN2.Idx → EReal) (idx : IVec SE1 32) (U : SE2.Idx → EReal) (n : Fin 100000) (k : Fin 2) :
    Ideal.hostScatterAdd d2 x idx U (ix2 n k)
      = Ideal.hostScatterAdd d (fun i => x (ix2 (i 0) k)) idx (fun j => U (ix2 (j 0) k)) (ix1 n) := by
  unfold Ideal.hostScatterAdd
  show x (ix2 n k) + _ = x (ix2 n k) + _
  refine congrArg (fun t => x (ix2 n k) + t) ?_
  refine Finset.sum_bij' (fun j _ => ix1 (j 0)) (fun j' _ => ix2 (j' 0) k) ?_ ?_ ?_ ?_ ?_
  · intro j hj
    obtain ⟨e, k', rfl⟩ : ∃ e k', j = ix2 e k' := ⟨j 0, j 1, eq_ix2 j⟩
    have hj2 := (scatter2_resultIdx d2 huw2 hiw2 hsd2 hivd2 idx e k' n k).1 (Finset.mem_filter.1 hj).2
    exact Finset.mem_filter.2 ⟨Finset.mem_univ _, (scatter1_resultIdx d huw hiw hsd hivd idx e n).2 hj2.2⟩
  · intro j' hj'
    obtain ⟨e, rfl⟩ : ∃ e, j' = ix1 e := ⟨j' 0, eq_ix1 j'⟩
    have hj2 := (scatter1_resultIdx d huw hiw hsd hivd idx e n).1 (Finset.mem_filter.1 hj').2
    exact Finset.mem_filter.2 ⟨Finset.mem_univ _,
      (scatter2_resultIdx d2 huw2 hiw2 hsd2 hivd2 idx e k n k).2 ⟨rfl, hj2⟩⟩
  · intro j hj
    obtain ⟨e, k', rfl⟩ : ∃ e k', j = ix2 e k' := ⟨j 0, j 1, eq_ix2 j⟩
    have hj2 := (scatter2_resultIdx d2 huw2 hiw2 hsd2 hivd2 idx e k' n k).1 (Finset.mem_filter.1 hj).2
    obtain rfl := hj2.1
    rfl
  · intro j' _
    exact (eq_ix1 j').symm
  · intro j hj
    obtain ⟨e, k', rfl⟩ : ∃ e k', j = ix2 e k' := ⟨j 0, j 1, eq_ix2 j⟩
    have hj2 := (scatter2_resultIdx d2 huw2 hiw2 hsd2 hivd2 idx e k' n k).1 (Finset.mem_filter.1 hj).2
    obtain rfl := hj2.1
    rfl

end Cert.Flock

end
-- ==== Proof.RefValue.lean ====
/-
  The reference program's result array is the function G of its three arguments (Spec.lean), under the precondition's facts:
  its last stage is G (the message array, then the aggregates and the update), and the fold of its operations over a launch
  memory leaves that stage in the result buffer and the arguments as launched.
-/
import proofs.«423533_j53644141527383_1_alg».proof.Proof.RefAfter
import proofs.«423533_j53644141527383_1_alg».proof.Proof.RefMsg
import proofs.«423533_j53644141527383_1_alg».proof.Proof.RefAgg
import proofs.«423533_j53644141527383_1_alg».proof.Proof.LibIndexing
import Idealize.ShloMosaic.Lib.Pipeline.Frame

noncomputable section

namespace Cert.ReferenceIdeal.RVal

open Cert.ReferenceIdeal Cert.ReferenceIdeal.Gen Idealize.ShloMosaic Idealize.ShloMosaic.TcCoe Idealize.SL.Sem
  Idealize.ShloMosaic.StableHlo Cert.Flock Idealize.ShloMosaic.ValueIdx

/-- The last stage of the reference is G: the row gather reads the clamped row, and each column of a two-column accumulating
    scatter is the one-column scatter of that column. -/
theorem ref_value (P V : Cert.Flock.SN2.Idx → EReal) (ei : IVec Cert.Flock.SEI 32)
    (hP : Finite P) (hV : Finite V) (hin : InRange ei) :
    ReadP.val_main_v148 (F := Ideal) P V ei = G P V ei scatter_S100000_S6400000x1_S6400000_n_0_0_1 :=
  ref_result P V ei
    (ref_msg P V ei hP hV hin (fun x idx e k => rowGather_apply _ rfl rfl rfl rfl rfl rfl rfl x idx e k))
    (fun x idx U n k => scatterAdd2_apply _ rfl rfl rfl rfl _ rfl rfl rfl rfl x idx U n k)

/-- The fold of the reference's operations over a launch memory leaves the last stage in the result buffer: stretch by
    stretch, every buffer read later holds its stage. -/
theorem after_v148 (m : (ℓ : Loc nD τ sig) → Buf (Elt Ideal) ℓ) (c : Dev nD) :
    after (ValueP.ops (F := Ideal)) (launchContents m c) (Proc.devRef .tc main_v148)
      = ReadP.val_main_v148 (F := Ideal) (m ((c.tc : Thread nD τ).loc main_arg0)) (m ((c.tc : Thread nD τ).loc main_arg1))
          (m ((c.tc : Thread nD τ).loc main_arg2)) := by
  rw [ops_split, StableHlo.after_append, StableHlo.after_append, StableHlo.after_append, StableHlo.after_append,
    StableHlo.after_append]
  have a65 := A_main_v65 (F := Ideal) (launchContents m c)
  have a14 := A_main_cst_14 (F := Ideal) (launchContents m c)
  have a60 := A_main_v60 (F := Ideal) (launchContents m c)
  have a4 := A_main_v4 (F := Ideal) (launchContents m c)
  have a0 := A_main_v0 (F := Ideal) (launchContents m c)
  have b66 := B_main_v66 (F := Ideal) _ _ _ _ a65 a14 a60
  have b4 := (B_keep_main_v4 (F := Ideal) _).trans a4
  have b0 := (B_keep_main_v0 (F := Ideal) _).trans a0
  have c71 := C_main_v71 (F := Ideal) _ _ _ _ b66 b4
  have c81 := C_main_v81 (F := Ideal) _ _ _ _ b66 b4
  have c86 := C_main_v86 (F := Ideal) _ _ _ _ b66 b4
  have c21 := C_main_cst_21 (F := Ideal) _ _ _ _ b66 b4
  have c0 := (C_keep_main_v0 (F := Ideal) _).trans b0
  have d87 := D_main_v87 (F := Ideal) _ _ _ _ c81 c86 c21
  have d71 := (D_keep_main_v71 (F := Ideal) _).trans c71
  have d0 := (D_keep_main_v0 (F := Ideal) _).trans c0
  exact E2_main_v148 (F := Ideal) _ _ _ _ (E1_main_v146 (F := Ideal) _ _ _ _ d71 d87 d0)
    (E1_main_v147 (F := Ideal) _ _ _ _ d71 d87 d0)

set_option maxRecDepth 8192 in
set_option maxHeartbeats 4000000 in
/-- Through the whole fold an argument buffer stays as launched. -/
theorem after_arg (m : (ℓ : Loc nD τ sig) → Buf (Elt Ideal) ℓ) (c : Dev nD) :
    after (ValueP.ops (F := Ideal)) (launchContents m c) (Proc.devRef .tc main_arg0) = m ((c.tc : Thread nD τ).loc main_arg0)
    ∧ after (ValueP.ops (F := Ideal)) (launchContents m c) (Proc.devRef .tc main_arg1) = m ((c.tc : Thread nD τ).loc main_arg1)
    ∧ after (ValueP.ops (F := Ideal)) (launchContents m c) (Proc.devRef .tc main_arg2) = m ((c.tc : Thread nD τ).loc main_arg2) :=
  ⟨by after_results_simp <;> rfl, by after_results_simp <;> rfl, by after_results_simp <;> rfl⟩

end Cert.ReferenceIdeal.RVal

end
-- ==== Proof.lean ====
/-
  The message-passing step computed two ways — by a program of two kernels among host gathers and accumulating scatters, and
  by a plain array program — gives the same node-by-2 array at the exact extended reals, provided every float input is a real
  number and every index word of the edge list names a node (0 ≤ w < 100000).

  Both programs are shown to end at ONE function G of the three arguments (Proof/Spec.lean): per edge a four-channel message
  that is zero when the two endpoints carry the same features; per target node the sums of channels 2, 3 and the means of
  channels 0, 1 (sum over max(count, 1), zero at count zero); then a polynomial update of each node. The two programs differ
  only in layout: four one-column gathers of a coordinate against one gather of whole rows; "a = b" against "a − b = 0"
  (the same on real numbers, which is where finiteness is used); one-column accumulating scatters against two-column ones
  (column k of the latter is the former applied to column k). An out-of-range index word, which one program answers with a
  fill value and the other by clamping, is excluded by the precondition.
-/
import proofs.«423533_j53644141527383_1_alg».proof.Defs
import proofs.«423533_j53644141527383_1_alg».proof.Proof.Gen.Kernel
import proofs.«423533_j53644141527383_1_alg».proof.Proof.Gen.Kernel.Frame
import proofs.«423533_j53644141527383_1_alg».proof.Proof.Gen.KernelIdeal
import proofs.«423533_j53644141527383_1_alg».proof.Proof.Gen.KernelIdeal.Frame
import proofs.«423533_j53644141527383_1_alg».proof.Proof.Gen.ReferenceIdeal
import proofs.«423533_j53644141527383_1_alg».proof.Proof.Gen.Pre_finite_inputs
import proofs.«423533_j53644141527383_1_alg».proof.Proof.PreFacts
import proofs.«423533_j53644141527383_1_alg».proof.Proof.KRun
import proofs.«423533_j53644141527383_1_alg».proof.Proof.KValue
import proofs.«423533_j53644141527383_1_alg».proof.Proof.RefValue
import Idealize.ShloMosaic.Adequacy
import Idealize.ShloMosaic.Init

noncomputable section

namespace Cert.Proof

open Idealize.ShloMosaic Idealize.SL.Sem Cert.Flock

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference runs and leaves its arguments as launched: its run at the fold of its operations, read at the argument
    buffers. -/
theorem frame_ri : @Cert.frame_ReferenceIdeal Cert.ReferenceIdeal.Gen.facts Cert.Pre_finite_inputs.Gen.facts :=
  fun m ρ _ => (θ_run Cert.ReferenceIdeal.defs _ _).mono
    (fun r h c => ⟨(h c _).trans (Cert.ReferenceIdeal.RVal.after_arg m c).1,
      (h c _).trans (Cert.ReferenceIdeal.RVal.after_arg m c).2.1,
      (h c _).trans (Cert.ReferenceIdeal.RVal.after_arg m c).2.2⟩)
    (Cert.ReferenceIdeal.ValueP.run_after (F := Ideal) m ρ)

/-- Both programs, from memories that agree on the arguments, end with G of those arguments in their result arrays. -/
theorem algebraic : @Cert.algebraic_KernelIdeal_ReferenceIdeal Cert.KernelIdeal.Gen.facts Cert.ReferenceIdeal.Gen.facts
    Cert.Pre_finite_inputs.Gen.facts := by
  intro m ρ m' ρ' hpre hagree
  have hf := fun c => @pre_facts Cert.Pre_finite_inputs.Gen.facts _ _ _ (hpre c)
  refine ⟨fun c => G (Cert.KernelIdeal.KVal.argP m c) (Cert.KernelIdeal.KVal.argV m c) (Cert.KernelIdeal.KVal.argEI m c)
    Cert.KernelIdeal.scatter_S100000_S6400000x1_S6400000_n_0_0_1, ?_, ?_⟩
  · exact (θ_run Cert.KernelIdeal.defs _ _).mono
      (fun r h c => ⟨(h c).1.trans (Cert.KernelIdeal.KVal.kernel_value m ρ c (hf c).2.2), (h c).2⟩)
      (Cert.KernelIdeal.GenP.run_v50 (F := Ideal) m ρ)
  · refine (θ_run Cert.ReferenceIdeal.defs _ _).mono (fun r h c => ⟨?_,
      (h c _).trans (Cert.ReferenceIdeal.RVal.after_arg m' c).1,
      (h c _).trans (Cert.ReferenceIdeal.RVal.after_arg m' c).2.1,
      (h c _).trans (Cert.ReferenceIdeal.RVal.after_arg m' c).2.2⟩)
      (Cert.ReferenceIdeal.ValueP.run_after (F := Ideal) m' ρ')
    refine (h c _).trans ((Cert.ReferenceIdeal.RVal.after_v148 m' c).trans ?_)
    rw [(hagree c).1, (hagree c).2.1, (hagree c).2.2]
    exact Cert.ReferenceIdeal.RVal.ref_value _ _ _ (hf c).1 (hf c).2.1 (hf c).2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
